-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "inv_temp" .f32 0x3D64F92E#32 ((524288 / 9378749 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x320x2048 : Shape := ⟨3, ![32, 320, 2048]⟩
abbrev S2048x2048 : Shape := ⟨2, ![2048, 2048]⟩
abbrev S320 : Shape := ⟨1, ![320]⟩
abbrev S_ : Shape := ⟨0, ![]⟩

class Facts : Prop where
  bcast_S_S32x320x2048 : S_.BroadcastsInDim S32x320x2048 (![] : Fin 0 → Fin S32x320x2048.rank)
  reducesTo_S32x320x2048_S_d0_1_2 : S32x320x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S320 : S_.BroadcastsInDim S320 (![] : Fin 0 → Fin S320.rank)
  reducesTo_S320_S_d0 : S320.ReducesTo [0] S_

variable [Facts]

def fn_part1 {F : FTy → Type} [FloatOps F] (main_arg4 : FVec F S2048x2048 .f32) (main_arg5 : FVec F S320 .f32) (main_arg6 : FVec F S320 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S320 .f32 := Host.absf main_arg5
  let main_cst_8 : FVec F S_ .f32 := constant S_ .f32 0x7F800000#32
  let main_v25 : FVec F S320 .f32 := broadcastInDim S320 ![] bcast_S_S320 main_cst_8
  let main_v26 : IVec S320 1 := cmpf .olt main_v24 main_v25
  let main_c_9 : IVec S_ 1 := constantI S_ 1 1#1
  let main_v27 : IVec S_ 1 := (fun x v => Host.reduce IntOp.andi x v reducesTo_S320_S_d0 h_S_) main_v26 main_c_9
  let main_v28 : IVec S_ 1 := andi main_v23 main_v27
  let main_v29 : FVec F S320 .f32 := Host.absf main_arg6
  let main_cst_10 : FVec F S_ .f32 := constant S_ .f32 0x7F800000#32
  let main_v30 : FVec F S320 .f32 := broadcastInDim S320 ![] bcast_S_S320 main_cst_10
  let main_v31 : IVec S320 1 := cmpf .olt main_v29 main_v30
  let main_c_11 : IVec S_ 1 := constantI S_ 1 1#1
  let main_v32 : IVec S_ 1 := (fun x v => Host.reduce IntOp.andi x v reducesTo_S320_S_d0 h_S_) main_v31 main_c_11
  let main_v33 : IVec S_ 1 := andi main_v28 main_v32
  main_v33

def fn {F : FTy → Type} [FloatOps F] (main_arg0 : FVec F S32x320x2048 .f32) (main_arg1 : FVec F S32x320x2048 .f32) (main_arg2 : FVec F S2048x2048 .f32) (main_arg3 : FVec F S2048x2048 .f32) (main_arg4 : FVec F S2048x2048 .f32) (main_arg5 : FVec F S320 .f32) (main_arg6 : FVec F S320 .f32) : IVec S_ 1 :=
  let main_v0 : FVec F S32x320x2048 .f32 := Host.absf main_arg0
  let main_cst : FVec F S_ .f32 := constant S_ .f32 0x7F800000#32
  let main_v1 : FVec F S32x320x2048 .f32 := broadcastInDim S32x320x2048 ![] bcast_S_S32x320x2048 main_cst
  let main_v2 : IVec S32x320x2048 1 := cmpf .olt main_v0 main_v1
  let main_c : IVec S_ 1 := constantI S_ 1 1#1
  let main_v3 : IVec S_ 1 := (fun x v => Host.reduce IntOp.andi x v reducesTo_S32x320x2048_S_d0_1_2 h_S_) main_v2 main_c
  let main_v4 : FVec F S32x320x2048 .f32 := Host.absf main_arg1
  let main_cst_0 : FVec F S_ .f32 := constant S_ .f32 0x7F800000#32
  let main_v5 : FVec F S32x320x2048 .f32 := broadcastInDim S32x320x2048 ![] bcast_S_S32x320x2048 main_cst_0
  let main_v6 : IVec S32x320x2048 1 := cmpf .olt main_v4 main_v5
  let main_c_1 : IVec S_ 1 := constantI S_ 1 1#1
  let main_v7 : IVec S_ 1 := (fun x v => Host.reduce IntOp.andi x v reducesTo_S32x320x2048_S_d0_1_2 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_v13 main_v16
-- ==== Kernel.lean ====
abbrev S32x320x2048 : Shape := ⟨3, ![32, 320, 2048]⟩
abbrev S2048x2048 : Shape := ⟨2, ![2048, 2048]⟩
abbrev S320 : Shape := ⟨1, ![320]⟩
abbrev S320x1 : Shape := ⟨2, ![320, 1]⟩
abbrev S1x320x2048 : Shape := ⟨3, ![1, 320, 2048]⟩
abbrev S320x2048 : Shape := ⟨2, ![320, 2048]⟩
abbrev S320x320 : Shape := ⟨2, ![320, 320]⟩
abbrev S2048x512 : Shape := ⟨2, ![2048, 512]⟩
abbrev S320x512 : Shape := ⟨2, ![320, 512]⟩
abbrev S1x320x512 : Shape := ⟨3, ![1, 320, 512]⟩
abbrev S512 : Shape := ⟨1, ![512]⟩
abbrev S1x512 : Shape := ⟨2, ![1, 512]⟩

abbrev nBuf : Space → Nat
  | .hbm => 17
  | .vmem => 15
  | .smem => 0
  | _ => 0

abbrev bufTy : (tb : Table) → Fin (tcTables nBuf tb) → BufTy
  | .hbm, ⟨0, _⟩ => ⟨S32x320x2048, .f32⟩
  | .hbm, ⟨1, _⟩ => ⟨S32x320x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S320, .f32⟩
  | .hbm, ⟨6, _⟩ => ⟨S320, .f32⟩
  | .hbm, ⟨7, _⟩ => ⟨S2048x2048, .f32⟩
  | .hbm, ⟨8, _⟩ => ⟨S2048x2048, .bf16⟩
  | .hbm, ⟨9, _⟩ => ⟨S2048x2048, .f32⟩
  | .hbm, ⟨10, _⟩ => ⟨S2048x2048, .bf16⟩
  | .hbm, ⟨11, _⟩ => ⟨S2048x2048, .f32⟩
  | .hbm, ⟨12, _⟩ => ⟨S2048x2048, .bf16⟩
  | .hbm, ⟨13, _⟩ => ⟨S320x1, .f32⟩
  | .hbm, ⟨14, _⟩ => ⟨S320x1, .f32⟩
  | .hbm, ⟨15, _⟩ => ⟨S32x320x2048, .bf16⟩
  | .hbm, ⟨16, _⟩ => ⟨S32x320x2048, .f32⟩
  | .local _ .vmem, ⟨0, _⟩ => ⟨S2048x2048, .bf16⟩
  | .local _ .vmem, ⟨1, _⟩ => ⟨S1x320x2048, .f32⟩
  | .local _ .vmem, ⟨2, _⟩ => ⟨S1x320x2048, .f32⟩
  | .local _ .vmem, ⟨3, _⟩ => ⟨S1x320x2048, .bf16⟩
  | .local _ .vmem, ⟨4, _⟩ => ⟨S1x320x2048, .bf16⟩
  | .local _ .vmem, ⟨5, _⟩ => ⟨S2048x2048, .bf16⟩
  | .local _ .vmem, ⟨6, _⟩ => ⟨S2048x2048, .bf16⟩
  | .local _ .vmem, ⟨7, _⟩ => ⟨S1x320x2048, .bf16⟩
  | .local _ .vmem, ⟨8, _⟩ => ⟨S1x320x2048, .bf16⟩
  | .local _ .vmem, ⟨9, _⟩ => ⟨S1x320x2048, .f32⟩
  | .local _ .vmem, ⟨10, _⟩ => ⟨S1x320x2048, .f32⟩
  | .local _ .vmem, ⟨11, _⟩ => ⟨S320x1, .f32⟩
  | .local _ .vmem, ⟨12, _⟩ => ⟨S320x1, .f32⟩
  | .local _ .vmem, ⟨13, _⟩ => ⟨S1x320x2048, .f32⟩
  | .local _ .vmem, ⟨14, _⟩ => ⟨S1x320x2048, .f32⟩
  | _, _ => ⟨S32x320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem5_0 : DmaSem sig := 12
abbrev cc1_sem6_0 : DmaSem sig := 13
abbrev cc1_sem6_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x320x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x320x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

@[reducible] def k1_t1_loop : Scf.Loop 32 :=
  let c0_i32 : BitVec 32 := 0#32
  let c4_i32 : BitVec 32 := 4#32
  let v4 : BitVec 32 := Scalar.addi c0_i32 c4_i32
  let c1_i32 : BitVec 32 := 1#32
  ⟨c0_i32, v4, c1_i32⟩
def k1_mult1 (k1_t1 : Fin k1_t1_loop.trips) : BitVec 32 :=
  let c0_i32 : BitVec 32 := 0#32
  let c1_i32 : BitVec 32 := 1#32
  let arg8 : BitVec 32 := Scf.iv c0_i32 c1_i32 k1_t1
  let c512_i32 : BitVec 32 := 512#32
  let v23 : BitVec 32 := Scalar.muli arg8 c512_i32
  v23
def k1_off1 (k1_t1 : Fin k1_t1_loop.trips) : Fin 2 → Nat :=
  let c0_14 : Index := 0#32
  let c0_i32 : BitVec 32 := 0#32
  let c1_i32 : BitVec 32 := 1#32
  let arg8 : BitVec 32 := Scf.iv c0_i32 c1_i32 k1_t1
  let c512_i32 : BitVec 32 := 512#32
  let v23 : BitVec 32 := Scalar.muli arg8 c512_i32
  let v24 : BitVec 32 := v23
  let v25 : Index := Scalar.indexCast v24
  ![0, v25.toNat]
def k1_off2 (k1_t1 : Fin k1_t1_loop.trips) : Fin 3 → Nat :=
  let c0_16 : Index := 0#32
  let c0_17 : Index := 0#32
  let c0_i32 : BitVec 32 := 0#32
  let c1_i32 : BitVec 32 := 1#32
  let arg8 : BitVec 32 := Scf.iv c0_i32 c1_i32 k1_t1
  let c512_i32 : BitVec 32 := 512#32
  let v23 : BitVec 32 := Scalar.muli arg8 c512_i32
  let v24 : BitVec 32 := v23
  let v30 : Index := Scalar.indexCast v24
  ![0, 0, v30.toNat]
@[reducible] def k1_t2_loop : Scf.Loop 32 :=
  let c0_i32_10 : BitVec 32 := 0#32
  let c4_i32_11 : BitVec 32 := 4#32
  let v22 : BitVec 32 := Scalar.addi c0_i32_10 c4_i32_11
  let c1_i32_12 : BitVec 32 := 1#32
  ⟨c0_i32_10, v22, c1_i32_12⟩
def k1_mult2 (k1_t2 : Fin k1_t2_loop.trips) : BitVec 32 :=
  let c0_i32_15 : BitVec 32 := 0#32
  let c0_i32_10 : BitVec 32 := 0#32
  let c1_i32_12 : BitVec 32 := 1#32
  let arg8 : BitVec 32 := Scf.iv c0_i32_10 c1_i32_12 k1_t2
  let c1_i32_14 : BitVec 32 := 1#32
  let v23 : BitVec 32 := Scalar.muli arg8 c1_i32_14
  let v24 : BitVec 32 := Scalar.addi c0_i32_15 v23
  let c512_i32 : BitVec 32 := 512#32
  let v25 : BitVec 32 := Scalar.muli v24 c512_i32
  v25
def k1_off3 (k1_t2 : Fin k1_t2_loop.trips) : Fin 2 → Nat :=
  let c0_16 : Index := 0#32
  let c0_i32_15 : BitVec 32 := 0#32
  let c0_i32_10 : BitVec 32 := 0#32
  let c1_i32_12 : BitVec 32 := 1#32
  let arg8 : BitVec 32 := Scf.iv c0_i32_10 c1_i32_12 k1_t2
  let c1_i32_14 : BitVec 32 := 1#32
  let v23 : BitVec 32 := Scalar.muli arg8 c1_i32_14
  let v24 : BitVec 32 := Scalar.addi c0_i32_15 v23
  let c512_i32 : BitVec 32 := 512#32
  let v25 : BitVec 32 := Scalar.muli v24 c512_i32
  let v26 : BitVec 32 := v25
  let v27 : Index := Scalar.indexCast v26
  ![0, v27.toNat]
def k1_off4 (k1_t2 : Fin k1_t2_loop.trips) : Fin 3 → Nat :=
  let c0_19 : Index := 0#32
  let c0_20 : Index := 0#32
  let c0_i32_15 : BitVec 32 := 0#32
  let c0_i32_10 : BitVec 32 := 0#32
  let c1_i32_12 : BitVec 32 := 1#32
  let arg8 : BitVec 32 := Scf.iv c0_i32_10 c1_i32_12 k1_t2
  let c1_i32_14 : BitVec 32 := 1#32
  let v23 : BitVec 32 := Scalar.muli arg8 c1_i32_14
  let v24 : BitVec 32 := Scalar.addi c0_i32_15 v23
  let c512_i32 : BitVec 32 := 512#32
  let v25 : BitVec 32 := Scalar.muli v24 c512_i32
  let v26 : BitVec 32 := v25
  let v33 : Index := Scalar.indexCast v26
  ![0, 0, v33.toNat]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S2048x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x320x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x320x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S320x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S320x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1x320x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  transposes_S2048x2048_S2048x2048_1_0 : S2048x2048.Transposes [1, 0] S2048x2048
  bitsLt_bf16_f32 : FTy.bits .bf16 < FTy.bits .f32
  shapeCasts_S320_S320x1 : S320.ShapeCasts S320x1
  inb_S1x320x2048_S1x320x2048_0_0_0 : ∀ a, (![0, 0, 0] : Fin 3 → Nat) a + S1x320x2048.size a ≤ S1x320x2048.size a
  h_S1x320x2048 : 0 < S1x320x2048.numel
  shapeCasts_S1x320x2048_S320x2048 : S1x320x2048.ShapeCasts S320x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  shapeCasts_S320x2048_S1x320x2048 : S320x2048.ShapeCasts S1x320x2048
  packedbf16_S1x320x2048_S1x320x2048_0_0_0 : (Rect.unit (s := S1x320x2048) ![0, 0, 0] S1x320x2048.size inb_S1x320x2048_S1x320x2048_0_0_0).PackedRows (EltTy.packing .bf16)
  h_S2048x512 : 0 < S2048x512.numel
  shapeCasts_S2048x512_S2048x512 : S2048x512.ShapeCasts S2048x512
  h_S1x320x512 : 0 < S1x320x512.numel
  shapeCasts_S1x320x512_S320x512 : S1x320x512.ShapeCasts S320x512
  reduces_S320x320_S320 : S320x320.Reduces [1] S320
  broadcasts_S320x1_S320x320 : S320x1.Broadcasts S320x320
  inb_S320x1_S320x1_0_0 : ∀ a, (![0, 0] : Fin 2 → Nat) a + S320x1.size a ≤ S320x1.size a
  h_S320x1 : 0 < S320x1.numel
  shapeCasts_S320x1_S320x1 : S320x1.ShapeCasts S320x1
  reduces_S320x512_S512 : S320x512.Reduces [0] S512
  shapeCasts_S512_S1x512 : S512.ShapeCasts S1x512
  broadcasts_S1x512_S320x512 : S1x512.Broadcasts S320x512
  broadcasts_S320x1_S320x512 : S320x1.Broadcasts S320x512
  shapeCasts_S320x512_S1x320x512 : S320x512.ShapeCasts S1x320x512
  dot_S320x2048_S2048x2048_S320x2048_1_0_0_1_n_n_wf : DotDims.WF S320x2048 S2048x2048 S320x2048 [1] [0] [0] [1] [] []
  dot_S320x2048_S2048x512_S320x512_1_0_0_1_n_n_wf : DotDims.WF S320x2048 S2048x512 S320x512 [1] [0] [0] [1] [] []
  dot_S320x512_S320x512_S320x320_1_1_0_0_n_n_wf : DotDims.WF S320x512 S320x512 S320x320 [1] [1] [0] [0] [] []
  dot_S320x320_S320x512_S320x512_1_0_0_1_n_n_wf : DotDims.WF S320x320 S320x512 S320x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S2048x2048.size a
  hwx0_0 : ∀ i : grid0.Coords, EltTy.bits .bf16 = 32 ∨ (Rect.block (s := S2048x2048) S2048x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x320x2048.size a ≤ S32x320x2048.size a
  hwx0_1 : ∀ i : grid0.Coords, EltTy.bits .f32 = 32 ∨ (Rect.block (s := S32x320x2048) S1x320x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x320x2048.size a ≤ S32x320x2048.size a
  hwx0_2 : ∀ i : grid0.Coords, EltTy.bits .bf16 = 32 ∨ (Rect.block (s := S32x320x2048) S1x320x2048.size (cc0_transform_2 i) (hinb0_2 i)).WholeWords (EltTy.packing .bf16)
  hrank1 : 0 < grid1.rank
  k1_t1_ok : k1_t1_loop.OK
  k1_mult1_dvd : ∀ k1_t1 : Fin k1_t1_loop.trips, 512 ∣ (k1_mult1 k1_t1).toNat
  k1_off1_inb : ∀ k1_t1 : Fin k1_t1_loop.trips, ∀ a, (k1_off1 k1_t1) a + S2048x512.size a ≤ S2048x2048.size a
  k1_off2_inb : ∀ k1_t1 : Fin k1_t1_loop.trips, ∀ a, (k1_off2 k1_t1) a + S1x320x512.size a ≤ S1x320x2048.size a
  k1_t2_ok : k1_t2_loop.OK
  k1_mult2_dvd : ∀ k1_t2 : Fin k1_t2_loop.trips, 512 ∣ (k1_mult2 k1_t2).toNat
  k1_off3_inb : ∀ k1_t2 : Fin k1_t2_loop.trips, ∀ a, (k1_off3 k1_t2) a + S2048x512.size a ≤ S2048x2048.size a
  k1_off4_inb : ∀ k1_t2 : Fin k1_t2_loop.trips, ∀ a, (k1_off4 k1_t2) a + S1x320x512.size a ≤ S1x320x2048.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S2048x2048.size a
  hwx1_0 : ∀ i : grid1.Coords, EltTy.bits .bf16 = 32 ∨ (Rect.block (s := S2048x2048) S2048x2048.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x320x2048.size a ≤ S32x320x2048.size a
  hwx1_2 : ∀ i : grid1.Coords, EltTy.bits .bf16 = 32 ∨ (Rect.block (s := S32x320x2048) S1x320x2048.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x320x2048.size a ≤ S32x320x2048.size a
  hwx1_3 : ∀ i : grid1.Coords, EltTy.bits .f32 = 32 ∨ (Rect.block (s := S32x320x2048) S1x320x2048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S320x1.size a ≤ S320x1.size a
  hwx1_4 : ∀ i : grid1.Coords, EltTy.bits .f32 = 32 ∨ (Rect.block (s := S320x1) S320x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S320x1.size a ≤ S320x1.size a
  hwx1_5 : ∀ i : grid1.Coords, EltTy.bits .f32 = 32 ∨ (Rect.block (s := S320x1) S320x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x320x2048.size a ≤ S32x320x2048.size a
  hwx1_6 : ∀ i : grid1.Coords, EltTy.bits .f32 = 32 ∨ (Rect.block (s := S32x320x2048) S1x320x2048.size (cc1_transform_6 i) (hinb1_6 i)).WholeWords (EltTy.packing .f32)

variable [Facts₀]

def dot_S320x2048_S2048x2048_S320x2048_1_0_0_1_n_n : DotDims S320x2048 S2048x2048 S320x2048 where
  lhsContracting := [1]
  rhsContracting := [0]
  lhsNonContracting := [0]
  rhsNonContracting := [1]
  lhsBatch := []
  rhsBatch := []
  wf := dot_S320x2048_S2048x2048_S320x2048_1_0_0_1_n_n_wf
def dot_S320x2048_S2048x512_S320x512_1_0_0_1_n_n : DotDims S320x2048 S2048x512 S320x512 where
  lhsContracting := [1]
  rhsContracting := [0]
  lhsNonContracting := [0]
  rhsNonContracting := [1]
  lhsBatch := []
  rhsBatch := []
  wf := dot_S320x2048_S2048x512_S320x512_1_0_0_1_n_n_wf
def dot_S320x512_S320x512_S320x320_1_1_0_0_n_n : DotDims S320x512 S320x512 S320x320 where
  lhsContracting := [1]
  rhsContracting := [1]
  lhsNonContracting := [0]
  rhsNonContracting := [0]
  lhsBatch := []
  rhsBatch := []
  wf := dot_S320x512_S320x512_S320x320_1_1_0_0_n_n_wf
def dot_S320x320_S320x512_S320x512_1_0_0_1_n_n : DotDims S320x320 S320x512 S320x512 where
  lhsContracting := [1]
  rhsContracting := [0]
  lhsNonContracting := [0]
  rhsNonContracting := [1]
  lhsBatch := []
  rhsBatch := []
  wf := dot_S320x320_S320x512_S320x512_1_0_0_1_n_n_wf

abbrev win0_0 : Pipeline.Window sig grid0 :=
  Pipeline.Window.ofSpec (Memref.whole main_v1) S2048x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x320x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x320x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S2048x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v5) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x320x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S1x320x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6) S320x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S320x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v9) S1x320x2048.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S32x320x2048 : Shape := ⟨3, ![32, 320, 2048]⟩
abbrev S2048x2048 : Shape := ⟨2, ![2048, 2048]⟩
abbrev S320 : Shape := ⟨1, ![320]⟩
abbrev S32x2048x320 : Shape := ⟨3, ![32, 2048, 320]⟩
abbrev S32x320x320 : Shape := ⟨3, ![32, 320, 320]⟩
abbrev S_ : Shape := ⟨0, ![]⟩
abbrev S32x320 : Shape := ⟨2, ![32, 320]⟩
abbrev S32x320x1 : Shape := ⟨3, ![32, 320, 1]⟩
abbrev S32x2048 : Shape := ⟨2, ![32, 2048]⟩
abbrev S32x2048x1 : Shape := ⟨3, ![32, 2048, 1]⟩
abbrev S1x1x320 : Shape := ⟨3, ![1, 1, 320]⟩

abbrev nBuf : Space → Nat
  | .hbm => 79
  | .vmem => 0
  | .smem => 0
  | _ => 0

abbrev bufTy : (tb : Table) → Fin (tcTables nBuf tb) → BufTy
  | .hbm, ⟨0, _⟩ => ⟨S32x320x2048, .f32⟩
  | .hbm, ⟨1, _⟩ => ⟨S32x320x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S320, .f32⟩
  | .hbm, ⟨6, _⟩ => ⟨S320, .f32⟩
  | .hbm, ⟨7, _⟩ => ⟨S32x320x2048, .f32⟩
  | .hbm, ⟨8, _⟩ => ⟨S32x2048x320, .f32⟩
  | .hbm, ⟨9, _⟩ => ⟨S32x320x2048, .f32⟩
  | .hbm, ⟨10, _⟩ => ⟨S32x2048x320, .f32⟩
  | .hbm, ⟨11, _⟩ => ⟨S32x320x2048, .f32⟩
  | .hbm, ⟨12, _⟩ => ⟨S32x2048x320, .f32⟩
  | .hbm, ⟨13, _⟩ => ⟨S32x320x320, .f32⟩
  | .hbm, ⟨14, _⟩ => ⟨S_, .f32⟩
  | .hbm, ⟨15, _⟩ => ⟨S32x320x320, .f32⟩
  | .hbm, ⟨16, _⟩ => ⟨S32x320x320, .f32⟩
  | .hbm, ⟨17, _⟩ => ⟨S_, .f32⟩
  | .hbm, ⟨18, _⟩ => ⟨S32x320, .f32⟩
  | .hbm, ⟨19, _⟩ => ⟨S_, .f32⟩
  | .hbm, ⟨20, _⟩ => ⟨S32x320, .f32⟩
  | .hbm, ⟨21, _⟩ => ⟨S32x320, .f32⟩
  | .hbm, ⟨22, _⟩ => ⟨S32x320x1, .f32⟩
  | .hbm, ⟨23, _⟩ => ⟨S32x320x320, .f32⟩
  | .hbm, ⟨24, _⟩ => ⟨S32x320x320, .f32⟩
  | .hbm, ⟨25, _⟩ => ⟨S32x320x320, .f32⟩
  | .hbm, ⟨26, _⟩ => ⟨S_, .f32⟩
  | .hbm, ⟨27, _⟩ => ⟨S32x320, .f32⟩
  | .hbm, ⟨28, _⟩ => ⟨S32x320x1, .f32⟩
  | .hbm, ⟨29, _⟩ => ⟨S32x320x320, .f32⟩
  | .hbm, ⟨30, _⟩ => ⟨S32x320x320, .f32⟩
  | .hbm, ⟨31, _⟩ => ⟨S32x320x2048, .f32⟩
  | .hbm, ⟨32, _⟩ => ⟨S32x320x2048, .f32⟩
  | .hbm, ⟨33, _⟩ => ⟨S32x2048x320, .f32⟩
  | .hbm, ⟨34, _⟩ => ⟨S_, .f32⟩
  | .hbm, ⟨35, _⟩ => ⟨S32x2048, .f32⟩
  | .hbm, ⟨36, _⟩ => ⟨S32x2048x1, .f32⟩
  | .hbm, ⟨37, _⟩ => ⟨S_, .f32⟩
  | .hbm, ⟨38, _⟩ => ⟨S32x2048x1, .f32⟩
  | .hbm, ⟨39, _⟩ => ⟨S32x2048x1, .f32⟩
  | .hbm, ⟨40, _⟩ => ⟨S_, .i32⟩
  | .hbm, ⟨41, _⟩ => ⟨S_, .f32⟩
  | .hbm, ⟨42, _⟩ => ⟨S32x2048, .f32⟩
  | .hbm, ⟨43, _⟩ => ⟨S32x2048x1, .f32⟩
  | .hbm, ⟨44, _⟩ => ⟨S_, .f32⟩
  | .hbm, ⟨45, _⟩ => ⟨S32x2048x1, .f32⟩
  | .hbm, ⟨46, _⟩ => ⟨S32x2048x1, .f32⟩
  | .hbm, ⟨47, _⟩ => ⟨S32x2048x320, .f32⟩
  | .hbm, ⟨48, _⟩ => ⟨S32x2048x320, .f32⟩
  | .hbm, ⟨49, _⟩ => ⟨S32x2048x320, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S32x2048, .f32⟩
  | .hbm, ⟨55, _⟩ => ⟨S32x2048x1, .f32⟩
  | .hbm, ⟨56, _⟩ => ⟨S32x2048x1, .f32⟩
  | .hbm, ⟨57, _⟩ => ⟨S32x2048x1, .f32⟩
  | .hbm, ⟨58, _⟩ => ⟨S_, .f32⟩
  | .hbm, ⟨59, _⟩ => ⟨S_, .i1⟩
  | .hbm, ⟨60, _⟩ => ⟨S_, .f32⟩
  | .hbm, ⟨61, _⟩ => ⟨S_, .f32⟩
  | .hbm, ⟨62, _⟩ => ⟨S32x2048x1, .f32⟩
  | .hbm, ⟨63, _⟩ => ⟨S32x2048x1, .f32⟩
  | .hbm, ⟨64, _⟩ => ⟨S32x2048x320, .f32⟩
  | .hbm, ⟨65, _⟩ => ⟨S32x2048x320, .f32⟩
  | .hbm, ⟨66, _⟩ => ⟨S_, .f32⟩
  | .hbm, ⟨67, _⟩ => ⟨S32x2048x1, .f32⟩
  | .hbm, ⟨68, _⟩ => ⟨S32x2048x1, .f32⟩
  | .hbm, ⟨69, _⟩ => ⟨S32x2048x1, .f32⟩
  | .hbm, ⟨70, _⟩ => ⟨S32x2048x320, .f32⟩
  | .hbm, ⟨71, _⟩ => ⟨S32x2048x320, .f32⟩
  | .hbm, ⟨72, _⟩ => ⟨S1x1x320, .f32⟩
  | .hbm, ⟨73, _⟩ => ⟨S32x2048x320, .f32⟩
  | .hbm, ⟨74, _⟩ => ⟨S32x2048x320, .f32⟩
  | .hbm, ⟨75, _⟩ => ⟨S1x1x320, .f32⟩
  | .hbm, ⟨76, _⟩ => ⟨S32x2048x320, .f32⟩
  | .hbm, ⟨77, _⟩ => ⟨S32x2048x320, .f32⟩
  | .hbm, ⟨78, _⟩ => ⟨S32x320x2048, .f32⟩
  | _, _ => ⟨S32x320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_c : Ref sig .tc := ⟨.hbm, 40, rfl⟩
abbrev main_call0_cst : Ref sig .tc := ⟨.hbm, 41, rfl⟩
abbrev main_call0_v0 : Ref sig .tc := ⟨.hbm, 42, rfl⟩
abbrev main_call0_v1 : Ref sig .tc := ⟨.hbm, 43, rfl⟩
abbrev main_call0_cst_0 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_call0_v6 : Ref sig .tc := ⟨.hbm, 49, rfl⟩
abbrev main_call0_v7 : Ref sig .tc := ⟨.hbm, 50, rfl⟩
abbrev main_call0_cst_1 : Ref sig .tc := ⟨.hbm, 51, rfl⟩
abbrev main_call0_v8 : Ref sig .tc := ⟨.hbm, 52, rfl⟩
abbrev main_call0_cst_2 : Ref sig .tc := ⟨.hbm, 53, rfl⟩
abbrev main_call0_v9 : Ref sig .tc := ⟨.hbm, 54, rfl⟩
abbrev main_call0_v10 : Ref sig .tc := ⟨.hbm, 55, rfl⟩
abbrev main_call0_v11 : Ref sig .tc := ⟨.hbm, 56, rfl⟩
abbrev main_call0_v12 : Ref sig .tc := ⟨.hbm, 57, rfl⟩
abbrev main_call0_cst_3 : Ref sig .tc := ⟨.hbm, 58, rfl⟩
abbrev main_call0_v13 : Ref sig .tc := ⟨.hbm, 59, rfl⟩
abbrev main_call0_cst_4 : Ref sig .tc := ⟨.hbm, 60, rfl⟩
abbrev main_call0_call0_v0 : Ref sig .tc := ⟨.hbm, 61, rfl⟩
abbrev main_call0_call0_v1 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_cst_5 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩

abbrev nD : Nat := 1
abbrev τ : Topo := Topo.v7x

variable {F : FTy → Type} [FloatOps F]

class Facts₀ : Prop where
  transposes_S32x320x2048_S32x2048x320_0_2_1 : S32x320x2048.Transposes [0, 2, 1] S32x2048x320
  bcast_S_S32x320x320 : S_.BroadcastsInDim S32x320x320 (![] : Fin 0 → Fin S32x320x320.rank)
  reducesTo_S32x320x320_S32x320_d2 : S32x320x320.ReducesTo [2] S32x320
  h_S_ : 0 < S_.numel
  bcast_S_S32x320 : S_.BroadcastsInDim S32x320 (![] : Fin 0 → Fin S32x320.rank)
  bcast_S32x320_S32x320x1_0_1 : S32x320.BroadcastsInDim S32x320x1 (![0, 1] : Fin 2 → Fin S32x320x1.rank)
  bcast_S32x320x1_S32x320x320_0_1_2 : S32x320x1.BroadcastsInDim S32x320x320 (![0, 1, 2] : Fin 3 → Fin S32x320x320.rank)
  reducesTo_S32x2048x320_S32x2048_d2 : S32x2048x320.ReducesTo [2] S32x2048
  bcast_S32x2048_S32x2048x1_0_1 : S32x2048.BroadcastsInDim S32x2048x1 (![0, 1] : Fin 2 → Fin S32x2048x1.rank)
  bcast_S_S32x2048x1 : S_.BroadcastsInDim S32x2048x1 (![] : Fin 0 → Fin S32x2048x1.rank)
  bcast_S32x2048x1_S32x2048x320_0_1_2 : S32x2048x1.BroadcastsInDim S32x2048x320 (![0, 1, 2] : Fin 3 → Fin S32x2048x320.rank)
  bcast_S320_S1x1x320_2 : S320.BroadcastsInDim S1x1x320 (![2] : Fin 1 → Fin S1x1x320.rank)
  bcast_S1x1x320_S32x2048x320_0_1_2 : S1x1x320.BroadcastsInDim S32x2048x320 (![0, 1, 2] : Fin 3 → Fin S32x2048x320.rank)
  transposes_S32x2048x320_S32x320x2048_0_2_1 : S32x2048x320.Transposes [0, 2, 1] S32x320x2048
  dot_S32x320x2048_S2048x2048_S32x320x2048_2_1_01_0_n_n_wf : DotDims.WF S32x320x2048 S2048x2048 S32x320x2048 [2] [1] [0, 1] [0] [] []
  dot_S32x2048x320_S32x2048x320_S32x320x320_1_1_2_2_0_0_wf : DotDims.WF S32x2048x320 S32x2048x320 S32x320x320 [1] [1] [2] [2] [0] [0]
  dot_S32x320x320_S32x2048x320_S32x320x2048_2_2_1_1_0_0_wf : DotDims.WF S32x320x320 S32x2048x320 S32x320x2048 [2] [2] [1] [1] [0] [0]

variable [Facts₀]

def dot_S32x320x2048_S2048x2048_S32x320x2048_2_1_01_0_n_n : DotDims S32x320x2048 S2048x2048 S32x320x2048 where
  lhsContracting := [2]
  rhsContracting := [1]
  lhsNonContracting := [0, 1]
  rhsNonContracting := [0]
  lhsBatch := []
  rhsBatch := []
  wf := dot_S32x320x2048_S2048x2048_S32x320x2048_2_1_01_0_n_n_wf
def dot_S32x2048x320_S32x2048x320_S32x320x320_1_1_2_2_0_0 : DotDims S32x2048x320 S32x2048x320 S32x320x320 where
  lhsContracting := [1]
  rhsContracting := [1]
  lhsNonContracting := [2]
  rhsNonContracting := [2]
  lhsBatch := [0]
  rhsBatch := [0]
  wf := dot_S32x2048x320_S32x2048x320_S32x320x320_1_1_2_2_0_0_wf
def dot_S32x320x320_S32x2048x320_S32x320x2048_2_2_1_1_0_0 : DotDims S32x320x320 S32x2048x320 S32x320x2048 where
  lhsContracting := [2]
  rhsContracting := [2]
  lhsNonContracting := [1]
  rhsNonContracting := [1]
  lhsBatch := [0]
  rhsBatch := [0]
  wf := dot_S32x320x320_S32x2048x320_S32x320x2048_2_2_1_1_0_0_wf

class Facts : Prop extends Facts₀ where

variable [Facts]
-- ==== Proof.Consts.lean ====
/-
  The float words this certificate evaluates, as the extended reals they denote: −∞ (the row maximum's start), 320 (the
  number of features, which the reference's variance also compares with zero), and the reference's divisor word, the f32
  nearest √320, which is exactly 9378749/524288. Every other word of the two programs occurs identically on both sides and is
  never evaluated.
-/
import Idealize.ShloMosaic.PureOps.Ideal

noncomputable section

namespace Cert.Consts

open Idealize.ShloMosaic

/-- The −∞ word denotes the bottom element. -/
theorem ofBits_negInf : Ideal.ofBits .f32 0xFF800000#32 = ⊥ := by
  simp [Ideal.ofBits, Ideal.ieee]

/-- The word of 320.0 denotes the real 320. -/
theorem ofBits_320 : Ideal.ofBits .f32 0x43A00000#32 = ((320 : ℝ) : EReal) := by
  simp [Ideal.ofBits, Ideal.ieee, -EReal.coe_mul]; norm_num

/-- The reference's divisor word denotes the real 9378749/524288. -/
theorem ofBits_temp : Ideal.ofBits .f32 0x418F1BBD#32 = ((9378749 / 524288 : ℝ) : EReal) := by
  simp [Ideal.ofBits, Ideal.ieee, -EReal.coe_mul]; norm_num

end Cert.Consts

end
-- ==== Proof.Spec.lean ====
/-
  The mathematics both programs compute, over the extended reals, with plain coordinates.

  For each batch b:
    q[l,o]   = Σ_i support[b,l,i] · Wq[o,i]        k[m,o] = Σ_i query[b,m,i] · Wk[o,i]      v[m,o] = Σ_i query[b,m,i] · Wv[o,i]
    logit[l,m] = Σ_o q[l,o] · k[m,o]
    a[l,m]   = logit[l,m] scaled by 1/√320 (how the scale is applied is the parameter `sc`)
    p[l,m]   = exp (a[l,m] − max_m a[l,·]) / Σ_m exp (a[l,m] − max_m a[l,·])
    u[l,o]   = Σ_m p[l,m] · v[m,o] + query[b,l,o]
    result[l,o] = (u[l,o] − μ_o) · rsqrt (σ²_o + ε) · γ[l] + β[l],   μ_o = (Σ_l u[l,o]) / 320,  σ²_o = (Σ_l (u[l,o] − μ_o)²) / 320.

  The kernel multiplies the logits by the named constant 524288/9378749, the reciprocal of the value 9378749/524288 that
  the reference's divisor word denotes; the reference divides by that word. On the extended reals dividing by a nonzero
  real IS multiplying by its reciprocal, so the two scalings are one function (`scaleK_eq_scaleR`).
-/
import Idealize.ShloMosaic.PureOps.Ideal
import Idealize.ShloMosaic.PureOps.Ideal.Laws
import Idealize.ShloMosaic.Lib.ValueIdx
import proofs.«404545_j32409823216126_3_alg».proof.Proof.Consts

noncomputable section

namespace Cert.Spec

open Idealize.ShloMosaic

/-- 320 as the reference's and the kernel's shared divisor word denotes it. -/
def n320 : EReal := Ideal.ofBits .f32 0x43A00000#32
/-- The variance's shared additive constant, as its word denotes it. -/
def eps : EReal := Ideal.ofBits .f32 0x3727C5AC#32
/-- The reference's divisor word (the f32 nearest √320). -/
def temp : EReal := Ideal.ofBits .f32 0x418F1BBD#32
/-- The kernel's named factor: the reciprocal of the value `temp`'s word denotes. -/
def invTemp : EReal := ((524288 / 9378749 : ℝ) : EReal)

/-- How the kernel scales a logit. -/
def scaleK (x : EReal) : EReal := x * invTemp
/-- How the reference scales a logit. -/
def scaleR (x : EReal) : EReal := Ideal.div x temp

/-- One batch's projection: row f of X against row o of W. -/
def projB (X : Fin 320 → Fin 2048 → EReal) (W : Fin 2048 → Fin 2048 → EReal) (f : Fin 320) (o : Fin 2048) : EReal :=
  ∑ i : Fin 2048, X f i * W o i

/-- One batch's logits from the projected support rows `q` and the projected query rows `k`. -/
def logitB (q k : Fin 320 → Fin 2048 → EReal) (l m : Fin 320) : EReal := ∑ o : Fin 2048, q l o * k m o

/-- A row's maximum, from −∞. -/
def rowMax (a : Fin 320 → EReal) : EReal := (Finset.univ : Finset (Fin 320)).fold max ⊥ a

/-- A row's softmax. -/
def softmaxRow (a : Fin 320 → EReal) (m : Fin 320) : EReal :=
  Ideal.div (Ideal.exp (a m - rowMax a)) (∑ m' : Fin 320, Ideal.exp (a m' - rowMax a))

/-- A column's mean over the 320 features. -/
def colMean (u : Fin 320 → EReal) : EReal := Ideal.div (∑ l : Fin 320, u l) n320

/-- A column's variance over the 320 features. -/
def colVar (u : Fin 320 → EReal) : EReal := Ideal.div (∑ l : Fin 320, (u l - colMean u) * (u l - colMean u)) n320

/-- LayerNorm of one column over the 320 features, with the affine parameters. -/
def layerNormCol (gamma beta : Fin 320 → EReal) (u : Fin 320 → EReal) (l : Fin 320) : EReal :=
  (u l - colMean u) * Ideal.rsqrt (colVar u + eps) * gamma l + beta l

/-- One batch's result from the projected support rows `q` (the first kernel's output block), the batch's query rows `X`,
    the two weights and the affine parameters; `sc` is how a logit is scaled. -/
def GB (sc : EReal → EReal) (q X : Fin 320 → Fin 2048 → EReal) (Wk Wv : Fin 2048 → Fin 2048 → EReal)
    (gamma beta : Fin 320 → EReal) (l : Fin 320) (o : Fin 2048) : EReal :=
  layerNormCol gamma beta
    (fun l' => (∑ m : Fin 320, softmaxRow (fun m' => sc (logitB q (projB X Wk) l' m')) m * projB X Wv m o) + X l' o) l

/-- The whole result. -/
def G (sc : EReal → EReal) (query support : Fin 32 → Fin 320 → Fin 2048 → EReal) (Wq Wk Wv : Fin 2048 → Fin 2048 → EReal)
    (gamma beta : Fin 320 → EReal) (b : Fin 32) (l : Fin 320) (o : Fin 2048) : EReal :=
  GB sc (projB (support b) Wq) (query b) Wk Wv gamma beta l o

/-- The reference's divisor word denotes the real 9378749/524288. -/
theorem temp_eq : temp = ((9378749 / 524288 : ℝ) : EReal) := Cert.Consts.ofBits_temp

/-- Dividing by the reference's word is multiplying by the kernel's named reciprocal. -/
theorem scaleK_eq_scaleR : scaleK = scaleR := by
  funext x
  unfold scaleK scaleR invTemp
  rw [temp_eq, Ideal.div_coe (by norm_num : (9378749 / 524288 : ℝ) ≠ 0)]
  congr 2
  norm_num

/-- A sum over 2048 coordinates, taken 512 at a time from zero, as the first kernel's accumulation takes it. -/
theorem sum_chunks {β : Type} [AddCommMonoid β] (f : Fin 2048 → β) :
    (∑ o : Fin 2048, f o)
      = (((0 + ∑ j : Fin 512, f ⟨0 * 512 + j.val, by omega⟩) + ∑ j : Fin 512, f ⟨1 * 512 + j.val, by omega⟩)
          + ∑ j : Fin 512, f ⟨2 * 512 + j.val, by omega⟩) + ∑ j : Fin 512, f ⟨3 * 512 + j.val, by omega⟩ := by
  -- 2048 = 4 · 512: a coordinate is a chunk number and a place in the chunk
  have e : ∀ g : Fin (4 * 512) → β, (∑ o : Fin (4 * 512), g o) = ∑ p : Fin 4 × Fin 512, g (finProdFinEquiv p) :=
    fun g => (Equiv.sum_comp finProdFinEquiv g).symm
  have hk : ∀ (k : Fin 4) (hb : ∀ j : Fin 512, k.val * 512 + j.val < 2048),
      (∑ j : Fin 512, f (finProdFinEquiv (k, j))) = ∑ j : Fin 512, f ⟨k.val * 512 + j.val, hb j⟩ := fun k hb =>
    Finset.sum_congr rfl fun j _ => congrArg f (Fin.ext (by
      show j.val + 512 * k.val = k.val * 512 + j.val
      omega))
  refine (e f).trans ?_
  rw [Fintype.sum_prod_type, Fin.sum_univ_four, zero_add,
    hk 0 (fun j => by have := j.isLt; show 0 * 512 + j.val < 2048; omega),
    hk 1 (fun j => by have := j.isLt; show 1 * 512 + j.val < 2048; omega),
    hk 2 (fun j => by have := j.isLt; show 2 * 512 + j.val < 2048; omega),
    hk 3 (fun j => by have := j.isLt; show 3 * 512 + j.val < 2048; omega)]
  rfl

/-- The whole result as an array over the printed shapes, from the seven argument arrays in the programs' argument order
    (query, support, Wq, Wk, Wv, gamma, beta). -/
def res (sc : EReal → EReal) (a0 a1 : (⟨3, ![32, 320, 2048]⟩ : Shape).Idx → EReal)
    (a2 a3 a4 : (⟨2, ![2048, 2048]⟩ : Shape).Idx → EReal) (a5 a6 : (⟨1, ![320]⟩ : Shape).Idx → EReal) :
    (⟨3, ![32, 320, 2048]⟩ : Shape).Idx → EReal :=
  fun j => G sc (fun b f i => a0 (ValueIdx.ix3 b f i)) (fun b f i => a1 (ValueIdx.ix3 b f i))
    (fun o i => a2 (ValueIdx.ix2 o i)) (fun o i => a3 (ValueIdx.ix2 o i)) (fun o i => a4 (ValueIdx.ix2 o i))
    (fun l => a5 (ValueIdx.ix1 l)) (fun l => a6 (ValueIdx.ix1 l)) (j 0) (j 1) (j 2)

end Cert.Spec

end
-- ==== Proof.LibDotSum.lean ====
/-
  A matrix product with ONE contracted axis, read at an output index as a sum over that axis's coordinate.
  The library states the product's value as a sum over the dimension numbers' contraction index set of the operands at
  two computed operand indices. For the two patterns below the contraction index is one coordinate `k`, and the operand
  indices are (r, k), (k, c) for rows × columns, and (k, r), (k, c) when the left operand is contracted over its rows.
  Each is stated for any extents and any dimension-numbers record with those axis lists.
-/
import Idealize.ShloMosaic.PureOps.Ideal.Laws
import Idealize.ShloMosaic.Lib.ValueIdx

noncomputable section

namespace Cert.Lib

open Idealize.ShloMosaic Idealize.ShloMosaic.ValueIdx

variable {M K N : Nat}

/-! ## Rows × columns: left axis 1 against right axis 0 -/

/-- The dimension numbers of an [M, K] × [K, N] product. -/
def rc (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

theorem rc_lhs_0 (i : (⟨2, ![M, N]⟩ : Shape).Idx) (q : (rc wf).contr.Idx) : ((rc wf).lhsIdx i q 0).val = (i 0).val := by
  unfold DotDims.lhsIdx
  rw [dif_neg (show ¬(0 : Fin (⟨2, ![M, K]⟩ : Shape).rank) ∈ (rc wf).lhsBatch by simp [rc]),
    dif_pos (show (0 : Fin (⟨2, ![M, K]⟩ : Shape).rank) ∈ (rc wf).lhsNonContracting by simp [rc])]
  rfl
theorem rc_lhs_1 (i : (⟨2, ![M, N]⟩ : Shape).Idx) (q : (rc wf).contr.Idx) :
    ((rc wf).lhsIdx i q 1).val = (q ⟨0, Nat.one_pos⟩).val :=
  (rc wf).lhsIdx_val_of_single rfl i q
theorem rc_rhs_0 (i : (⟨2, ![M, N]⟩ : Shape).Idx) (q : (rc wf).contr.Idx) :
    ((rc wf).rhsIdx i q 0).val = (q ⟨0, Nat.one_pos⟩).val :=
  (rc wf).rhsIdx_val_of_single rfl i q
theorem rc_rhs_1 (i : (⟨2, ![M, N]⟩ : Shape).Idx) (q : (rc wf).contr.Idx) : ((rc wf).rhsIdx i q 1).val = (i 1).val := by
  unfold DotDims.rhsIdx
  rw [dif_neg (show ¬(1 : Fin (⟨2, ![K, N]⟩ : Shape).rank) ∈ (rc wf).rhsBatch by simp [rc]),
    dif_pos (show (1 : Fin (⟨2, ![K, N]⟩ : Shape).rank) ∈ (rc wf).rhsNonContracting by simp [rc])]
  rfl

/-- The contraction sum of a rows × columns product at (r, c) runs over the pairs (r, k), (k, c). -/
theorem sum_rc {β : Type} [AddCommMonoid β] (f : (⟨2, ![M, K]⟩ : Shape).Idx → (⟨2, ![K, N]⟩ : Shape).Idx → β)
    (r : Fin M) (c : Fin N) :
    ∑ k : (rc wf).contr.Idx, f ((rc wf).lhsIdx (ix2 r c) k) ((rc wf).rhsIdx (ix2 r c) k)
      = ∑ k : Fin K, f (ix2 r k) (ix2 k c) := by
  rw [← Equiv.sum_comp (contrEquiv1 (rc wf) K rfl rfl).symm]
  refine Finset.sum_congr rfl fun k _ => ?_
  have hk := contrEquiv1_symm_val (rc wf) K rfl rfl k
  have el : (rc wf).lhsIdx (ix2 r c) ((contrEquiv1 (rc wf) K rfl rfl).symm k) = ix2 r k := funext fun a => Fin.ext (by
    match a with
    | ⟨0, _⟩ => exact rc_lhs_0 wf _ _
    | ⟨1, _⟩ => exact (rc_lhs_1 wf _ _).trans hk)
  have er : (rc wf).rhsIdx (ix2 r c) ((contrEquiv1 (rc wf) K rfl rfl).symm k) = ix2 k c := funext fun a => Fin.ext (by
    match a with
    | ⟨0, _⟩ => exact (rc_rhs_0 wf _ _).trans hk
    | ⟨1, _⟩ => exact rc_rhs_1 wf _ _)
  rw [el, er]

/-- The same for any record with those axis lists. -/
theorem sum_contr_rc {β : Type} [AddCommMonoid β] (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (f : (⟨2, ![M, K]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 r k) (ix2 k c) := by
  obtain ⟨lc, rc', ln, rn, lb, rb, wf'⟩ := d
  simp only at hlc hrc hln hrn hlb hrb
  subst hlc hrc hln hrn hlb hrb
  exact sum_rc wf' f r c

/-! ## Left operand contracted over its rows: left axis 0 against right axis 0 -/

/-- The dimension numbers of a [K, M]ᵀ × [K, N] product. -/
def cc (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

variable (wg : DotDims.WF ⟨2, ![K, M]⟩ ⟨2, ![K, N]⟩ ⟨2, ![M, N]⟩ [0] [0] [1] [1] [] [])

theorem cc_lhs_0 (i : (⟨2, ![M, N]⟩ : Shape).Idx) (q : (cc wg).contr.Idx) :
    ((cc wg).lhsIdx i q 0).val = (q ⟨0, Nat.one_pos⟩).val :=
  (cc wg).lhsIdx_val_of_single rfl i q
theorem cc_lhs_1 (i : (⟨2, ![M, N]⟩ : Shape).Idx) (q : (cc wg).contr.Idx) : ((cc wg).lhsIdx i q 1).val = (i 0).val := by
  unfold DotDims.lhsIdx
  rw [dif_neg (show ¬(1 : Fin (⟨2, ![K, M]⟩ : Shape).rank) ∈ (cc wg).lhsBatch by simp [cc]),
    dif_pos (show (1 : Fin (⟨2, ![K, M]⟩ : Shape).rank) ∈ (cc wg).lhsNonContracting by simp [cc])]
  rfl
theorem cc_rhs_0 (i : (⟨2, ![M, N]⟩ : Shape).Idx) (q : (cc wg).contr.Idx) :
    ((cc wg).rhsIdx i q 0).val = (q ⟨0, Nat.one_pos⟩).val :=
  (cc wg).rhsIdx_val_of_single rfl i q
theorem cc_rhs_1 (i : (⟨2, ![M, N]⟩ : Shape).Idx) (q : (cc wg).contr.Idx) : ((cc wg).rhsIdx i q 1).val = (i 1).val := by
  unfold DotDims.rhsIdx
  rw [dif_neg (show ¬(1 : Fin (⟨2, ![K, N]⟩ : Shape).rank) ∈ (cc wg).rhsBatch by simp [cc]),
    dif_pos (show (1 : Fin (⟨2, ![K, N]⟩ : Shape).rank) ∈ (cc wg).rhsNonContracting by simp [cc])]
  rfl

/-- The contraction sum at (r, c) runs over the pairs (k, r), (k, c). -/
theorem sum_cc {β : Type} [AddCommMonoid β] (f : (⟨2, ![K, M]⟩ : Shape).Idx → (⟨2, ![K, N]⟩ : Shape).Idx → β)
    (r : Fin M) (c : Fin N) :
    ∑ k : (cc wg).contr.Idx, f ((cc wg).lhsIdx (ix2 r c) k) ((cc wg).rhsIdx (ix2 r c) k)
      = ∑ k : Fin K, f (ix2 k r) (ix2 k c) := by
  rw [← Equiv.sum_comp (contrEquiv1 (cc wg) K rfl rfl).symm]
  refine Finset.sum_congr rfl fun k _ => ?_
  have hk := contrEquiv1_symm_val (cc wg) K rfl rfl k
  have el : (cc wg).lhsIdx (ix2 r c) ((contrEquiv1 (cc wg) K rfl rfl).symm k) = ix2 k r := funext fun a => Fin.ext (by
    match a with
    | ⟨0, _⟩ => exact (cc_lhs_0 wg _ _).trans hk
    | ⟨1, _⟩ => exact cc_lhs_1 wg _ _)
  have er : (cc wg).rhsIdx (ix2 r c) ((contrEquiv1 (cc wg) K rfl rfl).symm k) = ix2 k c := funext fun a => Fin.ext (by
    match a with
    | ⟨0, _⟩ => exact (cc_rhs_0 wg _ _).trans hk
    | ⟨1, _⟩ => exact cc_rhs_1 wg _ _)
  rw [el, er]

/-- The same for any record with those axis lists. -/
theorem sum_contr_cc {β : Type} [AddCommMonoid β] (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = [])
    (f : (⟨2, ![K, M]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 k r) (ix2 k c) := by
  obtain ⟨lc, rc', ln, rn, lb, rb, wf'⟩ := d
  simp only at hlc hrc hln hrn hlb hrb
  subst hlc hrc hln hrn hlb hrb
  exact sum_cc wf' f r c

/-! ## The products themselves, at an output index -/

/-- A rows × columns block product into the zero accumulator, at (r, c): the sum over k of A (r, k) · B (k, c). -/
theorem matmul_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 r k) * B (ix2 k c) := by
  simp only [matmul]
  rw [Ideal.matmul_constant_zero_apply]
  exact sum_contr_rc d hlc hrc hln hrn hlb hrb (fun a b => A a * B b) r c

/-- A block product whose left operand is contracted over its rows, into the zero accumulator, at (r, c): the sum over
    k of A (k, r) · B (k, c). -/
theorem matmul_cc_apply {φ₁ φ₂ : FTy} (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = []) (prec : Option ContractPrecision)
    (A : FVec Ideal ⟨2, ![K, M]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 k r) * B (ix2 k c) := by
  simp only [matmul]
  rw [Ideal.matmul_constant_zero_apply]
  exact sum_contr_cc d hlc hrc hln hrn hlb hrb (fun a b => A a * B b) r c

/-- The host's rows × columns product at (r, c): the same sum. -/
theorem dotGeneral_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    Host.dotGeneral d prec A B (ix2 r c) = ∑ k : Fin K, A (ix2 r k) * B (ix2 k c) := by
  simp only [Host.dotGeneral]
  rw [Ideal.dotGeneral_apply]
  exact sum_contr_rc d hlc hrc hln hrn hlb hrb (fun a b => A a * B b) r c

end Cert.Lib

end
-- ==== Proof.KEntry.lean ====
/-
  What the second kernel finds when it is entered, as functions of the launch memory: the projected support rows the first kernel
  wrote (row f of the batch's support block against row o of the first weight), the two other weights transposed, the affine
  parameters as column vectors, and the query array as launched.
-/
import proofs.«404545_j32409823216126_3_alg».proof.Proof.Gen.KernelIdeal.Frame
import proofs.«404545_j32409823216126_3_alg».proof.Proof.Spec
import proofs.«404545_j32409823216126_3_alg».proof.Proof.LibDotSum
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Entry

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The first kernel, at any entry contents -/

section FirstKernel

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The body's arithmetic at (u, f, o): row f of the support block against column o of the weight block. -/
theorem pay_apply (x1 : FVec Ideal S1x320x2048 .f32) (x0 : FVec Ideal S2048x2048 .bf16) (u : Fin 1) (f : Fin 320) (o : Fin 2048) :
    (k0_pay1 (F := Ideal) x1 x0 : FVec Ideal S1x320x2048 .bf16) (ix3 u f o) = ∑ i : Fin 2048, x1 (ix3 (0 : Fin 1) f i) * x0 (ix2 i o) := by
  unfold k0_pay1
  refine (shapeCast_ab_1ab_apply _ _ u f o).trans ?_
  refine (truncf_apply (ψ := .bf16) (φ := .f32) _ bitsLt_bf16_f32 (ix2 f o)).trans ?_
  refine (Cert.Lib.matmul_rc_apply dot_S320x2048_S2048x2048_S320x2048_1_0_0_1_n_n rfl rfl rfl rfl rfl rfl none _ _ f o).trans ?_
  refine Finset.sum_congr rfl fun i _ => ?_
  have e1 : (truncf (F := Ideal) .bf16 (shapeCast S320x2048 x1 shapeCasts_S1x320x2048_S320x2048) bitsLt_bf16_f32 : FVec Ideal S320x2048 .bf16) (ix2 f i) = x1 (ix3 (0 : Fin 1) f i) :=
    (truncf_apply (ψ := .bf16) (φ := .f32) _ bitsLt_bf16_f32 (ix2 f i)).trans (shapeCast_1ab_ab_apply _ _ f i)
  have e2 : (shapeCast S2048x2048 x0 shapeCasts_S2048x2048_S2048x2048 : FVec Ideal S2048x2048 .bf16) (ix2 i o) = x0 (ix2 i o) :=
    congrFun (shapeCast_self _ _) _
  rw [e1, e2]

/-- Where each window's block sits at a point of the grid: the weight's block is the whole array, the support's and the
    output's are the point's batch. -/
theorem idx_facts : ∀ t : Fin cfg0.N,
    win0_0.index t (0 : Fin 2) = 0 ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- Rows of a stack of matrices against columns of one matrix: at (b, f, o), row (b, f) of A against column o of B. -/
def rowsByCols (A : FVec Ideal S32x320x2048 .f32) (B : FVec Ideal S2048x2048 .bf16) : FVec Ideal S32x320x2048 .bf16 := fun k =>
  ∑ i : Fin 2048, A (ix3 (k 0) (k 1) i) * B (ix2 i (k 2))

theorem rowsByCols_apply (A : FVec Ideal S32x320x2048 .f32) (B : FVec Ideal S2048x2048 .bf16) (b : Fin 32) (f : Fin 320) (o : Fin 2048) :
    rowsByCols A B (ix3 b f o) = ∑ i : Fin 2048, A (ix3 b f i) * B (ix2 i o) := rfl

/-- The first kernel's output array: the support array's rows against the weight array's columns. -/
abbrev Q (c : Dev nD) : Vec Ideal S32x320x2048 .bf16 := rowsByCols (V c main_arg1) (V c main_v1)

/-- The weight's block at any point is the weight array. -/
theorem wblk_apply (c : Dev nD) (t : Fin cfg0.N) (i o : Fin 2048) :
    (iblk0 V c 0 t : FVec Ideal S2048x2048 .bf16) (ix2 i o) = (V c main_v1 : FVec Ideal S2048x2048 .bf16) (ix2 i o) := by
  obtain ⟨e0, e1, -⟩ := idx_facts t
  unfold iblk0
  rw [View.read_apply]
  show V c main_v1 _ = V c main_v1 _
  congr 1
  funext a
  apply Fin.ext
  match a with
  | ⟨0, _⟩ => show win0_0.index t (0 : Fin 2) * 2048 + 1 * i.val = i.val; omega
  | ⟨1, _⟩ => show win0_0.index t (1 : Fin 2) * 2048 + 1 * o.val = o.val; omega

/-- The support's block at point t is batch t of the support array. -/
theorem sblk_apply (c : Dev nD) (t : Fin cfg0.N) (u : Fin 1) (f : Fin 320) (i : Fin 2048) :
    (iblk0 V c 1 t : FVec Ideal S1x320x2048 .f32) (ix3 u f i) = (V c main_arg1 : FVec Ideal S32x320x2048 .f32) (ix3 (Fin.cast N_0 t) f i) := by
  obtain ⟨-, -, e2, e3, e4, -⟩ := idx_facts t
  unfold iblk0
  rw [View.read_apply]
  show V c main_arg1 _ = V c main_arg1 _
  congr 1
  funext a
  apply Fin.ext
  match a with
  | ⟨0, _⟩ => show win0_1.index t (0 : Fin 3) * 1 + 1 * u.val = t.val; omega
  | ⟨1, _⟩ => show win0_1.index t (1 : Fin 3) * 320 + 1 * f.val = f.val; omega
  | ⟨2, _⟩ => show win0_1.index t (2 : Fin 3) * 2048 + 1 * i.val = i.val; omega

/-- The output's block at point t sits at batch t of the output array. -/
theorem oblk_emb (t : Fin cfg0.N) (u : Fin 1) (f : Fin 320) (o : Fin 2048) :
    ((cfg0.win 2).blk t).view.emb (ix3 u f o) = ix3 (Fin.cast N_0 t) f o := by
  obtain ⟨-, -, -, -, -, e5, e6, e7⟩ := idx_facts t
  funext a
  apply Fin.ext
  match a with
  | ⟨0, _⟩ => show win0_2.index t (0 : Fin 3) * 1 + 1 * u.val = t.val; omega
  | ⟨1, _⟩ => show win0_2.index t (1 : Fin 3) * 320 + 1 * f.val = f.val; omega
  | ⟨2, _⟩ => show win0_2.index t (2 : Fin 3) * 2048 + 1 * o.val = o.val; omega

/-- What point t writes back is block t of the output array. -/
theorem flushed_eq (c : Dev nD) (t : Fin cfg0.N) :
    (dat0 V c).flushed 2 t = ((cfg0.win 2).blk t).view.read (Elt Ideal) (Q V c) := by
  show (cfg0.win 2).cut (grid0.coords t) ((dat0 V c).after 2 t) = _
  rw [after0_2]
  unfold out0_2
  rw [View.canon_unit_zero hz3]
  simp only [View.ld_unit_zero (S := S1x320x2048) hz3, View.ld_unit_zero (S := S2048x2048) hz2]
  funext j
  have key : ∀ j' : S1x320x2048.Idx,
      (k0_pay1 (F := Ideal) (iblk0 V c 1 t) (iblk0 V c 0 t) : FVec Ideal S1x320x2048 .bf16) j' = Q V c (((cfg0.win 2).blk t).view.emb j') := by
    intro j'
    obtain ⟨u, f, o, rfl⟩ : ∃ (u : Fin 1) (f : Fin 320) (o : Fin 2048), j' = ix3 u f o := ⟨j' 0, j' 1, j' 2, eq_ix3 j'⟩
    refine (pay_apply _ _ u f o).trans ?_
    rw [oblk_emb t u f o]
    refine Eq.trans ?_ (rowsByCols_apply _ _ (Fin.cast N_0 t) f o).symm
    refine Finset.sum_congr rfl fun i _ => ?_
    rw [sblk_apply V c t 0 f i, wblk_apply V c t i o]
  exact key j

/-- Every index of the output array is in the block of the point of its batch. -/
theorem covered (i : S32x320x2048.Idx) :
    ∃ t : Fin cfg0.N, (cfg0.win 2).flush t = true ∧ i ∈ ((cfg0.win 2).blk t).view.set := by
  have h0 : (i 0).val < 32 := (i 0).isLt
  have h1 : (i 1).val < 320 := (i 1).isLt
  have h2 : (i 2).val < 2048 := (i 2).isLt
  refine ⟨Fin.cast N_0.symm ⟨(i 0).val, h0⟩, flush0_2 _, ?_⟩
  obtain ⟨-, -, -, -, -, e5, e6, e7⟩ := idx_facts (Fin.cast N_0.symm ⟨(i 0).val, h0⟩)
  have e5' : win0_2.index (Fin.cast N_0.symm ⟨(i 0).val, h0⟩) (0 : Fin 3) = (i 0).val := e5
  show i ∈ ((View.whole main_v8).slice (win0_2.rect (Fin.cast N_0.symm ⟨(i 0).val, h0⟩))).set
  rw [View.set_slice_whole, Rect.mem_set_unit]
  intro a
  match a with
  | ⟨0, _⟩ =>
    show win0_2.index (Fin.cast N_0.symm ⟨(i 0).val, h0⟩) (0 : Fin 3) * 1 ≤ (i 0).val ∧ (i 0).val < win0_2.index (Fin.cast N_0.symm ⟨(i 0).val, h0⟩) (0 : Fin 3) * 1 + 1
    omega
  | ⟨1, _⟩ =>
    show win0_2.index (Fin.cast N_0.symm ⟨(i 0).val, h0⟩) (1 : Fin 3) * 320 ≤ (i 1).val ∧ (i 1).val < win0_2.index (Fin.cast N_0.symm ⟨(i 0).val, h0⟩) (1 : Fin 3) * 320 + 320
    omega
  | ⟨2, _⟩ =>
    show win0_2.index (Fin.cast N_0.symm ⟨(i 0).val, h0⟩) (2 : Fin 3) * 2048 ≤ (i 2).val ∧ (i 2).val < win0_2.index (Fin.cast N_0.symm ⟨(i 0).val, h0⟩) (2 : Fin 3) * 2048 + 2048
    omega

/-- So the output array ends holding the projected rows. -/
theorem arr_q (c : Dev nD) : (dat0 V c).arrAt 2 cfg0.N = Q V c :=
  (dat0 V c).arrAt_eq_of_cover 2 (Q V c) (fun t _ => flushed_eq V c t) covered

end FirstKernel

/-! ## The host operations before the first kernel -/

/-- No host operation writes the query array. -/
theorem W1_query (c : Dev nD) : Gen.W1 m ρ c (Proc.devRef .tc main_arg0) = m ((c : Thread nD τ).loc main_arg0) :=
  calc Gen.W1 m ρ c (Proc.devRef .tc main_arg0)
    _ = Gen.W0 m ρ c (Proc.devRef .tc main_arg0) := StableHlo.after_of_forall_not_mem (b := Proc.devRef .tc main_arg0) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c : Thread nD τ).loc main_arg0) := rfl

/-- No host operation writes the support array. -/
theorem W1_support (c : Dev nD) : Gen.W1 m ρ c (Proc.devRef .tc main_arg1) = m ((c : Thread nD τ).loc main_arg1) :=
  calc Gen.W1 m ρ c (Proc.devRef .tc main_arg1)
    _ = Gen.W0 m ρ c (Proc.devRef .tc main_arg1) := StableHlo.after_of_forall_not_mem (b := Proc.devRef .tc main_arg1) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c : Thread nD τ).loc main_arg1) := rfl

/-- The first weight after the host operations: the launched one transposed, its format changed. -/
theorem V1_wq (c : Dev nD) :
    (Gen.V1 m ρ c main_v1 : Vec Ideal S2048x2048 .bf16)
      = truncf (F := Ideal) .bf16 (transpose S2048x2048 [1, 0] (m ((c : Thread nD τ).loc main_arg2) : Vec Ideal S2048x2048 .f32) transposes_S2048x2048_S2048x2048_1_0) bitsLt_bf16_f32 := by
  dsimp only [Gen.V1, Gen.W1, Gen.hostOps0]
  after_results <;> rfl

/-- The key weight after the host operations: the launched one transposed, its format changed. -/
theorem V1_wk (c : Dev nD) :
    (Gen.V1 m ρ c main_v3 : Vec Ideal S2048x2048 .bf16)
      = truncf (F := Ideal) .bf16 (transpose S2048x2048 [1, 0] (m ((c : Thread nD τ).loc main_arg3) : Vec Ideal S2048x2048 .f32) transposes_S2048x2048_S2048x2048_1_0) bitsLt_bf16_f32 := by
  dsimp only [Gen.V1, Gen.W1, Gen.hostOps0]
  after_results <;> rfl

/-- The value weight after the host operations: the launched one transposed, its format changed. -/
theorem V1_wv (c : Dev nD) :
    (Gen.V1 m ρ c main_v5 : Vec Ideal S2048x2048 .bf16)
      = truncf (F := Ideal) .bf16 (transpose S2048x2048 [1, 0] (m ((c : Thread nD τ).loc main_arg4) : Vec Ideal S2048x2048 .f32) transposes_S2048x2048_S2048x2048_1_0) bitsLt_bf16_f32 := by
  dsimp only [Gen.V1, Gen.W1, Gen.hostOps0]
  after_results <;> rfl

/-- The scale after the host operations: the launched vector as a column. -/
theorem V1_gamma (c : Dev nD) :
    (Gen.V1 m ρ c main_v6 : Vec Ideal S320x1 .f32)
      = shapeCast S320x1 (m ((c : Thread nD τ).loc main_arg5) : Vec Ideal S320 .f32) shapeCasts_S320_S320x1 := by
  dsimp only [Gen.V1, Gen.W1, Gen.hostOps0]
  after_results <;> rfl

/-- The shift after the host operations: the launched vector as a column. -/
theorem V1_beta (c : Dev nD) :
    (Gen.V1 m ρ c main_v7 : Vec Ideal S320x1 .f32)
      = shapeCast S320x1 (m ((c : Thread nD τ).loc main_arg6) : Vec Ideal S320 .f32) shapeCasts_S320_S320x1 := by
  dsimp only [Gen.V1, Gen.W1, Gen.hostOps0]
  after_results <;> rfl

/-- A transposed matrix whose format is then changed reads, at (i, o), the operand at (o, i). -/
theorem truncf_transpose_apply (x : Vec Ideal S2048x2048 .f32) (i o : Fin 2048) :
    (truncf (F := Ideal) .bf16 (transpose S2048x2048 [1, 0] x transposes_S2048x2048_S2048x2048_1_0) bitsLt_bf16_f32 : FVec Ideal S2048x2048 .bf16) (ix2 i o)
      = x (ix2 o i) :=
  (truncf_apply (ψ := .bf16) (φ := .f32) _ bitsLt_bf16_f32 (ix2 i o)).trans (transpose_ix2_apply _ _ i o)

/-- A vector cast to a column reads, at (i, u), the operand at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## What the second kernel finds -/

/-- The query array is as launched. -/
theorem V2_query (c : Dev nD) : Gen.V2 m ρ c main_arg0 = m ((c : Thread nD τ).loc main_arg0) :=
  (Gen.W2_of_ne m ρ c main_arg0 (by decide)).trans (W1_query m ρ c)

/-- The first kernel's output at (b, f, o): support row (b, f) against weight row o. -/
theorem V2_q_apply (c : Dev nD) (b : Fin 32) (f : Fin 320) (o : Fin 2048) :
    (Gen.V2 m ρ c main_v8 : Vec Ideal S32x320x2048 .bf16) (ix3 b f o)
      = Cert.Spec.projB (fun f' i => (m ((c : Thread nD τ).loc main_arg1) : Vec Ideal S32x320x2048 .f32) (ix3 b f' i))
          (fun o' i => (m ((c : Thread nD τ).loc main_arg2) : Vec Ideal S2048x2048 .f32) (ix2 o' i)) f o := by
  have e : Gen.V2 m ρ c main_v8 = (dat0 (Gen.V1 m ρ) c).arrAt 2 cfg0.N := Gen.W2_arr m ρ c 2
  have a1 : Gen.V1 m ρ c main_arg1 = m ((c : Thread nD τ).loc main_arg1) := W1_support m ρ c
  rw [e, arr_q]
  refine (rowsByCols_apply _ _ b f o).trans ?_
  unfold Cert.Spec.projB
  refine Finset.sum_congr rfl fun i _ => ?_
  rw [a1, V1_wq, truncf_transpose_apply]

/-- The key weight as the second kernel finds it is the launched one transposed. -/
theorem V2_wk_apply (c : Dev nD) (i o : Fin 2048) :
    (Gen.V2 m ρ c main_v3 : Vec Ideal S2048x2048 .bf16) (ix2 i o) = (m ((c : Thread nD τ).loc main_arg3) : Vec Ideal S2048x2048 .f32) (ix2 o i) := by
  have e : Gen.V2 m ρ c main_v3 = Gen.V1 m ρ c main_v3 := Gen.W2_of_ne m ρ c main_v3 (by decide)
  rw [e, V1_wk, truncf_transpose_apply]

/-- The value weight as the second kernel finds it is the launched one transposed. -/
theorem V2_wv_apply (c : Dev nD) (i o : Fin 2048) :
    (Gen.V2 m ρ c main_v5 : Vec Ideal S2048x2048 .bf16) (ix2 i o) = (m ((c : Thread nD τ).loc main_arg4) : Vec Ideal S2048x2048 .f32) (ix2 o i) := by
  have e : Gen.V2 m ρ c main_v5 = Gen.V1 m ρ c main_v5 := Gen.W2_of_ne m ρ c main_v5 (by decide)
  rw [e, V1_wv, truncf_transpose_apply]

/-- The scale as a column vector holds the launched scale's entries. -/
theorem V2_gamma_apply (c : Dev nD) (l : Fin 320) :
    (Gen.V2 m ρ c main_v6 : Vec Ideal S320x1 .f32) (ix2 l 0) = (m ((c : Thread nD τ).loc main_arg5) : Vec Ideal S320 .f32) (ix1 l) := by
  have e : Gen.V2 m ρ c main_v6 = Gen.V1 m ρ c main_v6 := Gen.W2_of_ne m ρ c main_v6 (by decide)
  rw [e, V1_gamma]
  exact shapeCast_a_a1_apply _ _ l 0

/-- The shift as a column vector holds the launched shift's entries. -/
theorem V2_beta_apply (c : Dev nD) (l : Fin 320) :
    (Gen.V2 m ρ c main_v7 : Vec Ideal S320x1 .f32) (ix2 l 0) = (m ((c : Thread nD τ).loc main_arg6) : Vec Ideal S320 .f32) (ix1 l) := by
  have e : Gen.V2 m ρ c main_v7 = Gen.V1 m ρ c main_v7 := Gen.W2_of_ne m ρ c main_v7 (by decide)
  rw [e, V1_beta]
  exact shapeCast_a_a1_apply _ _ l 0

end Cert.KernelIdeal.Entry

end
-- ==== Proof.KChunks.lean ====
/-
  The second kernel's body reads its operands in four column chunks of 512. `wchunk x k` is columns 512k … 512k+511 of a
  2048×2048 block; `cchunk x k` the same columns of a 1×320×2048 block. `accLogits x0 x2 x3 n` is the accumulated logits after the
  first n chunks: from the zero array, each chunk adding its update (the body's third payload) of the key-weight chunk and the
  projected-support chunk.
-/
import proofs.«404545_j32409823216126_3_alg».proof.Proof.Gen.KernelIdeal.Skeleton
import Idealize.ShloMosaic.Lib.ValueIdx

noncomputable section

namespace Cert.KernelIdeal.Chunks

open Cert.KernelIdeal Cert.KernelIdeal.Gen Idealize.ShloMosaic Idealize.ShloMosaic.TcCoe Idealize.ShloMosaic.ValueIdx

variable {F : FTy → Type} [FloatOps F] [Named F]

/-- Columns 512k … 512k+511 of a 2048×2048 block. -/
def wchunk {e : EltTy} (x : Vec F S2048x2048 e) (k : Fin 4) : Vec F S2048x512 e :=
  fun y => x (ix2 (n0 := 2048) (n1 := 2048) ⟨(y 0).val, (y 0).isLt⟩ ⟨512 * k.val + (y 1).val, by have h : (y 1).val < 512 := (y 1).isLt; omega⟩)

/-- Columns 512k … 512k+511 of a 1×320×2048 block. -/
def cchunk {e : EltTy} (x : Vec F S1x320x2048 e) (k : Fin 4) : Vec F S1x320x512 e :=
  fun y => x (ix3 (n0 := 1) (n1 := 320) (n2 := 2048) 0 ⟨(y 1).val, (y 1).isLt⟩ ⟨512 * k.val + (y 2).val, by have h : (y 2).val < 512 := (y 2).isLt; omega⟩)

/-- The accumulated logits after the first n chunks (n ≤ 4). -/
def accLogits (x0 : Vec F S2048x2048 .bf16) (x2 : Vec F S1x320x2048 .bf16) (x3 : Vec F S1x320x2048 .f32) : ℕ → FVec F S320x320 .f32
  | 0 => k1_pay2
  | n + 1 => if h : n < 4 then k1_pay3 x3 (accLogits x0 x2 x3 n) (wchunk x0 ⟨n, h⟩) (cchunk x2 ⟨n, h⟩) else accLogits x0 x2 x3 n

end Cert.KernelIdeal.Chunks

end
-- ==== Proof.KBody1.lean ====
/-
  What the second kernel's body leaves in its output block, entry by entry: column 512k + j of row l holds the fourth payload
  (softmax of the scaled accumulated logits, times the value projection of chunk k, plus the query chunk, LayerNorm) at (l, j),
  the accumulated logits being the four chunks' updates from zero.

  The body has two counted loops. One trip of the first yields the third payload of two loads, which through whole buffers
  are column chunks of the key weight and of the projected support; by induction on the trips the value it carries is the
  accumulated logits. One trip of the second stores one piece, at column 512k, whose payload is the fourth payload of two
  such chunks; so every piece is a block of ONE function of the output block's index, and since the pieces cover the block,
  the block reads as that function everywhere.
-/
import proofs.«404545_j32409823216126_3_alg».proof.Proof.Gen.KernelIdeal.Frame
import proofs.«404545_j32409823216126_3_alg».proof.Proof.KChunks
import Idealize.ShloMosaic.Lib.Pipeline.FrameBody
import Idealize.ShloMosaic.Lib.Pipeline.Value

set_option maxRecDepth 16384

noncomputable section

namespace Cert.KernelIdeal.Body1

open Cert.KernelIdeal Cert.KernelIdeal.Gen Cert.KernelIdeal.Chunks
open Idealize.ShloMosaic Idealize.ShloMosaic.TcCoe Idealize.ShloMosaic.ValueIdx

variable {F : FTy → Type} [FloatOps F] [Named F]

/-- Both loops run four trips. -/
theorem trips1 : k1_t1_loop.trips = 4 := by decide
theorem trips2 : k1_t2_loop.trips = 4 := by decide

/-- One trip of the first loop yields the third payload of the two loads at the trip's offsets. -/
theorem tripR1_eq (𝒱 : Variants) (c : Dev nD) (bd : Option 𝒱.V) (i : grid1.Coords)
    (arg1 : Memref sig .tc .vmem S2048x2048 .bf16) (harg1 : arg1.IsWhole) (arg2 : Memref sig .tc .vmem S2048x2048 .bf16) (harg2 : arg2.IsWhole)
    (arg3 : Memref sig .tc .vmem S1x320x2048 .bf16) (harg3 : arg3.IsWhole) (arg4 : Memref sig .tc .vmem S1x320x2048 .f32) (harg4 : arg4.IsWhole)
    (arg5 : Memref sig .tc .vmem S320x1 .f32) (harg5 : arg5.IsWhole) (arg6 : Memref sig .tc .vmem S320x1 .f32) (harg6 : arg6.IsWhole)
    (arg7 : Memref sig .tc .vmem S1x320x2048 .f32) (harg7 : arg7.IsWhole)
    (v0 : Vec F S1x320x2048 .f32) (X_arg1 : BufTy.Contents (Elt F) arg1.view.ty) (X_arg3 : BufTy.Contents (Elt F) arg3.view.ty)
    (k : Fin k1_t1_loop.trips) (acc : FVec F S320x320 .f32) :
    tripR_k1_t1 (F := F) 𝒱 c bd i arg1 harg1 arg2 harg2 arg3 harg3 arg4 harg4 arg5 harg5 arg6 harg6 arg7 harg7 v0 X_arg1 X_arg3 k acc
      = k1_pay3 v0 acc (View.readAt (Elt F) arg1.view (Rect.unit (s := S2048x2048) (k1_off1 k) S2048x512.size (k1_off1_inb k)).toLoadRect X_arg1)
          (View.readAt (Elt F) arg3.view (Rect.unit (s := S1x320x2048) (k1_off2 k) S1x320x512.size (k1_off2_inb k)).toLoadRect X_arg3) := by
  unfold tripR_k1_t1
  unfold trip_k1_t1
  rfl

/-- A load of the 2048×512 rectangle at column 512k of a 2048×2048 block reads the block's k-th column chunk. -/
theorem ld_wchunk {e : EltTy} (x : Vec F S2048x2048 e) (off : Fin 2 → Nat) (k : Fin 4) (hoff : off = ![0, 512 * k.val])
    (inb : ∀ a, off a + S2048x512.size a ≤ S2048x2048.size a) :
    View.ld x (Rect.unit (s := S2048x2048) off S2048x512.size inb) = wchunk x k := by
  subst hoff
  funext y
  unfold wchunk
  show x _ = x _
  congr 1
  funext a
  apply Fin.ext
  match a with
  | ⟨0, _⟩ => show 0 + 1 * (y 0).val = (y 0).val; omega
  | ⟨1, _⟩ => show 512 * k.val + 1 * (y 1).val = 512 * k.val + (y 1).val; omega

/-- A load of the 1×320×512 rectangle at column 512k of a 1×320×2048 block reads the block's k-th column chunk. -/
theorem ld_cchunk {e : EltTy} (x : Vec F S1x320x2048 e) (off : Fin 3 → Nat) (k : Fin 4) (hoff : off = ![0, 0, 512 * k.val])
    (inb : ∀ a, off a + S1x320x512.size a ≤ S1x320x2048.size a) :
    View.ld x (Rect.unit (s := S1x320x2048) off S1x320x512.size inb) = cchunk x k := by
  subst hoff
  funext y
  unfold cchunk
  show x _ = x _
  congr 1
  funext a
  apply Fin.ext
  match a with
  | ⟨0, _⟩ => show 0 + 1 * (y 0).val = 0; have h1 : (y 0).val < 1 := (y 0).isLt; omega
  | ⟨1, _⟩ => show 0 + 1 * (y 1).val = (y 1).val; omega
  | ⟨2, _⟩ => show 512 * k.val + 1 * (y 2).val = 512 * k.val + (y 2).val; omega

/-- Through a whole buffer holding x, the load at column 512k reads x's k-th column chunk. -/
theorem readAt_wchunk {e : EltTy} (m : Memref sig .tc .vmem S2048x2048 e) (h : m.IsWhole) (x : Vec F S2048x2048 e) (off : Fin 2 → Nat) (k : Fin 4)
    (hoff : off = ![0, 512 * k.val]) (inb : ∀ a, off a + S2048x512.size a ≤ S2048x2048.size a) :
    View.readAt (Elt F) m.view (Rect.unit (s := S2048x2048) off S2048x512.size inb).toLoadRect (h.unread x) = wchunk x k := by
  rw [View.readAt_eq_ld, h.read_unread]; exact ld_wchunk x off k hoff inb

/-- Through a whole buffer holding x, the load at column 512k reads x's k-th column chunk. -/
theorem readAt_cchunk {e : EltTy} (m : Memref sig .tc .vmem S1x320x2048 e) (h : m.IsWhole) (x : Vec F S1x320x2048 e) (off : Fin 3 → Nat) (k : Fin 4)
    (hoff : off = ![0, 0, 512 * k.val]) (inb : ∀ a, off a + S1x320x512.size a ≤ S1x320x2048.size a) :
    View.readAt (Elt F) m.view (Rect.unit (s := S1x320x2048) off S1x320x512.size inb).toLoadRect (h.unread x) = cchunk x k := by
  rw [View.readAt_eq_ld, h.read_unread]; exact ld_cchunk x off k hoff inb

/-- The carried value before trip n of the first loop, from the zero array over whole buffers holding x0 and x2, is the
    accumulated logits of the first n chunks. -/
theorem st1_eq (𝒱 : Variants) (c : Dev nD) (bd : Option 𝒱.V) (i : grid1.Coords)
    (arg1 : Memref sig .tc .vmem S2048x2048 .bf16) (harg1 : arg1.IsWhole) (arg2 : Memref sig .tc .vmem S2048x2048 .bf16) (harg2 : arg2.IsWhole)
    (arg3 : Memref sig .tc .vmem S1x320x2048 .bf16) (harg3 : arg3.IsWhole) (arg4 : Memref sig .tc .vmem S1x320x2048 .f32) (harg4 : arg4.IsWhole)
    (arg5 : Memref sig .tc .vmem S320x1 .f32) (harg5 : arg5.IsWhole) (arg6 : Memref sig .tc .vmem S320x1 .f32) (harg6 : arg6.IsWhole)
    (arg7 : Memref sig .tc .vmem S1x320x2048 .f32) (harg7 : arg7.IsWhole)
    (x0 : Vec F S2048x2048 .bf16) (x2 : Vec F S1x320x2048 .bf16) (v0 : Vec F S1x320x2048 .f32) :
    ∀ n : ℕ, n ≤ 4 →
      st_k1_t1 (F := F) 𝒱 c bd i arg1 harg1 arg2 harg2 arg3 harg3 arg4 harg4 arg5 harg5 arg6 harg6 arg7 harg7 v0 (harg1.unread x0) (harg3.unread x2) k1_pay2 n = accLogits x0 x2 v0 n
  | 0, _ => rfl
  | n + 1, hn => by
    have hlt : n < 4 := by omega
    have hk : n < k1_t1_loop.trips := by rw [trips1]; exact hlt
    have e := st_k1_t1_succ (F := F) 𝒱 c bd i arg1 harg1 arg2 harg2 arg3 harg3 arg4 harg4 arg5 harg5 arg6 harg6 arg7 harg7 v0 (harg1.unread x0) (harg3.unread x2) k1_pay2 ⟨n, hk⟩
    rw [show (⟨n, hk⟩ : Fin k1_t1_loop.trips).val + 1 = n + 1 from rfl] at e
    rw [e, tripR1_eq, st1_eq 𝒱 c bd i arg1 harg1 arg2 harg2 arg3 harg3 arg4 harg4 arg5 harg5 arg6 harg6 arg7 harg7 x0 x2 v0 n (by omega)]
    rw [readAt_wchunk arg1 harg1 x0 (k1_off1 ⟨n, hk⟩) ⟨n, hlt⟩ (k1_off1_eq ⟨n, hk⟩) (k1_off1_inb ⟨n, hk⟩),
      readAt_cchunk arg3 harg3 x2 (k1_off2 ⟨n, hk⟩) ⟨n, hlt⟩ (k1_off2_eq ⟨n, hk⟩) (k1_off2_inb ⟨n, hk⟩)]
    show _ = accLogits x0 x2 v0 (n + 1)
    rw [accLogits, dif_pos hlt]

/-- One trip of the second loop writes one piece: at the trip's offset, the fourth payload of the two loads there. -/
theorem tripL2_eq (𝒱 : Variants) (c : Dev nD) (bd : Option 𝒱.V) (i : grid1.Coords)
    (arg1 : Memref sig .tc .vmem S2048x2048 .bf16) (harg1 : arg1.IsWhole) (arg2 : Memref sig .tc .vmem S2048x2048 .bf16) (harg2 : arg2.IsWhole)
    (arg3 : Memref sig .tc .vmem S1x320x2048 .bf16) (harg3 : arg3.IsWhole) (arg4 : Memref sig .tc .vmem S1x320x2048 .f32) (harg4 : arg4.IsWhole)
    (arg5 : Memref sig .tc .vmem S320x1 .f32) (harg5 : arg5.IsWhole) (arg6 : Memref sig .tc .vmem S320x1 .f32) (harg6 : arg6.IsWhole)
    (arg7 : Memref sig .tc .vmem S1x320x2048 .f32) (harg7 : arg7.IsWhole)
    (v0 : Vec F S1x320x2048 .f32) (v5 : FVec F S320x320 .f32) (v18 : Vec F S320x1 .f32) (v20 : Vec F S320x1 .f32)
    (X_arg2 : BufTy.Contents (Elt F) arg2.view.ty) (X_arg4 : BufTy.Contents (Elt F) arg4.view.ty)
    (k : Fin k1_t2_loop.trips) :
    tripL_k1_t2 (F := F) 𝒱 c bd i arg1 harg1 arg2 harg2 arg3 harg3 arg4 harg4 arg5 harg5 arg6 harg6 arg7 harg7 v0 v5 v18 v20 X_arg2 X_arg4 k
      = [⟨Rect.unit (s := S1x320x2048) (k1_off4 k) S1x320x512.size (k1_off4_inb k),
          k1_pay4 v0 v5 v18 v20
            (View.readAt (Elt F) arg2.view (Rect.unit (s := S2048x2048) (k1_off3 k) S2048x512.size (k1_off3_inb k)).toLoadRect X_arg2)
            (View.readAt (Elt F) arg4.view (Rect.unit (s := S1x320x2048) (k1_off4 k) S1x320x512.size (k1_off4_inb k)).toLoadRect X_arg4)⟩] := by
  unfold tripL_k1_t2
  unfold trip_k1_t2
  rfl

/-- The zero offsets, however spelt. -/
theorem hz3 : (![0, 0, 0] : Fin 3 → Nat) = fun _ => 0 := funext fun a => by fin_cases a <;> rfl
theorem hz2 : (![0, 0] : Fin 2 → Nat) = fun _ => 0 := funext fun a => by fin_cases a <;> rfl

/-- The pieces the body's run leaves in its output block: those of the second loop's four trips, run with the whole
    query block x3, the accumulated logits of all four chunks, and the two affine parameter columns x4, x5. -/
theorem run1_pieces (c : Dev nD) (i : grid1.Coords)
    (arg1 : Memref sig .tc .vmem S2048x2048 .bf16) (harg1 : arg1.IsWhole) (arg2 : Memref sig .tc .vmem S2048x2048 .bf16) (harg2 : arg2.IsWhole)
    (arg3 : Memref sig .tc .vmem S1x320x2048 .bf16) (harg3 : arg3.IsWhole) (arg4 : Memref sig .tc .vmem S1x320x2048 .f32) (harg4 : arg4.IsWhole)
    (arg5 : Memref sig .tc .vmem S320x1 .f32) (harg5 : arg5.IsWhole) (arg6 : Memref sig .tc .vmem S320x1 .f32) (harg6 : arg6.IsWhole)
    (arg7 : Memref sig .tc .vmem S1x320x2048 .f32) (harg7 : arg7.IsWhole)
    (x0 x1 : Vec F S2048x2048 .bf16) (x2 : Vec F S1x320x2048 .bf16) (x3 : Vec F S1x320x2048 .f32) (x4 x5 : Vec F S320x1 .f32) :
    (kernelRun1_A c i arg1 harg1 arg2 harg2 arg3 harg3 arg4 harg4 arg5 harg5 arg6 harg6 arg7 harg7 x0 x1 x2 x3 x4 x5).1
      = pb_k1_t2 (F := F) Variants.none c none i arg1 harg1 arg2 harg2 arg3 harg3 arg4 harg4 arg5 harg5 arg6 harg6 arg7 harg7 x3 (accLogits x0 x2 x3 4) x4 x5 (harg2.unread x1) (harg4.unread x3) 4 := by
  unfold kernelRun1_A
  dsimp only
  simp only [View.readAt_eq_ld, harg4.read_unread, harg5.read_unread, harg6.read_unread,
    View.ld_unit_zero (S := S1x320x2048) hz3, View.ld_unit_zero (S := S320x1) hz2]
  rw [show Scf.trips (0#32) (Scalar.addi 0#32 4#32) 1#32 = 4 from by decide,
    st1_eq Variants.none c none i arg1 harg1 arg2 harg2 arg3 harg3 arg4 harg4 arg5 harg5 arg6 harg6 arg7 harg7 x0 x2 x3 4 (le_refl 4)]

/-- The fourth payload of chunk k, at a chunk-local index. -/
def outK (x1 : Vec F S2048x2048 .bf16) (x3 : Vec F S1x320x2048 .f32) (A : FVec F S320x320 .f32) (x4 x5 : Vec F S320x1 .f32)
    (k : Fin 4) (x : S1x320x512.Idx) : Elt F .f32 :=
  k1_pay4 x3 A x4 x5 (wchunk x1 k) (cchunk x3 k) x

/-- The whole output block as ONE function of its index: at column o of row l, the fourth payload of chunk o / 512 at
    (l, o % 512). -/
def outG (x1 : Vec F S2048x2048 .bf16) (x3 : Vec F S1x320x2048 .f32) (A : FVec F S320x320 .f32) (x4 x5 : Vec F S320x1 .f32)
    (y : S1x320x2048.Idx) : Elt F .f32 :=
  outK x1 x3 A x4 x5 ⟨(y 2).val / 512, by have h : (y 2).val < 2048 := (y 2).isLt; omega⟩
    (ix3 (n0 := 1) (n1 := 320) (n2 := 512) 0 ⟨(y 1).val, (y 1).isLt⟩ ⟨(y 2).val % 512, by omega⟩)

/-- At an index whose row is that of the chunk-local index x and whose column is 512k plus x's, the block function is
    chunk k's payload at x. -/
theorem outG_at (x1 : Vec F S2048x2048 .bf16) (x3 : Vec F S1x320x2048 .f32) (A : FVec F S320x320 .f32) (x4 x5 : Vec F S320x1 .f32)
    (k : Fin 4) (y : S1x320x2048.Idx) (x : S1x320x512.Idx) (h1 : (y 1).val = (x 1).val) (h2 : (y 2).val = 512 * k.val + (x 2).val) :
    outG x1 x3 A x4 x5 y = outK x1 x3 A x4 x5 k x := by
  have hx2 : (x 2).val < 512 := (x 2).isLt
  have hk : (⟨(y 2).val / 512, by have h : (y 2).val < 2048 := (y 2).isLt; omega⟩ : Fin 4) = k := Fin.ext (by show (y 2).val / 512 = k.val; omega)
  have hx : ix3 (n0 := 1) (n1 := 320) (n2 := 512) 0 ⟨(y 1).val, (y 1).isLt⟩ ⟨(y 2).val % 512, by omega⟩ = x := by
    funext a
    match a with
    | ⟨0, _⟩ => exact Fin.ext (by have h0 : (x 0).val < 1 := (x 0).isLt; show 0 = (x 0).val; omega)
    | ⟨1, _⟩ => exact Fin.ext h1
    | ⟨2, _⟩ => exact Fin.ext (by show (y 2).val % 512 = (x 2).val; omega)
  unfold outG
  rw [hk, hx]

/-- A piece stored at column 512k whose payload is chunk k's is a block of the block function. -/
theorem piece_eq_G (x1 : Vec F S2048x2048 .bf16) (x3 : Vec F S1x320x2048 .f32) (A : FVec F S320x320 .f32) (x4 x5 : Vec F S320x1 .f32)
    (off : Fin 3 → Nat) (k : Fin 4) (hoff : off = ![0, 0, 512 * k.val]) (inb : ∀ a, off a + S1x320x512.size a ≤ S1x320x2048.size a)
    (x : S1x320x512.Idx) :
    k1_pay4 x3 A x4 x5 (wchunk x1 k) (cchunk x3 k) x
      = outG x1 x3 A x4 x5 ((Rect.unit (s := S1x320x2048) off S1x320x512.size inb).emb x) := by
  subst hoff
  exact (outG_at x1 x3 A x4 x5 k _ x (by show 0 + 1 * (x 1).val = (x 1).val; omega)
    (by show 512 * k.val + 1 * (x 2).val = 512 * k.val + (x 2).val; omega)).symm

/-- Every piece of the second loop's first n trips is a block of the block function. -/
theorem pb2_pieces (𝒱 : Variants) (c : Dev nD) (bd : Option 𝒱.V) (i : grid1.Coords)
    (arg1 : Memref sig .tc .vmem S2048x2048 .bf16) (harg1 : arg1.IsWhole) (arg2 : Memref sig .tc .vmem S2048x2048 .bf16) (harg2 : arg2.IsWhole)
    (arg3 : Memref sig .tc .vmem S1x320x2048 .bf16) (harg3 : arg3.IsWhole) (arg4 : Memref sig .tc .vmem S1x320x2048 .f32) (harg4 : arg4.IsWhole)
    (arg5 : Memref sig .tc .vmem S320x1 .f32) (harg5 : arg5.IsWhole) (arg6 : Memref sig .tc .vmem S320x1 .f32) (harg6 : arg6.IsWhole)
    (arg7 : Memref sig .tc .vmem S1x320x2048 .f32) (harg7 : arg7.IsWhole)
    (x1 : Vec F S2048x2048 .bf16) (x3 : Vec F S1x320x2048 .f32) (A : FVec F S320x320 .f32) (x4 x5 : Vec F S320x1 .f32) :
    ∀ n : ℕ, n ≤ 4 → ∀ p ∈ pb_k1_t2 (F := F) 𝒱 c bd i arg1 harg1 arg2 harg2 arg3 harg3 arg4 harg4 arg5 harg5 arg6 harg6 arg7 harg7 x3 A x4 x5 (harg2.unread x1) (harg4.unread x3) n,
      ∀ x : p.1.shape.Idx, p.2 x = outG x1 x3 A x4 x5 (p.1.emb x)
  | 0, _, p, hp, _ => absurd hp List.not_mem_nil
  | n + 1, hn, p, hp, x => by
    have hlt : n < 4 := by omega
    have hk : n < k1_t2_loop.trips := by rw [trips2]; exact hlt
    have e := pb_k1_t2_succ (F := F) 𝒱 c bd i arg1 harg1 arg2 harg2 arg3 harg3 arg4 harg4 arg5 harg5 arg6 harg6 arg7 harg7 x3 A x4 x5 (harg2.unread x1) (harg4.unread x3) ⟨n, hk⟩
    rw [show (⟨n, hk⟩ : Fin k1_t2_loop.trips).val + 1 = n + 1 from rfl] at e
    rw [e, tripL2_eq,
      readAt_wchunk arg2 harg2 x1 (k1_off3 ⟨n, hk⟩) ⟨n, hlt⟩ (k1_off3_eq ⟨n, hk⟩) (k1_off3_inb ⟨n, hk⟩),
      readAt_cchunk arg4 harg4 x3 (k1_off4 ⟨n, hk⟩) ⟨n, hlt⟩ (k1_off4_eq ⟨n, hk⟩) (k1_off4_inb ⟨n, hk⟩)] at hp
    rcases List.mem_append.mp hp with h | h
    · obtain rfl := List.mem_singleton.mp h
      exact piece_eq_G x1 x3 A x4 x5 (k1_off4 ⟨n, hk⟩) ⟨n, hlt⟩ (k1_off4_eq ⟨n, hk⟩) (k1_off4_inb ⟨n, hk⟩) x
    · exact pb2_pieces 𝒱 c bd i arg1 harg1 arg2 harg2 arg3 harg3 arg4 harg4 arg5 harg5 arg6 harg6 arg7 harg7 x1 x3 A x4 x5 n (by omega) p h x

/-- The output block the body's run leaves, at row l and column 512k + j. -/
theorem out1_apply (c : Dev nD) (i : grid1.Coords)
    (arg1 : Memref sig .tc .vmem S2048x2048 .bf16) (harg1 : arg1.IsWhole) (arg2 : Memref sig .tc .vmem S2048x2048 .bf16) (harg2 : arg2.IsWhole)
    (arg3 : Memref sig .tc .vmem S1x320x2048 .bf16) (harg3 : arg3.IsWhole) (arg4 : Memref sig .tc .vmem S1x320x2048 .f32) (harg4 : arg4.IsWhole)
    (arg5 : Memref sig .tc .vmem S320x1 .f32) (harg5 : arg5.IsWhole) (arg6 : Memref sig .tc .vmem S320x1 .f32) (harg6 : arg6.IsWhole)
    (arg7 : Memref sig .tc .vmem S1x320x2048 .f32) (harg7 : arg7.IsWhole)
    (x0 x1 : Vec F S2048x2048 .bf16) (x2 : Vec F S1x320x2048 .bf16) (x3 : Vec F S1x320x2048 .f32) (x4 x5 : Vec F S320x1 .f32)
    (l : Fin 320) (k : Fin 4) (j : Fin 512) :
    out1_A_6 c i arg1 harg1 arg2 harg2 arg3 harg3 arg4 harg4 arg5 harg5 arg6 harg6 arg7 harg7 x0 x1 x2 x3 x4 x5
        (ix3 (n0 := 1) (n1 := 320) (n2 := 2048) 0 l ⟨512 * k.val + j.val, by omega⟩)
      = k1_pay4 x3 (accLogits x0 x2 x3 4) x4 x5 (wchunk x1 k) (cchunk x3 k) (ix3 (n0 := 1) (n1 := 320) (n2 := 512) 0 l j) := by
  have hcov := cover1_A_6 c i arg1 harg1 arg2 harg2 arg3 harg3 arg4 harg4 arg5 harg5 arg6 harg6 arg7 harg7 x0 x1 x2 x3 x4 x5
  unfold out1_A_6
  rw [View.read_writes_eq_canon _ _ _ hcov]
  have hy := hcov (ix3 (n0 := 1) (n1 := 320) (n2 := 2048) 0 l ⟨512 * k.val + j.val, by omega⟩)
  rw [run1_pieces] at hy ⊢
  rw [View.canon_apply_of_pieces (outG x1 x3 (accLogits x0 x2 x3 4) x4 x5) _
    (pb2_pieces Variants.none c none i arg1 harg1 arg2 harg2 arg3 harg3 arg4 harg4 arg5 harg5 arg6 harg6 arg7 harg7 x1 x3 (accLogits x0 x2 x3 4) x4 x5 4 (le_refl 4)) _ hy]
  exact outG_at x1 x3 (accLogits x0 x2 x3 4) x4 x5 k _ (ix3 (n0 := 1) (n1 := 320) (n2 := 512) 0 l j) rfl rfl

end Cert.KernelIdeal.Body1

end
-- ==== Proof.KForms.lean ====
/-
  The second kernel's store payload, cut at its two seams.

  `smax a` is the row softmax of a 320×320 array of scaled logits, as the body computes it (row maximum from −∞, exponentials of
  the differences, their row sum, the quotient); `lnorm u g b` is the LayerNorm of a 320×512 block over its 320 rows, column
  by column (column mean, centred values, column variance, rsqrt of variance plus the small constant, scale by `g`, shift by `b`).
  `pay4_eq` says the body's stored value is `lnorm` of (`smax` of the scaled accumulated logits, times the value projection of
  the chunk, plus the query chunk).
-/
import proofs.«404545_j32409823216126_3_alg».proof.Proof.Gen.KernelIdeal.Skeleton

noncomputable section

namespace Cert.KernelIdeal.Forms

open Cert.KernelIdeal Cert.KernelIdeal.Gen Idealize.ShloMosaic Idealize.ShloMosaic.TcCoe

variable {F : FTy → Type} [FloatOps F] [Named F]

/-- Row softmax of a 320×320 array, operation by operation as the body has it. -/
def smax (v7 : FVec F S320x320 .f32) : FVec F S320x320 .f32 :=
  have v8 : FVec F S320 .f32 := multiReduction .maximumf [1] S320 v7 0xFF800000#32 reduces_S320x320_S320 (.inl rfl) rfl
  have v9 : FVec F S320x1 .f32 := shapeCast S320x1 v8 shapeCasts_S320_S320x1
  have v10 : FVec F S320x320 .f32 := broadcastTo S320x320 v9 broadcasts_S320x1_S320x320
  have v11 : FVec F S320x320 .f32 := subf v7 v10
  have v12 : FVec F S320x320 .f32 := exp v11
  have v13 : FVec F S320 .f32 := multiReduction .add [1] S320 v12 0x00000000#32 reduces_S320x320_S320 (.inl rfl) rfl
  have v14 : FVec F S320x1 .f32 := shapeCast S320x1 v13 shapeCasts_S320_S320x1
  have v15 : FVec F S320x320 .f32 := broadcastTo S320x320 v14 broadcasts_S320x1_S320x320
  have v16 : FVec F S320x320 .f32 := divf v12 v15
  v16

/-- LayerNorm of a 320×512 block over its 320 rows with column-vector scale and shift, operation by operation as the body has it. -/
def lnorm (v36 : FVec F S320x512 .f32) (v19 v21 : FVec F S320x1 .f32) : FVec F S320x512 .f32 :=
  have v37 : FVec F S512 .f32 := multiReduction .add [0] S512 v36 0x00000000#32 reduces_S320x512_S512 (.inl rfl) rfl
  have v38 : FVec F S1x512 .f32 := shapeCast S1x512 v37 shapeCasts_S512_S1x512
  have cst_22 : F .f32 := Scalar.ofBits .f32 0x43A00000#32
  have v39 : FVec F S1x512 .f32 := broadcast S1x512 cst_22
  have v40 : FVec F S1x512 .f32 := divf v38 v39
  have v41 : FVec F S320x512 .f32 := broadcastTo S320x512 v40 broadcasts_S1x512_S320x512
  have v42 : FVec F S320x512 .f32 := subf v36 v41
  have v43 : FVec F S320x512 .f32 := mulf v42 v42
  have v44 : FVec F S512 .f32 := multiReduction .add [0] S512 v43 0x00000000#32 reduces_S320x512_S512 (.inl rfl) rfl
  have v45 : FVec F S1x512 .f32 := shapeCast S1x512 v44 shapeCasts_S512_S1x512
  have cst_24 : F .f32 := Scalar.ofBits .f32 0x43A00000#32
  have v46 : FVec F S1x512 .f32 := broadcast S1x512 cst_24
  have v47 : FVec F S1x512 .f32 := divf v45 v46
  have cst_25 : F .f32 := Scalar.ofBits .f32 0x3727C5AC#32
  have v48 : FVec F S1x512 .f32 := broadcast S1x512 cst_25
  have v49 : FVec F S1x512 .f32 := addf v47 v48
  have v50 : FVec F S1x512 .f32 := rsqrt v49
  have v51 : FVec F S320x512 .f32 := broadcastTo S320x512 v50 broadcasts_S1x512_S320x512
  have v52 : FVec F S320x512 .f32 := mulf v42 v51
  have v53 : FVec F S320x512 .f32 := broadcastTo S320x512 v19 broadcasts_S320x1_S320x512
  have v54 : FVec F S320x512 .f32 := mulf v52 v53
  have v55 : FVec F S320x512 .f32 := broadcastTo S320x512 v21 broadcasts_S320x1_S320x512
  have v56 : FVec F S320x512 .f32 := addf v54 v55
  v56

/-- The scaled logits: the accumulated logits times the named factor. -/
def scaled (v5 : FVec F S320x320 .f32) : FVec F S320x320 .f32 :=
  mulf v5 (broadcast S320x320 (Named.named κ "inv_temp" 0x3D64F92E#32 : F .f32))

/-- The chunk's value projection: the batch's query rows (as the body's first payload reads them) against a 2048×512 chunk of the transposed weight. -/
def vproj (v0 : Vec F S1x320x2048 .f32) (v28 : Vec F S2048x512 .bf16) : FVec F S320x512 .bf16 :=
  truncf .bf16 (matmul dot_S320x2048_S2048x512_S320x512_1_0_0_1_n_n none (k1_pay1 v0) (shapeCast S2048x512 v28 shapeCasts_S2048x512_S2048x512) (constant S320x512 .f32 0x00000000#32)) bitsLt_bf16_f32

/-- The body's stored value is the LayerNorm of (softmax of the scaled logits, times the chunk's value projection, plus the query chunk). -/
theorem pay4_eq (v0 : Vec F S1x320x2048 .f32) (v5 : FVec F S320x320 .f32) (v18 v20 : Vec F S320x1 .f32) (v28 : Vec F S2048x512 .bf16) (v34 : Vec F S1x320x512 .f32) :
    k1_pay4 v0 v5 v18 v20 v28 v34
      = shapeCast S1x320x512
          (lnorm (addf (matmul dot_S320x320_S320x512_S320x512_1_0_0_1_n_n none (truncf .bf16 (smax (scaled v5)) bitsLt_bf16_f32) (vproj v0 v28) (constant S320x512 .f32 0x00000000#32))
                       (shapeCast S320x512 v34 shapeCasts_S1x320x512_S320x512))
                 (shapeCast S320x1 v18 shapeCasts_S320x1_S320x1) (shapeCast S320x1 v20 shapeCasts_S320x1_S320x1))
          shapeCasts_S320x512_S1x320x512 := rfl

end Cert.KernelIdeal.Forms

end
-- ==== Proof.KPay3.lean ====
/- One chunk's update of the accumulated logits, read at an entry over the extended reals. -/
import proofs.«404545_j32409823216126_3_alg».proof.Proof.KForms
import proofs.«404545_j32409823216126_3_alg».proof.Proof.Spec
import proofs.«404545_j32409823216126_3_alg».proof.Proof.LibDotSum
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay3

open Cert.KernelIdeal Cert.KernelIdeal.Gen Idealize.ShloMosaic Idealize.ShloMosaic.TcCoe Idealize.ShloMosaic.ValueIdx

/-! ## Rows × rows: left axis 1 against right axis 1 -/

section RowsRows

variable {M K N : Nat}

/-- The dimension numbers of an [M, K] × [N, K] product contracted over both operands' second axes. -/
def rr (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ := ⟨[1], [1], [0], [0], [], [], wf⟩

variable (wf : DotDims.WF ⟨2, ![M, K]⟩ ⟨2, ![N, K]⟩ ⟨2, ![M, N]⟩ [1] [1] [0] [0] [] [])

theorem rr_lhs_0 (i : (⟨2, ![M, N]⟩ : Shape).Idx) (q : (rr wf).contr.Idx) : ((rr wf).lhsIdx i q 0).val = (i 0).val := by
  unfold DotDims.lhsIdx
  rw [dif_neg (show ¬(0 : Fin (⟨2, ![M, K]⟩ : Shape).rank) ∈ (rr wf).lhsBatch by simp [rr]),
    dif_pos (show (0 : Fin (⟨2, ![M, K]⟩ : Shape).rank) ∈ (rr wf).lhsNonContracting by simp [rr])]
  rfl
theorem rr_lhs_1 (i : (⟨2, ![M, N]⟩ : Shape).Idx) (q : (rr wf).contr.Idx) :
    ((rr wf).lhsIdx i q 1).val = (q ⟨0, Nat.one_pos⟩).val :=
  (rr wf).lhsIdx_val_of_single rfl i q
theorem rr_rhs_0 (i : (⟨2, ![M, N]⟩ : Shape).Idx) (q : (rr wf).contr.Idx) : ((rr wf).rhsIdx i q 0).val = (i 1).val := by
  unfold DotDims.rhsIdx
  rw [dif_neg (show ¬(0 : Fin (⟨2, ![N, K]⟩ : Shape).rank) ∈ (rr wf).rhsBatch by simp [rr]),
    dif_pos (show (0 : Fin (⟨2, ![N, K]⟩ : Shape).rank) ∈ (rr wf).rhsNonContracting by simp [rr])]
  rfl
theorem rr_rhs_1 (i : (⟨2, ![M, N]⟩ : Shape).Idx) (q : (rr wf).contr.Idx) :
    ((rr wf).rhsIdx i q 1).val = (q ⟨0, Nat.one_pos⟩).val :=
  (rr wf).rhsIdx_val_of_single rfl i q

/-- The contraction sum of a rows × rows product at (r, c) runs over the pairs (r, k), (c, k). -/
theorem sum_rr {β : Type} [AddCommMonoid β] (f : (⟨2, ![M, K]⟩ : Shape).Idx → (⟨2, ![N, K]⟩ : Shape).Idx → β)
    (r : Fin M) (c : Fin N) :
    ∑ k : (rr wf).contr.Idx, f ((rr wf).lhsIdx (ix2 r c) k) ((rr wf).rhsIdx (ix2 r c) k)
      = ∑ k : Fin K, f (ix2 r k) (ix2 c k) := by
  rw [← Equiv.sum_comp (contrEquiv1 (rr wf) K rfl rfl).symm]
  refine Finset.sum_congr rfl fun k _ => ?_
  have hk := contrEquiv1_symm_val (rr wf) K rfl rfl k
  have el : (rr wf).lhsIdx (ix2 r c) ((contrEquiv1 (rr wf) K rfl rfl).symm k) = ix2 r k := funext fun a => Fin.ext (by
    match a with
    | ⟨0, _⟩ => exact rr_lhs_0 wf _ _
    | ⟨1, _⟩ => exact (rr_lhs_1 wf _ _).trans hk)
  have er : (rr wf).rhsIdx (ix2 r c) ((contrEquiv1 (rr wf) K rfl rfl).symm k) = ix2 c k := funext fun a => Fin.ext (by
    match a with
    | ⟨0, _⟩ => exact rr_rhs_0 wf _ _
    | ⟨1, _⟩ => exact (rr_rhs_1 wf _ _).trans hk)
  rw [el, er]

/-- The same for any record with those axis lists. -/
theorem sum_contr_rr {β : Type} [AddCommMonoid β] (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (f : (⟨2, ![M, K]⟩ : Shape).Idx → (⟨2, ![N, K]⟩ : Shape).Idx → β) (r : Fin M) (c : Fin N) :
    ∑ k : d.contr.Idx, f (d.lhsIdx (ix2 r c) k) (d.rhsIdx (ix2 r c) k) = ∑ k : Fin K, f (ix2 r k) (ix2 c k) := by
  obtain ⟨lc, rc', ln, rn, lb, rb, wf'⟩ := d
  simp only at hlc hrc hln hrn hlb hrb
  subst hlc hrc hln hrn hlb hrb
  exact sum_rr wf' f r c

/-- A rows × rows block product into the zero accumulator, at (r, c): the sum over k of A (r, k) · B (c, k). -/
theorem matmul_rr_apply {φ₁ φ₂ : FTy} (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = []) (prec : Option ContractPrecision)
    (A : FVec Ideal ⟨2, ![M, K]⟩ φ₁) (B : FVec Ideal ⟨2, ![N, K]⟩ φ₂) (r : Fin M) (c : Fin N) :
    matmul d prec A B (constant ⟨2, ![M, N]⟩ .f32 0x00000000#32) (ix2 r c) = ∑ k : Fin K, A (ix2 r k) * B (ix2 c k) := by
  simp only [matmul]
  rw [Ideal.matmul_constant_zero_apply]
  exact sum_contr_rr d hlc hrc hln hrn hlb hrb (fun a b => A a * B b) r c

end RowsRows

/-- The accumulator starts at zero. -/
theorem pay2_apply (l m : Fin 320) : k1_pay2 (F := Ideal) (ix2 l m) = 0 := by
  unfold k1_pay2
  exact Ideal.ofBits_zero_f32

/-- One chunk's update at (l, m): the carried value plus, over the chunk's 512 columns, the projected-support entry (l, j) times the
    key projection of query row m against column j of the weight chunk. -/
theorem pay3_apply (x3 : Vec Ideal S1x320x2048 .f32) (a : FVec Ideal S320x320 .f32) (w : Vec Ideal S2048x512 .bf16)
    (q : Vec Ideal S1x320x512 .bf16) (l m : Fin 320) :
    k1_pay3 (F := Ideal) x3 a w q (ix2 l m)
      = a (ix2 l m) + ∑ j : Fin 512, q (ix3 0 l j) * (∑ i : Fin 2048, x3 (ix3 0 m i) * w (ix2 i j)) := by
  unfold k1_pay3 k1_pay1
  dsimp only
  rw [addf_apply, matmul_rr_apply dot_S320x512_S320x512_S320x320_1_1_0_0_n_n rfl rfl rfl rfl rfl rfl]
  refine congrArg (a (ix2 l m) + ·) (Finset.sum_congr rfl fun j _ => ?_)
  rw [shapeCast_1ab_ab_apply, truncf_apply,
    Cert.Lib.matmul_rc_apply dot_S320x2048_S2048x512_S320x512_1_0_0_1_n_n rfl rfl rfl rfl rfl rfl]
  refine congrArg (q (ix3 0 l j) * ·) (Finset.sum_congr rfl fun i _ => ?_)
  rw [truncf_apply, shapeCast_1ab_ab_apply, shapeCast_self]

end Cert.KernelIdeal.Pay3

end
-- ==== Proof.KSoftmax.lean ====
/- The body's row softmax, read at an entry over the extended reals. -/
import proofs.«404545_j32409823216126_3_alg».proof.Proof.KForms
import proofs.«404545_j32409823216126_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Softmax

open Cert.KernelIdeal Cert.KernelIdeal.Gen Idealize.ShloMosaic Idealize.ShloMosaic.TcCoe Idealize.ShloMosaic.ValueIdx

/-- The word of −∞ denotes the bottom of the extended reals. -/
theorem ofBits_negInf : Ideal.ofBits .f32 0xFF800000#32 = (⊥ : EReal) := by
  simp [Ideal.ofBits, Ideal.ieee]

/-- An [a] array cast to the column [a, 1] reads, at (i, u), the operand at i, whatever the unit coordinate u. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction over the second axis inserts coordinate k into, at row l, is (l, k). -/
theorem lift_row (l k : Fin 320) : reduces_S320x320_S320.lift (ix1 l) k = ix2 l k :=
  funext fun a => Fin.ext (by match a with | ⟨0, _⟩ => rfl | ⟨1, _⟩ => rfl)

/-- The body's row maximum at row l is the specification's maximum of row l. -/
theorem rowMax_apply (v7 : FVec Ideal S320x320 .f32) (l : Fin 320) :
    multiReduction (F := Ideal) .maximumf [1] S320 v7 0xFF800000#32 reduces_S320x320_S320 (.inl rfl) rfl (ix1 l)
      = Cert.Spec.rowMax (fun m' => v7 (ix2 l m')) := by
  refine (Ideal.multiReduction_maximumf_single v7 _ reduces_S320x320_S320 (.inl rfl) rfl (ix1 l)).trans ?_
  unfold Cert.Spec.rowMax
  have hf : (v7 ∘ reduces_S320x320_S320.lift (ix1 l)) = fun m' : Fin 320 => v7 (ix2 l m') := by
    funext k; exact congrArg v7 (lift_row l k)
  rw [hf]
  show Finset.fold max (Ideal.ofBits .f32 0xFF800000#32) _ _ = _
  rw [ofBits_negInf]
  rfl

/-- The body's row sum at row l is the sum over the row's entries. -/
theorem rowSum_apply (v12 : FVec Ideal S320x320 .f32) (l : Fin 320) :
    multiReduction (F := Ideal) .add [1] S320 v12 0x00000000#32 reduces_S320x320_S320 (.inl rfl) rfl (ix1 l)
      = ∑ m' : Fin 320, v12 (ix2 l m') := by
  refine (Ideal.multiReduction_add_single v12 _ reduces_S320x320_S320 (.inl rfl) rfl (ix1 l)).trans ?_
  exact Finset.sum_congr rfl fun k _ => congrArg v12 (lift_row l k)

/-- A row vector made a column and spread over the columns reads, at (l, m), the row vector at l. -/
theorem keepdims_apply (r : FVec Ideal S320 .f32) (l m : Fin 320) :
    (broadcastTo S320x320 (shapeCast S320x1 r shapeCasts_S320_S320x1) broadcasts_S320x1_S320x320 : FVec Ideal S320x320 .f32) (ix2 l m)
      = r (ix1 l) :=
  (broadcastTo_a1_ab_apply _ _ l m).trans (shapeCast_a_a1_apply r _ l 0)

/-- The exponential of an entry less its row's value. -/
theorem exp_sub_apply (v7 : FVec Ideal S320x320 .f32) (r : FVec Ideal S320 .f32) (l m : Fin 320) :
    exp (subf v7 (broadcastTo S320x320 (shapeCast S320x1 r shapeCasts_S320_S320x1) broadcasts_S320x1_S320x320)) (ix2 l m)
      = Ideal.exp (v7 (ix2 l m) - r (ix1 l)) := by
  show Ideal.exp (v7 (ix2 l m) - (broadcastTo S320x320 (shapeCast S320x1 r shapeCasts_S320_S320x1) broadcasts_S320x1_S320x320 : FVec Ideal S320x320 .f32) (ix2 l m)) = _
  rw [keepdims_apply]

/-- The quotient of an entry by its row's value. -/
theorem div_row_apply (v12 : FVec Ideal S320x320 .f32) (r : FVec Ideal S320 .f32) (l m : Fin 320) :
    divf v12 (broadcastTo S320x320 (shapeCast S320x1 r shapeCasts_S320_S320x1) broadcasts_S320x1_S320x320) (ix2 l m)
      = Ideal.div (v12 (ix2 l m)) (r (ix1 l)) := by
  show Ideal.div (v12 (ix2 l m)) ((broadcastTo S320x320 (shapeCast S320x1 r shapeCasts_S320_S320x1) broadcasts_S320x1_S320x320 : FVec Ideal S320x320 .f32) (ix2 l m)) = _
  rw [keepdims_apply]

/-- Entry (l, m) of the body's softmax of a 320×320 array is the specification's softmax of row l at m. -/
theorem smax_apply (v7 : FVec Ideal S320x320 .f32) (l m : Fin 320) :
    Forms.smax (F := Ideal) v7 (ix2 l m) = Cert.Spec.softmaxRow (fun m' => v7 (ix2 l m')) m := by
  refine (div_row_apply _ _ l m).trans ?_
  refine (congrArg₂ Ideal.div (exp_sub_apply v7 _ l m)
    ((rowSum_apply _ l).trans (Finset.sum_congr rfl fun m' _ => exp_sub_apply v7 _ l m'))).trans ?_
  rw [rowMax_apply]
  rfl

end Cert.KernelIdeal.Softmax

end
-- ==== Proof.KLayerNorm.lean ====
/- The body's LayerNorm of a 320×512 block over its rows, read at an entry over the extended reals. -/
import proofs.«404545_j32409823216126_3_alg».proof.Proof.KForms
import proofs.«404545_j32409823216126_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.LayerNorm

open Cert.KernelIdeal Cert.KernelIdeal.Gen Idealize.ShloMosaic Idealize.ShloMosaic.TcCoe Idealize.ShloMosaic.ValueIdx

/-- A column vector `[a, 1]` broadcast to `[a, b]` reads, at `(p, c)`, the vector's entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of a 320×512 block over its 320 rows, read at column `j`: the sum of that column's entries. -/
theorem colsum_apply (x : FVec Ideal S320x512 .f32) (j : Fin 512) :
    multiReduction (F := Ideal) .add [0] S512 x 0x00000000#32 reduces_S320x512_S512 (.inl rfl) rfl (ix1 j)
      = ∑ l : Fin 320, x (ix2 l j) := by
  refine (Ideal.multiReduction_add_single x 0x00000000#32 reduces_S320x512_S512 (.inl rfl) rfl (ix1 j)).trans ?_
  refine Finset.sum_congr rfl fun k _ => congrArg x ?_
  funext a
  exact Fin.ext (by match a with | ⟨0, _⟩ => rfl | ⟨1, _⟩ => rfl)

/-- A reciprocal square root at an index is that of the element. -/
theorem rsqrt_apply {s : Shape} {φ : FTy} (a : FVec Ideal s φ) (i : s.Idx) : rsqrt a i = Ideal.rsqrt (a i) := rfl

/-- Entry (l, j) of the body's LayerNorm is the specification's LayerNorm of column j at row l, with the column vectors' entries as scale and shift. -/
theorem lnorm_apply (u : FVec Ideal S320x512 .f32) (g b : FVec Ideal S320x1 .f32) (l : Fin 320) (j : Fin 512) :
    Forms.lnorm (F := Ideal) u g b (ix2 l j)
      = Cert.Spec.layerNormCol (fun l' => g (ix2 l' 0)) (fun l' => b (ix2 l' 0)) (fun l' => u (ix2 l' j)) l := by
  unfold Forms.lnorm
  -- the pointwise operations and the layout operations, read at (l, j) down to the two column sums
  simp only [addf_apply, mulf_apply, subf_apply, divf_apply, rsqrt_apply, broadcast_apply, broadcastTo_1b_ab_apply,
    broadcastTo_a1_ab_apply, shapeCast_a_1a_apply, Ideal.ofBits_def]
  -- the column sum of the entries, and the column sum of the squared centred entries
  rw [colsum_apply u j, colsum_apply _ j]
  -- each squared centred entry, read at (l', j): the entry minus the column mean, times itself
  simp only [addf_apply, mulf_apply, subf_apply, divf_apply, rsqrt_apply, broadcast_apply, broadcastTo_1b_ab_apply,
    broadcastTo_a1_ab_apply, shapeCast_a_1a_apply, Ideal.ofBits_def]
  rw [colsum_apply u j]
  -- both sides are now (u − μ) · rsqrt (σ² + ε) · γ + β with the same mean, variance and constant words
  rfl

end Cert.KernelIdeal.LayerNorm

end
-- ==== Proof.KPay4.lean ====
/- The second kernel's stored value for one column chunk, read at an entry over the extended reals. -/
import proofs.«404545_j32409823216126_3_alg».proof.Proof.KForms
import proofs.«404545_j32409823216126_3_alg».proof.Proof.Spec
import proofs.«404545_j32409823216126_3_alg».proof.Proof.KSoftmax
import proofs.«404545_j32409823216126_3_alg».proof.Proof.KLayerNorm
import proofs.«404545_j32409823216126_3_alg».proof.Proof.LibDotSum
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value

noncomputable section

namespace Cert.KernelIdeal.Pay4

open Cert.KernelIdeal Cert.KernelIdeal.Gen Idealize.ShloMosaic Idealize.ShloMosaic.TcCoe Idealize.ShloMosaic.ValueIdx

/-- The kernel's named factor denotes the rational 524288/9378749 over the extended reals. -/
theorem inv_temp_val :
    Named.named (F := Ideal) Cert.KernelIdeal.κ "inv_temp" (φ := .f32) 0x3D64F92E#32 = ((524288 / 9378749 : ℝ) : EReal) :=
  IdealRules.named_const.ideal_named_scalar _ _ _ _ rfl

/-- The scaled logits at an entry: the kernel's scaling of the accumulated logit. -/
theorem scaled_apply (v5 : FVec Ideal S320x320 .f32) (l m : Fin 320) :
    Forms.scaled (F := Ideal) v5 (ix2 l m) = Cert.Spec.scaleK (v5 (ix2 l m)) := by
  simp only [Forms.scaled, mulf, broadcast, Ideal.mulf_def, inv_temp_val, Cert.Spec.scaleK, Cert.Spec.invTemp]

/-- The chunk's value projection at (m, j): query row m against column j of the weight chunk. -/
theorem vproj_apply (x3 : Vec Ideal S1x320x2048 .f32) (w : Vec Ideal S2048x512 .bf16) (m : Fin 320) (j : Fin 512) :
    Forms.vproj (F := Ideal) x3 w (ix2 m j) = ∑ i : Fin 2048, x3 (ix3 0 m i) * w (ix2 i j) := by
  unfold Forms.vproj
  simp only [truncf, Ideal.truncf_def]
  rw [Cert.Lib.matmul_rc_apply dot_S320x2048_S2048x512_S320x512_1_0_0_1_n_n rfl rfl rfl rfl rfl rfl]
  refine Finset.sum_congr rfl fun i _ => ?_
  rw [shapeCast_self]
  simp only [k1_pay1, truncf, Ideal.truncf_def]
  rw [shapeCast_1ab_ab_apply]

/-- The stored value at (l, j) of the chunk: the specification's LayerNorm of column j of (softmax of the scaled logits times the
    chunk's value projection, plus the query chunk), at row l. -/
theorem pay4_apply (x3 : Vec Ideal S1x320x2048 .f32) (v5 : FVec Ideal S320x320 .f32) (x4 x5 : Vec Ideal S320x1 .f32)
    (w : Vec Ideal S2048x512 .bf16) (qc : Vec Ideal S1x320x512 .f32) (l : Fin 320) (j : Fin 512) :
    k1_pay4 (F := Ideal) x3 v5 x4 x5 w qc (ix3 0 l j)
      = Cert.Spec.layerNormCol (fun l' => x4 (ix2 l' 0)) (fun l' => x5 (ix2 l' 0))
          (fun l' => (∑ m : Fin 320, Cert.Spec.softmaxRow (fun m' => Cert.Spec.scaleK (v5 (ix2 l' m'))) m
                        * (∑ i : Fin 2048, x3 (ix3 0 m i) * w (ix2 i j))) + qc (ix3 0 l' j)) l := by
  rw [Forms.pay4_eq, shapeCast_ab_1ab_apply, LayerNorm.lnorm_apply]
  simp only [shapeCast_self]
  refine congrArg (fun u => Cert.Spec.layerNormCol _ _ u l) (funext fun l' => ?_)
  rw [addf_apply, Cert.Lib.matmul_rc_apply dot_S320x320_S320x512_S320x512_1_0_0_1_n_n rfl rfl rfl rfl rfl rfl,
    shapeCast_1ab_ab_apply]
  refine congrArg (· + qc (ix3 0 l' j)) (Finset.sum_congr rfl fun m _ => ?_)
  rw [truncf_apply, Softmax.smax_apply, vproj_apply]
  simp only [scaled_apply]

end Cert.KernelIdeal.Pay4

end
-- ==== Proof.KRegion1.lean ====
/-
  The second kernel's result array, from whatever contents `V` it is entered at: entry (b, l, o) is the specification's per-batch
  result of the projected support rows, the query rows, the two transposed weights and the column-vector affine parameters found there.
-/
import proofs.«404545_j32409823216126_3_alg».proof.Proof.Gen.KernelIdeal.Frame
import proofs.«404545_j32409823216126_3_alg».proof.Proof.Spec
import proofs.«404545_j32409823216126_3_alg».proof.Proof.KBody1
import proofs.«404545_j32409823216126_3_alg».proof.Proof.KPay3
import proofs.«404545_j32409823216126_3_alg».proof.Proof.KPay4
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem

open Cert.KernelIdeal.Chunks

/-! ## One block: the accumulated logits and the stored entry -/

/-- The accumulator before any chunk is zero. -/
theorem acc_zero (x0 : Vec Ideal S2048x2048 .bf16) (x2 : Vec Ideal S1x320x2048 .bf16) (x3 : Vec Ideal S1x320x2048 .f32)
    (l m : Fin 320) : accLogits (F := Ideal) x0 x2 x3 0 (ix2 l m) = 0 :=
  Pay3.pay2_apply l m

/-- Chunk n adds, over its 512 columns 512n + j, the projected-support entry (l, 512n + j) times the key projection of query row m
    against column 512n + j of the key weight. -/
theorem acc_succ (x0 : Vec Ideal S2048x2048 .bf16) (x2 : Vec Ideal S1x320x2048 .bf16) (x3 : Vec Ideal S1x320x2048 .f32)
    (n n' : ℕ) (hn : n' = n + 1) (h : n < 4) (l m : Fin 320) :
    accLogits (F := Ideal) x0 x2 x3 n' (ix2 l m)
      = accLogits (F := Ideal) x0 x2 x3 n (ix2 l m)
        + ∑ j : Fin 512, x2 (ix3 0 l ⟨512 * n + j.val, by omega⟩)
            * ∑ i : Fin 2048, x3 (ix3 0 m i) * x0 (ix2 i ⟨512 * n + j.val, by omega⟩) := by
  subst hn
  rw [accLogits, dif_pos h, Pay3.pay3_apply]
  rfl

/-- After the four chunks the accumulator holds the specification's logit of the block's rows. -/
theorem acc_four (x0 : Vec Ideal S2048x2048 .bf16) (x2 : Vec Ideal S1x320x2048 .bf16) (x3 : Vec Ideal S1x320x2048 .f32)
    (l m : Fin 320) :
    accLogits (F := Ideal) x0 x2 x3 4 (ix2 l m)
      = Cert.Spec.logitB (fun l' o' => x2 (ix3 0 l' o'))
          (Cert.Spec.projB (fun l' i => x3 (ix3 0 l' i)) (fun o' i => x0 (ix2 i o'))) l m := by
  rw [acc_succ x0 x2 x3 3 4 rfl (by decide) l m, acc_succ x0 x2 x3 2 3 rfl (by decide) l m,
    acc_succ x0 x2 x3 1 2 rfl (by decide) l m, acc_succ x0 x2 x3 0 1 rfl (by decide) l m, acc_zero x0 x2 x3 l m]
  exact (Cert.Spec.sum_chunks (fun o : Fin 2048 => x2 (ix3 0 l o) * ∑ i : Fin 2048, x3 (ix3 0 m i) * x0 (ix2 i o))).symm

/-- The body's output block at (l, o): the specification's per-batch result of the block's own rows and parameters. -/
theorem block_apply (c : Dev nD) (i : grid1.Coords)
    (arg1 : Memref sig .tc .vmem S2048x2048 .bf16) (harg1 : arg1.IsWhole) (arg2 : Memref sig .tc .vmem S2048x2048 .bf16) (harg2 : arg2.IsWhole)
    (arg3 : Memref sig .tc .vmem S1x320x2048 .bf16) (harg3 : arg3.IsWhole) (arg4 : Memref sig .tc .vmem S1x320x2048 .f32) (harg4 : arg4.IsWhole)
    (arg5 : Memref sig .tc .vmem S320x1 .f32) (harg5 : arg5.IsWhole) (arg6 : Memref sig .tc .vmem S320x1 .f32) (harg6 : arg6.IsWhole)
    (arg7 : Memref sig .tc .vmem S1x320x2048 .f32) (harg7 : arg7.IsWhole)
    (x0 x1 : Vec Ideal S2048x2048 .bf16) (x2 : Vec Ideal S1x320x2048 .bf16) (x3 : Vec Ideal S1x320x2048 .f32) (x4 x5 : Vec Ideal S320x1 .f32)
    (l : Fin 320) (o : Fin 2048) :
    out1_A_6 (F := Ideal) c i arg1 harg1 arg2 harg2 arg3 harg3 arg4 harg4 arg5 harg5 arg6 harg6 arg7 harg7 x0 x1 x2 x3 x4 x5
        (ix3 (n0 := 1) (n1 := 320) (n2 := 2048) 0 l o)
      = Cert.Spec.GB Cert.Spec.scaleK (fun l' o' => x2 (ix3 0 l' o')) (fun l' i' => x3 (ix3 0 l' i'))
          (fun o' i' => x0 (ix2 i' o')) (fun o' i' => x1 (ix2 i' o'))
          (fun l' => x4 (ix2 l' 0)) (fun l' => x5 (ix2 l' 0)) l o := by
  obtain ⟨k, j, rfl⟩ : ∃ (k : Fin 4) (j : Fin 512), o = ⟨512 * k.val + j.val, by omega⟩ :=
    ⟨⟨o.val / 512, by omega⟩, ⟨o.val % 512, by omega⟩, Fin.ext (by show o.val = 512 * (o.val / 512) + o.val % 512; omega)⟩
  rw [Body1.out1_apply, Pay4.pay4_apply]
  unfold Cert.Spec.GB
  refine congrArg (fun u => Cert.Spec.layerNormCol _ _ u l) (funext fun l' => ?_)
  simp only [acc_four]
  rfl
variable (V : (c : Dev nD) → (b : Ref sig .tc) → Buf (Elt Ideal) ((c : Thread nD τ).loc b))

/-! ## The blocks the windows read -/

/-- The printed index maps over the grid: the two weights' and the two affine parameters' blocks stay at the origin; the projected-support,
    query and output blocks sit at batch t. -/
theorem idx_facts : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 3) = t.val ∧ win1_2.index t (1 : Fin 3) = 0 ∧ win1_2.index t (2 : Fin 3) = 0
    ∧ win1_3.index t (0 : Fin 3) = t.val ∧ win1_3.index t (1 : Fin 3) = 0 ∧ win1_3.index t (2 : Fin 3) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 3) = t.val ∧ win1_6.index t (1 : Fin 3) = 0 ∧ win1_6.index t (2 : Fin 3) = 0 :=
  (by decide +kernel : ∀ t : Fin grid1.N, _)

/-- The batch a grid point works on. -/
abbrev bt (t : Fin cfg1.N) : Fin 32 := Fin.cast N_1 t

/-- The key weight's block at point t. -/
abbrev bWk (c : Dev nD) (t : Fin cfg1.N) : Vec Ideal S2048x2048 .bf16 := iblk1 V c 0 t
/-- The value weight's block at point t. -/
abbrev bWv (c : Dev nD) (t : Fin cfg1.N) : Vec Ideal S2048x2048 .bf16 := iblk1 V c 1 t
/-- The projected support rows' block at point t. -/
abbrev bQ (c : Dev nD) (t : Fin cfg1.N) : Vec Ideal S1x320x2048 .bf16 := iblk1 V c 2 t
/-- The query rows' block at point t. -/
abbrev bX (c : Dev nD) (t : Fin cfg1.N) : Vec Ideal S1x320x2048 .f32 := iblk1 V c 3 t
/-- The scale column's block at point t. -/
abbrev bG (c : Dev nD) (t : Fin cfg1.N) : Vec Ideal S320x1 .f32 := iblk1 V c 4 t
/-- The shift column's block at point t. -/
abbrev bB (c : Dev nD) (t : Fin cfg1.N) : Vec Ideal S320x1 .f32 := iblk1 V c 5 t

/-- The key weight's block is the whole array. -/
theorem bWk_apply (c : Dev nD) (t : Fin cfg1.N) (i o : Fin 2048) :
    bWk V c t (ix2 i o) = (V c main_v3 : Vec Ideal S2048x2048 .bf16) (ix2 i o) := by
  obtain ⟨e0, e1, -⟩ := idx_facts t
  show (V c main_v3 : Vec Ideal S2048x2048 .bf16) (((cfg1.win 0).blk t).view.emb (ix2 i o)) = _
  refine congrArg _ (funext fun a => Fin.ext ?_)
  match a with
  | ⟨0, _⟩ => show win1_0.index t (0 : Fin 2) * 2048 + 1 * i.val = i.val; omega
  | ⟨1, _⟩ => show win1_0.index t (1 : Fin 2) * 2048 + 1 * o.val = o.val; omega

/-- The value weight's block is the whole array. -/
theorem bWv_apply (c : Dev nD) (t : Fin cfg1.N) (i o : Fin 2048) :
    bWv V c t (ix2 i o) = (V c main_v5 : Vec Ideal S2048x2048 .bf16) (ix2 i o) := by
  obtain ⟨-, -, e0, e1, -⟩ := idx_facts t
  show (V c main_v5 : Vec Ideal S2048x2048 .bf16) (((cfg1.win 1).blk t).view.emb (ix2 i o)) = _
  refine congrArg _ (funext fun a => Fin.ext ?_)
  match a with
  | ⟨0, _⟩ => show win1_1.index t (0 : Fin 2) * 2048 + 1 * i.val = i.val; omega
  | ⟨1, _⟩ => show win1_1.index t (1 : Fin 2) * 2048 + 1 * o.val = o.val; omega

/-- The projected support rows' block is batch t of the array. -/
theorem bQ_apply (c : Dev nD) (t : Fin cfg1.N) (l : Fin 320) (o : Fin 2048) :
    bQ V c t (ix3 0 l o) = (V c main_v8 : Vec Ideal S32x320x2048 .bf16) (ix3 (bt t) l o) := by
  obtain ⟨-, -, -, -, e0, e1, e2, -⟩ := idx_facts t
  show (V c main_v8 : Vec Ideal S32x320x2048 .bf16) (((cfg1.win 2).blk t).view.emb (ix3 0 l o)) = _
  refine congrArg _ (funext fun a => Fin.ext ?_)
  match a with
  | ⟨0, _⟩ => show win1_2.index t (0 : Fin 3) * 1 + 1 * 0 = t.val; omega
  | ⟨1, _⟩ => show win1_2.index t (1 : Fin 3) * 320 + 1 * l.val = l.val; omega
  | ⟨2, _⟩ => show win1_2.index t (2 : Fin 3) * 2048 + 1 * o.val = o.val; omega

/-- The query rows' block is batch t of the array. -/
theorem bX_apply (c : Dev nD) (t : Fin cfg1.N) (l : Fin 320) (o : Fin 2048) :
    bX V c t (ix3 0 l o) = (V c main_arg0 : Vec Ideal S32x320x2048 .f32) (ix3 (bt t) l o) := by
  obtain ⟨-, -, -, -, -, -, -, e0, e1, e2, -⟩ := idx_facts t
  show (V c main_arg0 : Vec Ideal S32x320x2048 .f32) (((cfg1.win 3).blk t).view.emb (ix3 0 l o)) = _
  refine congrArg _ (funext fun a => Fin.ext ?_)
  match a with
  | ⟨0, _⟩ => show win1_3.index t (0 : Fin 3) * 1 + 1 * 0 = t.val; omega
  | ⟨1, _⟩ => show win1_3.index t (1 : Fin 3) * 320 + 1 * l.val = l.val; omega
  | ⟨2, _⟩ => show win1_3.index t (2 : Fin 3) * 2048 + 1 * o.val = o.val; omega

/-- The scale column's block is the whole column. -/
theorem bG_apply (c : Dev nD) (t : Fin cfg1.N) (l : Fin 320) :
    bG V c t (ix2 l 0) = (V c main_v6 : Vec Ideal S320x1 .f32) (ix2 l 0) := by
  obtain ⟨-, -, -, -, -, -, -, -, -, -, e0, e1, -⟩ := idx_facts t
  show (V c main_v6 : Vec Ideal S320x1 .f32) (((cfg1.win 4).blk t).view.emb (ix2 l 0)) = _
  refine congrArg _ (funext fun a => Fin.ext ?_)
  match a with
  | ⟨0, _⟩ => show win1_4.index t (0 : Fin 2) * 320 + 1 * l.val = l.val; omega
  | ⟨1, _⟩ => show win1_4.index t (1 : Fin 2) * 1 + 1 * 0 = 0; omega

/-- The shift column's block is the whole column. -/
theorem bB_apply (c : Dev nD) (t : Fin cfg1.N) (l : Fin 320) :
    bB V c t (ix2 l 0) = (V c main_v7 : Vec Ideal S320x1 .f32) (ix2 l 0) := by
  obtain ⟨-, -, -, -, -, -, -, -, -, -, -, -, e0, e1, -⟩ := idx_facts t
  show (V c main_v7 : Vec Ideal S320x1 .f32) (((cfg1.win 5).blk t).view.emb (ix2 l 0)) = _
  refine congrArg _ (funext fun a => Fin.ext ?_)
  match a with
  | ⟨0, _⟩ => show win1_5.index t (0 : Fin 2) * 320 + 1 * l.val = l.val; omega
  | ⟨1, _⟩ => show win1_5.index t (1 : Fin 2) * 1 + 1 * 0 = 0; omega

/-! ## What a point leaves, and the array -/

/-- The specification's result at (b, l, o) from the entry contents. -/
abbrev specAt (c : Dev nD) (b : Fin 32) (l : Fin 320) (o : Fin 2048) : EReal :=
  Cert.Spec.GB Cert.Spec.scaleK
    (fun l' o' => (V c main_v8 : Vec Ideal S32x320x2048 .bf16) (ix3 b l' o'))
    (fun l' i => (V c main_arg0 : Vec Ideal S32x320x2048 .f32) (ix3 b l' i))
    (fun o' i => (V c main_v3 : Vec Ideal S2048x2048 .bf16) (ix2 i o'))
    (fun o' i => (V c main_v5 : Vec Ideal S2048x2048 .bf16) (ix2 i o'))
    (fun l' => (V c main_v6 : Vec Ideal S320x1 .f32) (ix2 l' 0))
    (fun l' => (V c main_v7 : Vec Ideal S320x1 .f32) (ix2 l' 0)) l o

/-- The whole result array as the specification gives it from the entry contents. -/
abbrev specArr (c : Dev nD) : Vec Ideal S32x320x2048 .f32 := fun y => specAt V c (y 0) (y 1) (y 2)

/-- What point t leaves in the output's staging block at (l, o): the specification's result at batch t. -/
theorem outsAt_apply (c : Dev nD) (t : Fin cfg1.N) (l : Fin 320) (o : Fin 2048) :
    outsAt1 (F := Ideal) V c t (ix3 (n0 := 1) (n1 := 320) (n2 := 2048) 0 l o) = specAt V c (bt t) l o := by
  unfold outsAt1
  refine (block_apply c (grid1.coords t) (ms1_0 t) (hs1_0 t) (ms1_1 t) (hs1_1 t) (ms1_2 t) (hs1_2 t) (ms1_3 t) (hs1_3 t)
    (ms1_4 t) (hs1_4 t) (ms1_5 t) (hs1_5 t) (ms1_6 t) (hs1_6 t)
    (bWk V c t) (bWv V c t) (bQ V c t) (bX V c t) (bG V c t) (bB V c t) l o).trans ?_
  simp only [bWk_apply, bWv_apply, bQ_apply, bX_apply, bG_apply, bB_apply]

/-- The same at any index of the staging block. -/
theorem outsAt_idx (c : Dev nD) (t : Fin cfg1.N) (y : S1x320x2048.Idx) :
    outsAt1 (F := Ideal) V c t y = specAt V c (bt t) (y 1) (y 2) := by
  obtain ⟨z, l, o, rfl⟩ : ∃ (z : Fin 1) (l : Fin 320) (o : Fin 2048), y = ix3 z l o := ⟨y 0, y 1, y 2, eq_ix3 y⟩
  obtain rfl : z = 0 := Subsingleton.elim _ _
  exact outsAt_apply V c t l o

/-- What point t writes back is its block of the specification's array. -/
theorem flushed_eq (c : Dev nD) (t : Fin cfg1.N) :
    (dat1 (F := Ideal) V c).flushed 6 t = ((cfg1.win 6).blk t).view.read (Elt Ideal) (specArr V c) := by
  show (cfg1.win 6).cut (grid1.coords t) ((dat1 (F := Ideal) V c).after 6 t) = _
  rw [after1_6]
  obtain ⟨-, -, -, -, -, -, -, -, -, -, -, -, -, -, e0, e1, e2⟩ := idx_facts t
  funext y
  have hy0 : (y 0).val < 1 := (y 0).isLt
  have hemb : ((cfg1.win 6).blk t).view.emb y = ix3 (n0 := 32) (n1 := 320) (n2 := 2048) (bt t) (y 1) (y 2) := by
    funext a; apply Fin.ext
    match a with
    | ⟨0, _⟩ => show win1_6.index t (0 : Fin 3) * 1 + 1 * (y 0).val = t.val; omega
    | ⟨1, _⟩ => show win1_6.index t (1 : Fin 3) * 320 + 1 * (y 1).val = (y 1).val; omega
    | ⟨2, _⟩ => show win1_6.index t (2 : Fin 3) * 2048 + 1 * (y 2).val = (y 2).val; omega
  refine (outsAt_idx V c t y).trans ?_
  show specAt V c (bt t) (y 1) (y 2) = specArr V c (((cfg1.win 6).blk t).view.emb y)
  rw [hemb]

/-- An index of the array is in point t's block iff each coordinate is in the block's range on its axis. -/
theorem mem_blk (t : Fin cfg1.N) (i : S32x320x2048.Idx) :
    i ∈ ((cfg1.win 6).blk t).view.set ↔ ∀ a : Fin 3, win1_6.index t a * S1x320x2048.size a ≤ (i a).val
      ∧ (i a).val < win1_6.index t a * S1x320x2048.size a + S1x320x2048.size a := by
  show i ∈ ((View.whole main_v9).slice (win1_6.rect t)).set ↔ _
  rw [View.set_slice_whole, Rect.mem_set_unit]
  exact Iff.rfl

/-- Every index of the array is in the block of the point at its batch. -/
theorem cover (i : S32x320x2048.Idx) :
    ∃ t : Fin cfg1.N, (cfg1.win 6).flush t = true ∧ i ∈ ((cfg1.win 6).blk t).view.set := by
  have h0 : (i 0).val < 32 := (i 0).isLt
  have h1 : (i 1).val < 320 := (i 1).isLt
  have h2 : (i 2).val < 2048 := (i 2).isLt
  have hN : cfg1.N = 32 := N_1
  obtain ⟨t, ht⟩ : ∃ t : Fin cfg1.N, t.val = (i 0).val := ⟨⟨(i 0).val, by rw [hN]; exact h0⟩, rfl⟩
  obtain ⟨-, -, -, -, -, -, -, -, -, -, -, -, -, -, e0, e1, e2⟩ := idx_facts t
  refine ⟨t, flush1_6 t, ?_⟩
  rw [mem_blk]
  intro a
  match a with
  | ⟨0, _⟩ => show win1_6.index t (0 : Fin 3) * 1 ≤ (i 0).val ∧ (i 0).val < win1_6.index t (0 : Fin 3) * 1 + 1; omega
  | ⟨1, _⟩ => show win1_6.index t (1 : Fin 3) * 320 ≤ (i 1).val ∧ (i 1).val < win1_6.index t (1 : Fin 3) * 320 + 320; omega
  | ⟨2, _⟩ => show win1_6.index t (2 : Fin 3) * 2048 ≤ (i 2).val ∧ (i 2).val < win1_6.index t (2 : Fin 3) * 2048 + 2048; omega

/-- The array the write-backs leave is the specification's. -/
theorem final (c : Dev nD) : (dat1 (F := Ideal) V c).arrAt 6 cfg1.N = specArr V c :=
  (dat1 (F := Ideal) V c).arrAt_eq_of_cover 6 (specArr V c) (fun t _ => flushed_eq V c t) cover
/-- The array the second kernel's write-backs leave, at (b, l, o). -/
theorem arr1_apply (c : Dev nD) (b : Fin 32) (l : Fin 320) (o : Fin 2048) :
    ((Gen.dat1 (F := Ideal) V c).arrAt 6 cfg1.N : Vec Ideal S32x320x2048 .f32) (ix3 b l o)
      = Cert.Spec.GB Cert.Spec.scaleK
          (fun l' o' => (V c main_v8 : Vec Ideal S32x320x2048 .bf16) (ix3 b l' o'))
          (fun l' i => (V c main_arg0 : Vec Ideal S32x320x2048 .f32) (ix3 b l' i))
          (fun o' i => (V c main_v3 : Vec Ideal S2048x2048 .bf16) (ix2 i o'))
          (fun o' i => (V c main_v5 : Vec Ideal S2048x2048 .bf16) (ix2 i o'))
          (fun l' => (V c main_v6 : Vec Ideal S320x1 .f32) (ix2 l' 0))
          (fun l' => (V c main_v7 : Vec Ideal S320x1 .f32) (ix2 l' 0)) l o := by
  exact congrFun (final V c) (ix3 b l o)

end Cert.KernelIdeal.Region1

end
-- ==== Proof.KValue.lean ====
/-
  The kernel program's run with its result as the specification's array: the second kernel's array, entered at what the host
  stretch and the first kernel leave, is the specification's result of the seven launched arrays with the kernel's scaling.
-/
import proofs.«404545_j32409823216126_3_alg».proof.Proof.KRun
import proofs.«404545_j32409823216126_3_alg».proof.Proof.KEntry
import proofs.«404545_j32409823216126_3_alg».proof.Proof.KRegion1

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The per-batch result depends on its arguments only through their values. -/
theorem GB_congr {sc : EReal → EReal} {q q' X X' : Fin 320 → Fin 2048 → EReal} {Wk Wk' Wv Wv' : Fin 2048 → Fin 2048 → EReal}
    {g g' s s' : Fin 320 → EReal} (h1 : q = q') (h2 : X = X') (h3 : Wk = Wk') (h4 : Wv = Wv') (h5 : g = g') (h6 : s = s')
    (l : Fin 320) (o : Fin 2048) : Cert.Spec.GB sc q X Wk Wv g s l o = Cert.Spec.GB sc q' X' Wk' Wv' g' s' l o := by
  subst h1 h2 h3 h4 h5 h6; rfl

/-- The result array at the last boundary is the specification's result of the launched arrays. -/
theorem W3_result (c : Dev nD) :
    Gen.W3 m ρ c (Proc.devRef .tc main_v9)
      = Cert.Spec.res Cert.Spec.scaleK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) := by
  have h6 : Gen.W3 m ρ c (Proc.devRef .tc main_v9) = (Gen.dat1 (F := Ideal) (Gen.V2 m ρ) c).arrAt 6 cfg1.N := Gen.W3_arr m ρ c 6
  rw [h6]
  funext j
  obtain ⟨b, l, o, rfl⟩ : ∃ (b : Fin 32) (l : Fin 320) (o : Fin 2048), j = ix3 b l o := ⟨j 0, j 1, j 2, eq_ix3 j⟩
  refine (Region1.arr1_apply (Gen.V2 m ρ) c b l o).trans ?_
  show _ = Cert.Spec.G Cert.Spec.scaleK _ _ _ _ _ _ _ b l o
  unfold Cert.Spec.G
  exact GB_congr
    (funext fun l' => funext fun o' => Entry.V2_q_apply m ρ c b l' o')
    (funext fun l' => funext fun i => congrFun (Entry.V2_query m ρ c) (ix3 b l' i))
    (funext fun o' => funext fun i => Entry.V2_wk_apply m ρ c i o')
    (funext fun o' => funext fun i => Entry.V2_wv_apply m ρ c i o')
    (funext fun l' => Entry.V2_gamma_apply m ρ c l')
    (funext fun l' => Entry.V2_beta_apply m ρ c l') l o

/-- The kernel program runs and ends with the specification's result and its arguments unchanged. -/
theorem run : θ_run (defs (F := Ideal)) (onTc (τ := τ) (main (F := Ideal))) ⟨m, fun _ => 0, ρ⟩ (fun r => ∀ c : Dev nD,
      r.2.mem ((c.tc : Thread nD τ).loc main_v9) = Cert.Spec.res Cert.Spec.scaleK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) :=
  (θ_run defs _ _).mono (fun _ h c => ⟨(h c).1.trans (W3_result m ρ c), (h c).2⟩) (Cert.KernelIdeal.KRun.run (F := Ideal) m ρ)

end Cert.KernelIdeal.KValue

end
-- ==== Proof.RefTerm.lean ====
/-
  The reference's computation as a chain of pure stages: one definition per tensor value of its
  program, each the printed operation's function applied to the earlier stages, as functions of the
  seven argument arrays (query, support, Wq, Wk, Wv, gamma, beta). The outlined variance function and
  the select it calls are unfolded in place: their values are the stages var_* and where_*, and the
  select's result is the stage val_v27.
-/
import proofs.«404545_j32409823216126_3_alg».proof.ReferenceIdeal

noncomputable section

namespace Cert.ReferenceIdeal.RefTerm

open Cert.ReferenceIdeal Idealize.ShloMosaic
open Facts₀ Facts

variable {F : FTy → Type} [FloatOps F] [Facts]
variable (a0 a1 : FVec F S32x320x2048 .f32) (a2 a3 a4 : FVec F S2048x2048 .f32) (a5 a6 : FVec F S320 .f32)

def val_v0 : FVec F S32x320x2048 .f32 :=
  Host.dotGeneral dot_S32x320x2048_S2048x2048_S32x320x2048_2_1_01_0_n_n none a1 a2

def val_v1 : FVec F S32x2048x320 .f32 :=
  transpose S32x2048x320 [0, 2, 1] (val_v0 a1 a2) transposes_S32x320x2048_S32x2048x320_0_2_1

def val_v2 : FVec F S32x320x2048 .f32 :=
  Host.dotGeneral dot_S32x320x2048_S2048x2048_S32x320x2048_2_1_01_0_n_n none a0 a3

def val_v3 : FVec F S32x2048x320 .f32 :=
  transpose S32x2048x320 [0, 2, 1] (val_v2 a0 a3) transposes_S32x320x2048_S32x2048x320_0_2_1

def val_v4 : FVec F S32x320x2048 .f32 :=
  Host.dotGeneral dot_S32x320x2048_S2048x2048_S32x320x2048_2_1_01_0_n_n none a0 a4

def val_v5 : FVec F S32x2048x320 .f32 :=
  transpose S32x2048x320 [0, 2, 1] (val_v4 a0 a4) transposes_S32x320x2048_S32x2048x320_0_2_1

def val_v6 : FVec F S32x320x320 .f32 :=
  Host.dotGeneral dot_S32x2048x320_S32x2048x320_S32x320x320_1_1_2_2_0_0 none (val_v1 a1 a2) (val_v3 a0 a3)

def val_cst : FVec F S_ .f32 :=
  constant (F := F) S_ .f32 0x418F1BBD#32

def val_v7 : FVec F S32x320x320 .f32 :=
  broadcastInDim S32x320x320 ![] bcast_S_S32x320x320 (val_cst (F := F))

def val_v8 : FVec F S32x320x320 .f32 :=
  Host.divf (val_v6 a0 a1 a2 a3) (val_v7 (F := F))

def val_cst_0 : FVec F S_ .f32 :=
  constant (F := F) S_ .f32 0xFF800000#32

def val_v9 : FVec F S32x320 .f32 :=
  Host.reduce FloatOps.maximumf (val_v8 a0 a1 a2 a3) (val_cst_0 (F := F)) reducesTo_S32x320x320_S32x320_d2 h_S_

def val_cst_1 : FVec F S_ .f32 :=
  constant (F := F) S_ .f32 0xFF800000#32

def val_v10 : FVec F S32x320 .f32 :=
  broadcastInDim S32x320 ![] bcast_S_S32x320 (val_cst_1 (F := F))

def val_v11 : FVec F S32x320 .f32 :=
  maximumf (val_v10 (F := F)) (val_v9 a0 a1 a2 a3)

def val_v12 : FVec F S32x320x1 .f32 :=
  broadcastInDim S32x320x1 ![0, 1] bcast_S32x320_S32x320x1_0_1 (val_v11 a0 a1 a2 a3)

def val_v13 : FVec F S32x320x320 .f32 :=
  broadcastInDim S32x320x320 ![0, 1, 2] bcast_S32x320x1_S32x320x320_0_1_2 (val_v12 a0 a1 a2 a3)

def val_v14 : FVec F S32x320x320 .f32 :=
  subf (val_v8 a0 a1 a2 a3) (val_v13 a0 a1 a2 a3)

def val_v15 : FVec F S32x320x320 .f32 :=
  Host.exp (val_v14 a0 a1 a2 a3)

def val_cst_2 : FVec F S_ .f32 :=
  constant (F := F) S_ .f32 0x00000000#32

def val_v16 : FVec F S32x320 .f32 :=
  Host.reduceAdd (val_v15 a0 a1 a2 a3) (val_cst_2 (F := F)) reducesTo_S32x320x320_S32x320_d2 h_S_

def val_v17 : FVec F S32x320x1 .f32 :=
  broadcastInDim S32x320x1 ![0, 1] bcast_S32x320_S32x320x1_0_1 (val_v16 a0 a1 a2 a3)

def val_v18 : FVec F S32x320x320 .f32 :=
  broadcastInDim S32x320x320 ![0, 1, 2] bcast_S32x320x1_S32x320x320_0_1_2 (val_v17 a0 a1 a2 a3)

def val_v19 : FVec F S32x320x320 .f32 :=
  Host.divf (val_v15 a0 a1 a2 a3) (val_v18 a0 a1 a2 a3)

def val_v20 : FVec F S32x320x2048 .f32 :=
  Host.dotGeneral dot_S32x320x320_S32x2048x320_S32x320x2048_2_2_1_1_0_0 none (val_v19 a0 a1 a2 a3) (val_v5 a0 a4)

def val_v21 : FVec F S32x320x2048 .f32 :=
  addf (val_v20 a0 a1 a2 a3 a4) a0

def val_v22 : FVec F S32x2048x320 .f32 :=
  transpose S32x2048x320 [0, 2, 1] (val_v21 a0 a1 a2 a3 a4) transposes_S32x320x2048_S32x2048x320_0_2_1

def val_cst_3 : FVec F S_ .f32 :=
  constant (F := F) S_ .f32 0x00000000#32

def val_v23 : FVec F S32x2048 .f32 :=
  Host.reduceAdd (val_v22 a0 a1 a2 a3 a4) (val_cst_3 (F := F)) reducesTo_S32x2048x320_S32x2048_d2 h_S_

def val_v24 : FVec F S32x2048x1 .f32 :=
  broadcastInDim S32x2048x1 ![0, 1] bcast_S32x2048_S32x2048x1_0_1 (val_v23 a0 a1 a2 a3 a4)

def val_cst_4 : FVec F S_ .f32 :=
  constant (F := F) S_ .f32 0x43A00000#32

def val_v25 : FVec F S32x2048x1 .f32 :=
  broadcastInDim S32x2048x1 ![] bcast_S_S32x2048x1 (val_cst_4 (F := F))

def val_v26 : FVec F S32x2048x1 .f32 :=
  Host.divf (val_v24 a0 a1 a2 a3 a4) (val_v25 (F := F))

def val_c : IVec S_ 32 :=
  constantI S_ 32 0#32

def var_cst : FVec F S_ .f32 :=
  constant (F := F) S_ .f32 0x00000000#32

def var_v0 : FVec F S32x2048 .f32 :=
  Host.reduceAdd (val_v22 a0 a1 a2 a3 a4) (var_cst (F := F)) reducesTo_S32x2048x320_S32x2048_d2 h_S_

def var_v1 : FVec F S32x2048x1 .f32 :=
  broadcastInDim S32x2048x1 ![0, 1] bcast_S32x2048_S32x2048x1_0_1 (var_v0 a0 a1 a2 a3 a4)

def var_cst_0 : FVec F S_ .f32 :=
  constant (F := F) S_ .f32 0x43A00000#32

def var_v2 : FVec F S32x2048x1 .f32 :=
  broadcastInDim S32x2048x1 ![] bcast_S_S32x2048x1 (var_cst_0 (F := F))

def var_v3 : FVec F S32x2048x1 .f32 :=
  Host.divf (var_v1 a0 a1 a2 a3 a4) (var_v2 (F := F))

def var_v4 : FVec F S32x2048x320 .f32 :=
  broadcastInDim S32x2048x320 ![0, 1, 2] bcast_S32x2048x1_S32x2048x320_0_1_2 (var_v3 a0 a1 a2 a3 a4)

def var_v5 : FVec F S32x2048x320 .f32 :=
  subf (val_v22 a0 a1 a2 a3 a4) (var_v4 a0 a1 a2 a3 a4)

def var_v6 : FVec F S32x2048x320 .f32 :=
  mulf (var_v5 a0 a1 a2 a3 a4) (var_v5 a0 a1 a2 a3 a4)

def var_v7 : FVec F S_ .f32 :=
  sitofp .f32 val_c

def var_cst_1 : FVec F S_ .f32 :=
  constant (F := F) S_ .f32 0x43A00000#32

def var_v8 : FVec F S_ .f32 :=
  subf (var_cst_1 (F := F)) (var_v7 (F := F))

def var_cst_2 : FVec F S_ .f32 :=
  constant (F := F) S_ .f32 0x00000000#32

def var_v9 : FVec F S32x2048 .f32 :=
  Host.reduceAdd (var_v6 a0 a1 a2 a3 a4) (var_cst_2 (F := F)) reducesTo_S32x2048x320_S32x2048_d2 h_S_

def var_v10 : FVec F S32x2048x1 .f32 :=
  broadcastInDim S32x2048x1 ![0, 1] bcast_S32x2048_S32x2048x1_0_1 (var_v9 a0 a1 a2 a3 a4)

def var_v11 : FVec F S32x2048x1 .f32 :=
  broadcastInDim S32x2048x1 ![] bcast_S_S32x2048x1 (var_v8 (F := F))

def var_v12 : FVec F S32x2048x1 .f32 :=
  Host.divf (var_v10 a0 a1 a2 a3 a4) (var_v11 (F := F))

def var_cst_3 : FVec F S_ .f32 :=
  constant (F := F) S_ .f32 0x00000000#32

def var_v13 : IVec S_ 1 :=
  cmpf .ogt (var_v8 (F := F)) (var_cst_3 (F := F))

def var_cst_4 : FVec F S_ .f32 :=
  constant (F := F) S_ .f32 0x7FC00000#32

def where_v0 : FVec F S_ .f32 :=
  id (var_cst_4 (F := F))

def where_v1 : FVec F S32x2048x1 .f32 :=
  broadcastInDim S32x2048x1 ![] bcast_S_S32x2048x1 (where_v0 (F := F))

def val_v27 : FVec F S32x2048x1 .f32 :=
  (fun p a b => select (broadcastInDim S32x2048x1 ![] bcast_S_S32x2048x1 p) a b) (var_v13 (F := F)) (var_v12 a0 a1 a2 a3 a4) (where_v1 (F := F))

def val_v28 : FVec F S32x2048x320 .f32 :=
  broadcastInDim S32x2048x320 ![0, 1, 2] bcast_S32x2048x1_S32x2048x320_0_1_2 (val_v26 a0 a1 a2 a3 a4)

def val_v29 : FVec F S32x2048x320 .f32 :=
  subf (val_v22 a0 a1 a2 a3 a4) (val_v28 a0 a1 a2 a3 a4)

def val_cst_5 : FVec F S_ .f32 :=
  constant (F := F) S_ .f32 0x3727C5AC#32

def val_v30 : FVec F S32x2048x1 .f32 :=
  broadcastInDim S32x2048x1 ![] bcast_S_S32x2048x1 (val_cst_5 (F := F))

def val_v31 : FVec F S32x2048x1 .f32 :=
  addf (val_v27 a0 a1 a2 a3 a4) (val_v30 (F := F))

def val_v32 : FVec F S32x2048x1 .f32 :=
  Host.rsqrt (val_v31 a0 a1 a2 a3 a4)

def val_v33 : FVec F S32x2048x320 .f32 :=
  broadcastInDim S32x2048x320 ![0, 1, 2] bcast_S32x2048x1_S32x2048x320_0_1_2 (val_v32 a0 a1 a2 a3 a4)

def val_v34 : FVec F S32x2048x320 .f32 :=
  mulf (val_v29 a0 a1 a2 a3 a4) (val_v33 a0 a1 a2 a3 a4)

def val_v35 : FVec F S1x1x320 .f32 :=
  broadcastInDim S1x1x320 ![2] bcast_S320_S1x1x320_2 a5

def val_v36 : FVec F S32x2048x320 .f32 :=
  broadcastInDim S32x2048x320 ![0, 1, 2] bcast_S1x1x320_S32x2048x320_0_1_2 (val_v35 a5)

def val_v37 : FVec F S32x2048x320 .f32 :=
  mulf (val_v34 a0 a1 a2 a3 a4) (val_v36 a5)

def val_v38 : FVec F S1x1x320 .f32 :=
  broadcastInDim S1x1x320 ![2] bcast_S320_S1x1x320_2 a6

def val_v39 : FVec F S32x2048x320 .f32 :=
  broadcastInDim S32x2048x320 ![0, 1, 2] bcast_S1x1x320_S32x2048x320_0_1_2 (val_v38 a6)

def val_v40 : FVec F S32x2048x320 .f32 :=
  addf (val_v37 a0 a1 a2 a3 a4 a5) (val_v39 a6)

def val_v41 : FVec F S32x320x2048 .f32 :=
  transpose S32x320x2048 [0, 2, 1] (val_v40 a0 a1 a2 a3 a4 a5 a6) transposes_S32x2048x320_S32x320x2048_0_2_1

end Cert.ReferenceIdeal.RefTerm

end
-- ==== Proof.RefRun.lean ====
/-
  The reference's run: its program is the straight line of its seventy-two operations (the outlined
  variance function and the select it calls written at their call site over the call's own
  buffers), so every weakly fair execution terminates with the result buffer at the composed pure
  term of the arguments' launch contents — the last stage of the chain of stages — and the seven
  arguments unchanged.
-/
import proofs.«404545_j32409823216126_3_alg».proof.Proof.RefTerm
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F] [Facts]

/-- The program's seventy-two operations, in order: thirty-four of its own, the twenty of the variance
    function over its call's buffers, the three of the select over its call's, then fifteen more. -/
abbrev ops : List (HloOp τ sig (Elt F)) :=
  [ StableHlo.binary main_arg1 main_arg2 main_v0 ((fun l r => Host.dotGeneral dot_S32x320x2048_S2048x2048_S32x320x2048_2_1_01_0_n_n none l r) : (⟨S32x320x2048, .f32⟩ : BufTy).Contents (Elt F) → (⟨S2048x2048, .f32⟩ : BufTy).Contents (Elt F) → (⟨S32x320x2048, .f32⟩ : BufTy).Contents (Elt F)),
    StableHlo.unary main_v0 main_v1 ((transpose S32x2048x320 [0, 2, 1] · transposes_S32x320x2048_S32x2048x320_0_2_1) : (⟨S32x320x2048, .f32⟩ : BufTy).Contents (Elt F) → (⟨S32x2048x320, .f32⟩ : BufTy).Contents (Elt F)),
    StableHlo.binary main_arg0 main_arg3 main_v2 ((fun l r => Host.dotGeneral dot_S32x320x2048_S2048x2048_S32x320x2048_2_1_01_0_n_n none l r) : (⟨S32x320x2048, .f32⟩ : BufTy).Contents (Elt F) → (⟨S2048x2048, .f32⟩ : BufTy).Contents (Elt F) → (⟨S32x320x2048, .f32⟩ : BufTy).Contents (Elt F)),
    StableHlo.unary main_v2 main_v3 ((transpose S32x2048x320 [0, 2, 1] · transposes_S32x320x2048_S32x2048x320_0_2_1) : (⟨S32x320x2048, .f32⟩ : BufTy).Contents (Elt F) → (⟨S32x2048x320, .f32⟩ : BufTy).Contents (Elt F)),
    StableHlo.binary main_arg0 main_arg4 main_v4 ((fun l r => Host.dotGeneral dot_S32x320x2048_S2048x2048_S32x320x2048_2_1_01_0_n_n none l r) : (⟨S32x320x2048, .f32⟩ : BufTy).Contents (Elt F) → (⟨S2048x2048, .f32⟩ : BufTy).Contents (Elt F) → (⟨S32x320x2048, .f32⟩ : BufTy).Contents (Elt F)),
    StableHlo.unary main_v4 main_v5 ((transpose S32x2048x320 [0, 2, 1] · transposes_S32x320x2048_S32x2048x320_0_2_1) : (⟨S32x320x2048, .f32⟩ : BufTy).Contents (Elt F) → (⟨S32x2048x320, .f32⟩ : BufTy).Contents (Elt F)),
    StableHlo.binary main_v1 main_v3 main_v6 ((fun l r => Host.dotGeneral dot_S32x2048x320_S32x2048x320_S32x320x320_1_1_2_2_0_0 none l r) : (⟨S32x2048x320, .f32⟩ : BufTy).Contents (Elt F) → (⟨S32x2048x320, .f32⟩ : BufTy).Contents (Elt F) → (⟨S32x320x320, .f32⟩ : BufTy).Contents (Elt F)),
    StableHlo.nullary main_cst (constant S_ .f32 0x418F1BBD#32),
    StableHlo.unary main_cst main_v7 (broadcastInDim S32x320x320 ![] bcast_S_S32x320x320 : (⟨S_, .f32⟩ : BufTy).Contents (Elt F) → (⟨S32x320x320, .f32⟩ : BufTy).Contents (Elt F)),
    StableHlo.binary main_v6 main_v7 main_v8 (Host.divf : (⟨S32x320x320, .f32⟩ : BufTy).Contents (Elt F) → (⟨S32x320x320, .f32⟩ : BufTy).Contents (Elt F) → (⟨S32x320x320, .f32⟩ : BufTy).Contents (Elt F)),
    StableHlo.nullary main_cst_0 (constant S_ .f32 0xFF800000#32),
    StableHlo.binary main_v8 main_cst_0 main_v9 ((fun x v => Host.reduce FloatOps.maximumf x v reducesTo_S32x320x320_S32x320_d2 h_S_) : (⟨S32x320x320, .f32⟩ : BufTy).Contents (Elt F) → (⟨S_, .f32⟩ : BufTy).Contents (Elt F) → (⟨S32x320, .f32⟩ : BufTy).Contents (Elt F)),
    StableHlo.nullary main_cst_1 (constant S_ .f32 0xFF800000#32),
    StableHlo.unary main_cst_1 main_v10 (broadcastInDim S32x320 ![] bcast_S_S32x320 : (⟨S_, .f32⟩ : BufTy).Contents (Elt F) → (⟨S32x320, .f32⟩ : BufTy).Contents (Elt F)),
    StableHlo.binary main_v10 main_v9 main_v11 (maximumf : (⟨S32x320, .f32⟩ : BufTy).Contents (Elt F) → (⟨S32x320, .f32⟩ : BufTy).Contents (Elt F) → (⟨S32x320, .f32⟩ : BufTy).Contents (Elt F)),
    StableHlo.unary main_v11 main_v12 (broadcastInDim S32x320x1 ![0, 1] bcast_S32x320_S32x320x1_0_1 : (⟨S32x320, .f32⟩ : BufTy).Contents (Elt F) → (⟨S32x320x1, .f32⟩ : BufTy).Contents (Elt F)),
    StableHlo.unary main_v12 main_v13 (broadcastInDim S32x320x320 ![0, 1, 2] bcast_S32x320x1_S32x320x320_0_1_2 : (⟨S32x320x1, .f32⟩ : BufTy).Contents (Elt F) → (⟨S32x320x320, .f32⟩ : BufTy).Contents (Elt F)),
    StableHlo.binary main_v8 main_v13 main_v14 (subf : (⟨S32x320x320, .f32⟩ : BufTy).Contents (Elt F) → (⟨S32x320x320, .f32⟩ : BufTy).Contents (Elt F) → (⟨S32x320x320, .f32⟩ : BufTy).Contents (Elt F)),
    StableHlo.unary main_v14 main_v15 (Host.exp : (⟨S32x320x320, .f32⟩ : BufTy).Contents (Elt F) → (⟨S32x320x320, .f32⟩ : BufTy).Contents (Elt F)),
    StableHlo.nullary main_cst_2 (constant S_ .f32 0x00000000#32),
    StableHlo.binary main_v15 main_cst_2 main_v16 ((fun x v => Host.reduceAdd x v reducesTo_S32x320x320_S32x320_d2 h_S_) : (⟨S32x320x320, .f32⟩ : BufTy).Contents (Elt F) → (⟨S_, .f32⟩ : BufTy).Contents (Elt F) → (⟨S32x320, .f32⟩ : BufTy).Contents (Elt F)),
    StableHlo.unary main_v16 main_v17 (broadcastInDim S32x320x1 ![0, 1] bcast_S32x320_S32x320x1_0_1 : (⟨S32x320, .f32⟩ : BufTy).Contents (Elt F) → (⟨S32x320x1, .f32⟩ : BufTy).Contents (Elt F)),
    StableHlo.unary main_v17 main_v18 (broadcastInDim S32x320x320 ![0, 1, 2] bcast_S32x320x1_S32x320x320_0_1_2 : (⟨S32x320x1, .f32⟩ : BufTy).Contents (Elt F) → (⟨S32x320x320, .f32⟩ : BufTy).Contents (Elt F)),
    StableHlo.binary main_v15 main_v18 main_v19 (Host.divf : (⟨S32x320x320, .f32⟩ : BufTy).Contents (Elt F) → (⟨S32x320x320, .f32⟩ : BufTy).Contents (Elt F) → (⟨S32x320x320, .f32⟩ : BufTy).Contents (Elt F)),
    StableHlo.binary main_v19 main_v5 main_v20 ((fun l r => Host.dotGeneral dot_S32x320x320_S32x2048x320_S32x320x2048_2_2_1_1_0_0 none l r) : (⟨S32x320x320, .f32⟩ : BufTy).Contents (Elt F) → (⟨S32x2048x320, .f32⟩ : BufTy).Contents (Elt F) → (⟨S32x320x2048, .f32⟩ : BufTy).Contents (Elt F)),
    StableHlo.binary main_v20 main_arg0 main_v21 (addf : (⟨S32x320x2048, .f32⟩ : BufTy).Contents (Elt F) → (⟨S32x320x2048, .f32⟩ : BufTy).Contents (Elt F) → (⟨S32x320x2048, .f32⟩ : BufTy).Contents (Elt F)),
    StableHlo.unary main_v21 main_v22 ((transpose S32x2048x320 [0, 2, 1] · transposes_S32x320x2048_S32x2048x320_0_2_1) : (⟨S32x320x2048, .f32⟩ : BufTy).Contents (Elt F) → (⟨S32x2048x320, .f32⟩ : BufTy).Contents (Elt F)),
    StableHlo.nullary main_cst_3 (constant S_ .f32 0x00000000#32),
    StableHlo.binary main_v22 main_cst_3 main_v23 ((fun x v => Host.reduceAdd x v reducesTo_S32x2048x320_S32x2048_d2 h_S_) : (⟨S32x2048x320, .f32⟩ : BufTy).Contents (Elt F) → (⟨S_, .f32⟩ : BufTy).Contents (Elt F) → (⟨S32x2048, .f32⟩ : BufTy).Contents (Elt F)),
    StableHlo.unary main_v23 main_v24 (broadcastInDim S32x2048x1 ![0, 1] bcast_S32x2048_S32x2048x1_0_1 : (⟨S32x2048, .f32⟩ : BufTy).Contents (Elt F) → (⟨S32x2048x1, .f32⟩ : BufTy).Contents (Elt F)),
    StableHlo.nullary main_cst_4 (constant S_ .f32 0x43A00000#32),
    StableHlo.unary main_cst_4 main_v25 (broadcastInDim S32x2048x1 ![] bcast_S_S32x2048x1 : (⟨S_, .f32⟩ : BufTy).Contents (Elt F) → (⟨S32x2048x1, .f32⟩ : BufTy).Contents (Elt F)),
    StableHlo.binary main_v24 main_v25 main_v26 (Host.divf : (⟨S32x2048x1, .f32⟩ : BufTy).Contents (Elt F) → (⟨S32x2048x1, .f32⟩ : BufTy).Contents (Elt F) → (⟨S32x2048x1, .f32⟩ : BufTy).Contents (Elt F)),
    StableHlo.nullary main_c (constantI S_ 32 0#32),
    StableHlo.TRef.nullary main_call0.cst (constant S_ .f32 0x00000000#32),
    StableHlo.TRef.binary (StableHlo.TRef.of main_v22 : StableHlo.TRef sig ⟨S32x2048x320, .f32⟩) main_call0.cst main_call0.v0 (fun x v => Host.reduceAdd x v reducesTo_S32x2048x320_S32x2048_d2 h_S_),
    StableHlo.TRef.unary main_call0.v0 main_call0.v1 (broadcastInDim S32x2048x1 ![0, 1] bcast_S32x2048_S32x2048x1_0_1),
    StableHlo.TRef.nullary main_call0.cst_0 (constant S_ .f32 0x43A00000#32),
    StableHlo.TRef.unary main_call0.cst_0 main_call0.v2 (broadcastInDim S32x2048x1 ![] bcast_S_S32x2048x1),
    StableHlo.TRef.binary main_call0.v1 main_call0.v2 main_call0.v3 Host.divf,
    StableHlo.TRef.unary main_call0.v3 main_call0.v4 (broadcastInDim S32x2048x320 ![0, 1, 2] bcast_S32x2048x1_S32x2048x320_0_1_2),
    StableHlo.TRef.binary (StableHlo.TRef.of main_v22 : StableHlo.TRef sig ⟨S32x2048x320, .f32⟩) main_call0.v4 main_call0.v5 subf,
    StableHlo.TRef.binary main_call0.v5 main_call0.v5 main_call0.v6 mulf,
    StableHlo.TRef.unary (StableHlo.TRef.of main_c : StableHlo.TRef sig ⟨S_, .i32⟩) main_call0.v7 (sitofp .f32),
    StableHlo.TRef.nullary main_call0.cst_1 (constant S_ .f32 0x43A00000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S32x2048x320_S32x2048_d2 h_S_),
    StableHlo.TRef.unary main_call0.v9 main_call0.v10 (broadcastInDim S32x2048x1 ![0, 1] bcast_S32x2048_S32x2048x1_0_1),
    StableHlo.TRef.unary main_call0.v8 main_call0.v11 (broadcastInDim S32x2048x1 ![] bcast_S_S32x2048x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S32x2048x1 ![] bcast_S_S32x2048x1),
    StableHlo.TRef.ternary main_call0.v13 main_call0.v12 main_call0.call0.v1 main_call0.call0.v2 (fun p a b => select (broadcastInDim S32x2048x1 ![] bcast_S_S32x2048x1 p) a b),
    StableHlo.unary main_v26 main_v28 (broadcastInDim S32x2048x320 ![0, 1, 2] bcast_S32x2048x1_S32x2048x320_0_1_2 : (⟨S32x2048x1, .f32⟩ : BufTy).Contents (Elt F) → (⟨S32x2048x320, .f32⟩ : BufTy).Contents (Elt F)),
    StableHlo.binary main_v22 main_v28 main_v29 (subf : (⟨S32x2048x320, .f32⟩ : BufTy).Contents (Elt F) → (⟨S32x2048x320, .f32⟩ : BufTy).Contents (Elt F) → (⟨S32x2048x320, .f32⟩ : BufTy).Contents (Elt F)),
    StableHlo.nullary main_cst_5 (constant S_ .f32 0x3727C5AC#32),
    StableHlo.unary main_cst_5 main_v30 (broadcastInDim S32x2048x1 ![] bcast_S_S32x2048x1 : (⟨S_, .f32⟩ : BufTy).Contents (Elt F) → (⟨S32x2048x1, .f32⟩ : BufTy).Contents (Elt F)),
    StableHlo.binary main_v27 main_v30 main_v31 (addf : (⟨S32x2048x1, .f32⟩ : BufTy).Contents (Elt F) → (⟨S32x2048x1, .f32⟩ : BufTy).Contents (Elt F) → (⟨S32x2048x1, .f32⟩ : BufTy).Contents (Elt F)),
    StableHlo.unary main_v31 main_v32 (Host.rsqrt : (⟨S32x2048x1, .f32⟩ : BufTy).Contents (Elt F) → (⟨S32x2048x1, .f32⟩ : BufTy).Contents (Elt F)),
    StableHlo.unary main_v32 main_v33 (broadcastInDim S32x2048x320 ![0, 1, 2] bcast_S32x2048x1_S32x2048x320_0_1_2 : (⟨S32x2048x1, .f32⟩ : BufTy).Contents (Elt F) → (⟨S32x2048x320, .f32⟩ : BufTy).Contents (Elt F)),
    StableHlo.binary main_v29 main_v33 main_v34 (mulf : (⟨S32x2048x320, .f32⟩ : BufTy).Contents (Elt F) → (⟨S32x2048x320, .f32⟩ : BufTy).Contents (Elt F) → (⟨S32x2048x320, .f32⟩ : BufTy).Contents (Elt F)),
    StableHlo.unary main_arg5 main_v35 (broadcastInDim S1x1x320 ![2] bcast_S320_S1x1x320_2 : (⟨S320, .f32⟩ : BufTy).Contents (Elt F) → (⟨S1x1x320, .f32⟩ : BufTy).Contents (Elt F)),
    StableHlo.unary main_v35 main_v36 (broadcastInDim S32x2048x320 ![0, 1, 2] bcast_S1x1x320_S32x2048x320_0_1_2 : (⟨S1x1x320, .f32⟩ : BufTy).Contents (Elt F) → (⟨S32x2048x320, .f32⟩ : BufTy).Contents (Elt F)),
    StableHlo.binary main_v34 main_v36 main_v37 (mulf : (⟨S32x2048x320, .f32⟩ : BufTy).Contents (Elt F) → (⟨S32x2048x320, .f32⟩ : BufTy).Contents (Elt F) → (⟨S32x2048x320, .f32⟩ : BufTy).Contents (Elt F)),
    StableHlo.unary main_arg6 main_v38 (broadcastInDim S1x1x320 ![2] bcast_S320_S1x1x320_2 : (⟨S320, .f32⟩ : BufTy).Contents (Elt F) → (⟨S1x1x320, .f32⟩ : BufTy).Contents (Elt F)),
    StableHlo.unary main_v38 main_v39 (broadcastInDim S32x2048x320 ![0, 1, 2] bcast_S1x1x320_S32x2048x320_0_1_2 : (⟨S1x1x320, .f32⟩ : BufTy).Contents (Elt F) → (⟨S32x2048x320, .f32⟩ : BufTy).Contents (Elt F)),
    StableHlo.binary main_v37 main_v39 main_v40 (addf : (⟨S32x2048x320, .f32⟩ : BufTy).Contents (Elt F) → (⟨S32x2048x320, .f32⟩ : BufTy).Contents (Elt F) → (⟨S32x2048x320, .f32⟩ : BufTy).Contents (Elt F)),
    StableHlo.unary main_v40 main_v41 ((transpose S32x320x2048 [0, 2, 1] · transposes_S32x2048x320_S32x320x2048_0_2_1) : (⟨S32x2048x320, .f32⟩ : BufTy).Contents (Elt F) → (⟨S32x320x2048, .f32⟩ : BufTy).Contents (Elt F)) ]

set_option maxRecDepth 8192 in
set_option maxHeartbeats 400000 in
/-- The program is that straight line: the two functions unfolded at their calls, by computation. -/
theorem main_eq (c : Dev nD) : main (F := F) c = seq ops := by
  rfl

set_option maxRecDepth 8192 in
set_option maxHeartbeats 1000000 in
/-- After the seventy-two operations the result buffer holds the last stage of the chain of stages, read at
    the argument buffers' contents: each operation's result is its function's value at its own buffer and
    what was there at every other, and the composed term is the chain's by unfolding the stages. -/
theorem out_eq (V : Valuation τ sig (Elt F)) :
    after ops V (main_v41 : DevRef τ sig)
      = RefTerm.val_v41 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) := by
  after_results_simp
  rfl

set_option maxRecDepth 8192 in
set_option maxHeartbeats 1000000 in
/-- No operation writes argument 0's buffer. -/
theorem arg0_eq (V : Valuation τ sig (Elt F)) :
    after ops V (main_arg0 : DevRef τ sig) = V (main_arg0 : DevRef τ sig) := by
  after_results_simp

set_option maxRecDepth 8192 in
set_option maxHeartbeats 1000000 in
/-- No operation writes argument 1's buffer. -/
theorem arg1_eq (V : Valuation τ sig (Elt F)) :
    after ops V (main_arg1 : DevRef τ sig) = V (main_arg1 : DevRef τ sig) := by
  after_results_simp

set_option maxRecDepth 8192 in
set_option maxHeartbeats 1000000 in
/-- No operation writes argument 2's buffer. -/
theorem arg2_eq (V : Valuation τ sig (Elt F)) :
    after ops V (main_arg2 : DevRef τ sig) = V (main_arg2 : DevRef τ sig) := by
  after_results_simp

set_option maxRecDepth 8192 in
set_option maxHeartbeats 1000000 in
/-- No operation writes argument 3's buffer. -/
theorem arg3_eq (V : Valuation τ sig (Elt F)) :
    after ops V (main_arg3 : DevRef τ sig) = V (main_arg3 : DevRef τ sig) := by
  after_results_simp

set_option maxRecDepth 8192 in
set_option maxHeartbeats 1000000 in
/-- No operation writes argument 4's buffer. -/
theorem arg4_eq (V : Valuation τ sig (Elt F)) :
    after ops V (main_arg4 : DevRef τ sig) = V (main_arg4 : DevRef τ sig) := by
  after_results_simp

set_option maxRecDepth 8192 in
set_option maxHeartbeats 1000000 in
/-- No operation writes argument 5's buffer. -/
theorem arg5_eq (V : Valuation τ sig (Elt F)) :
    after ops V (main_arg5 : DevRef τ sig) = V (main_arg5 : DevRef τ sig) := by
  after_results_simp

set_option maxRecDepth 8192 in
set_option maxHeartbeats 1000000 in
/-- No operation writes argument 6's buffer. -/
theorem arg6_eq (V : Valuation τ sig (Elt F)) :
    after ops V (main_arg6 : DevRef τ sig) = V (main_arg6 : DevRef τ sig) := by
  after_results_simp

theorem scopedRefs_eq : (Finset.univ.filter fun b : Ref sig .tc => b.isScoped) = ∅ := by decide
theorem scopedSems_eq : (Finset.univ.filter fun sm : SemLoc sig => sm.isScoped .tc) = ∅ := by decide

/-- Every operation touches buffers of the device only. -/
theorem ops_sub : (ops : List (HloOp τ sig (Elt F))).Forall fun op => op.bufs ⊆ tcRefs τ sig :=
  ⟨binary_bufs_sub .., unary_bufs_sub .., binary_bufs_sub .., unary_bufs_sub .., binary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., unary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub ..⟩

/-- On the device, for any float values, from any memory with zero counters: every weakly fair execution of the
    program terminates with the result buffer at the last stage of the chain, read at the arguments' launch
    contents, and the seven arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v41) = RefTerm.val_v41 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c main_v41).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c))⟩)
    (run_seq scopedRefs_eq scopedSems_eq defs main (fun _ => ops) main_eq (fun _ => ops_sub) m ρ)

end Cert.ReferenceIdeal.RefRun

end
-- ==== Proof.RReadA.lean ====
/- The reference's projections and its attention probabilities, read at an entry over the extended reals. -/
import proofs.«404545_j32409823216126_3_alg».proof.Proof.RefTerm
import proofs.«404545_j32409823216126_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.ReadA

open Cert.ReferenceIdeal Idealize.ShloMosaic Idealize.ShloMosaic.ValueIdx

variable [Facts]

/-! ## The projection product: [b, f, i] against [o, i], contracted over i -/

/-- The operand indices of the projection product at an output index j and a contraction position q, axis by axis: the
    left operand reads (j 0, j 1, q), the right operand reads (j 2, q). -/
theorem proj_lhs_0 (j : S32x320x2048.Idx) (q : dot_S32x320x2048_S2048x2048_S32x320x2048_2_1_01_0_n_n.contr.Idx) :
    (dot_S32x320x2048_S2048x2048_S32x320x2048_2_1_01_0_n_n.lhsIdx j q 0).val = (j 0).val := by
  unfold DotDims.lhsIdx
  rw [dif_neg (show ¬(0 : Fin S32x320x2048.rank) ∈ dot_S32x320x2048_S2048x2048_S32x320x2048_2_1_01_0_n_n.lhsBatch by
        simp [dot_S32x320x2048_S2048x2048_S32x320x2048_2_1_01_0_n_n]),
    dif_pos (show (0 : Fin S32x320x2048.rank) ∈ dot_S32x320x2048_S2048x2048_S32x320x2048_2_1_01_0_n_n.lhsNonContracting by
        simp [dot_S32x320x2048_S2048x2048_S32x320x2048_2_1_01_0_n_n])]
  rfl

theorem proj_lhs_1 (j : S32x320x2048.Idx) (q : dot_S32x320x2048_S2048x2048_S32x320x2048_2_1_01_0_n_n.contr.Idx) :
    (dot_S32x320x2048_S2048x2048_S32x320x2048_2_1_01_0_n_n.lhsIdx j q 1).val = (j 1).val := by
  unfold DotDims.lhsIdx
  rw [dif_neg (show ¬(1 : Fin S32x320x2048.rank) ∈ dot_S32x320x2048_S2048x2048_S32x320x2048_2_1_01_0_n_n.lhsBatch by
        simp [dot_S32x320x2048_S2048x2048_S32x320x2048_2_1_01_0_n_n]),
    dif_pos (show (1 : Fin S32x320x2048.rank) ∈ dot_S32x320x2048_S2048x2048_S32x320x2048_2_1_01_0_n_n.lhsNonContracting by
        simp [dot_S32x320x2048_S2048x2048_S32x320x2048_2_1_01_0_n_n])]
  rfl

theorem proj_lhs_2 (j : S32x320x2048.Idx) (q : dot_S32x320x2048_S2048x2048_S32x320x2048_2_1_01_0_n_n.contr.Idx) :
    (dot_S32x320x2048_S2048x2048_S32x320x2048_2_1_01_0_n_n.lhsIdx j q 2).val = (q ⟨0, Nat.one_pos⟩).val :=
  dot_S32x320x2048_S2048x2048_S32x320x2048_2_1_01_0_n_n.lhsIdx_val_of_single rfl j q

theorem proj_rhs_0 (j : S32x320x2048.Idx) (q : dot_S32x320x2048_S2048x2048_S32x320x2048_2_1_01_0_n_n.contr.Idx) :
    (dot_S32x320x2048_S2048x2048_S32x320x2048_2_1_01_0_n_n.rhsIdx j q 0).val = (j 2).val := by
  unfold DotDims.rhsIdx
  rw [dif_neg (show ¬(0 : Fin S2048x2048.rank) ∈ dot_S32x320x2048_S2048x2048_S32x320x2048_2_1_01_0_n_n.rhsBatch by
        simp [dot_S32x320x2048_S2048x2048_S32x320x2048_2_1_01_0_n_n]),
    dif_pos (show (0 : Fin S2048x2048.rank) ∈ dot_S32x320x2048_S2048x2048_S32x320x2048_2_1_01_0_n_n.rhsNonContracting by
        simp [dot_S32x320x2048_S2048x2048_S32x320x2048_2_1_01_0_n_n])]
  rfl

theorem proj_rhs_1 (j : S32x320x2048.Idx) (q : dot_S32x320x2048_S2048x2048_S32x320x2048_2_1_01_0_n_n.contr.Idx) :
    (dot_S32x320x2048_S2048x2048_S32x320x2048_2_1_01_0_n_n.rhsIdx j q 1).val = (q ⟨0, Nat.one_pos⟩).val :=
  dot_S32x320x2048_S2048x2048_S32x320x2048_2_1_01_0_n_n.rhsIdx_val_of_single rfl j q

/-- The projection product at (b, f, o): row f of batch b against row o of the weight. -/
theorem proj_apply (A : FVec Ideal S32x320x2048 .f32) (W : FVec Ideal S2048x2048 .f32) (b : Fin 32) (f : Fin 320) (o : Fin 2048) :
    Host.dotGeneral dot_S32x320x2048_S2048x2048_S32x320x2048_2_1_01_0_n_n none A W (ix3 b f o)
      = ∑ i : Fin 2048, A (ix3 b f i) * W (ix2 o i) := by
  simp only [Host.dotGeneral]
  rw [Ideal.dotGeneral_apply]
  rw [← Equiv.sum_comp (contrEquiv1 dot_S32x320x2048_S2048x2048_S32x320x2048_2_1_01_0_n_n 2048 rfl rfl).symm]
  refine Finset.sum_congr rfl fun k _ => ?_
  have hk := contrEquiv1_symm_val dot_S32x320x2048_S2048x2048_S32x320x2048_2_1_01_0_n_n 2048 rfl rfl k
  have el : dot_S32x320x2048_S2048x2048_S32x320x2048_2_1_01_0_n_n.lhsIdx (ix3 b f o)
      ((contrEquiv1 dot_S32x320x2048_S2048x2048_S32x320x2048_2_1_01_0_n_n 2048 rfl rfl).symm k) = ix3 b f k :=
    funext fun a => Fin.ext (by
      match a with
      | ⟨0, _⟩ => exact proj_lhs_0 _ _
      | ⟨1, _⟩ => exact proj_lhs_1 _ _
      | ⟨2, _⟩ => exact (proj_lhs_2 _ _).trans hk)
  have er : dot_S32x320x2048_S2048x2048_S32x320x2048_2_1_01_0_n_n.rhsIdx (ix3 b f o)
      ((contrEquiv1 dot_S32x320x2048_S2048x2048_S32x320x2048_2_1_01_0_n_n 2048 rfl rfl).symm k) = ix2 o k :=
    funext fun a => Fin.ext (by
      match a with
      | ⟨0, _⟩ => exact proj_rhs_0 _ _
      | ⟨1, _⟩ => exact (proj_rhs_1 _ _).trans hk)
  rw [el, er]

/-- The transpose [b, f, o] → [b, o, f] at (b, o, f). -/
theorem tr_apply (x : FVec Ideal S32x320x2048 .f32) (b : Fin 32) (o : Fin 2048) (f : Fin 320) :
    transpose S32x2048x320 [0, 2, 1] x Facts₀.transposes_S32x320x2048_S32x2048x320_0_2_1 (ix3 b o f) = x (ix3 b f o) := by
  refine transpose_apply _ _ _ _ (ix3 b f o) fun c => ?_
  match c with
  | ⟨0, _⟩ => rfl
  | ⟨1, _⟩ => rfl
  | ⟨2, _⟩ => rfl

/-- The value projection, as the reference lays it out (batch, output channel, feature row): query row m against weight row o. -/
theorem v5_apply (a0 : FVec Ideal S32x320x2048 .f32) (a4 : FVec Ideal S2048x2048 .f32) (b : Fin 32) (o : Fin 2048) (m : Fin 320) :
    RefTerm.val_v5 (F := Ideal) a0 a4 (ix3 b o m)
      = Cert.Spec.projB (fun f i => a0 (ix3 b f i)) (fun o' i => a4 (ix2 o' i)) m o := by
  unfold RefTerm.val_v5 RefTerm.val_v4
  rw [tr_apply, proj_apply]
  rfl

/-! ## The logits product: [b, o, l] against [b, o, m], batch b, contracted over o -/

/-- The operand indices of the logits product at an output index j and a contraction position q, axis by axis: the
    left operand reads (j 0, q, j 1), the right operand reads (j 0, q, j 2). -/
theorem logit_lhs_0 (j : S32x320x320.Idx) (q : dot_S32x2048x320_S32x2048x320_S32x320x320_1_1_2_2_0_0.contr.Idx) :
    (dot_S32x2048x320_S32x2048x320_S32x320x320_1_1_2_2_0_0.lhsIdx j q 0).val = (j 0).val := by
  unfold DotDims.lhsIdx
  rw [dif_pos (show (0 : Fin S32x2048x320.rank) ∈ dot_S32x2048x320_S32x2048x320_S32x320x320_1_1_2_2_0_0.lhsBatch by
        simp [dot_S32x2048x320_S32x2048x320_S32x320x320_1_1_2_2_0_0])]
  rfl

theorem logit_lhs_1 (j : S32x320x320.Idx) (q : dot_S32x2048x320_S32x2048x320_S32x320x320_1_1_2_2_0_0.contr.Idx) :
    (dot_S32x2048x320_S32x2048x320_S32x320x320_1_1_2_2_0_0.lhsIdx j q 1).val = (q ⟨0, Nat.one_pos⟩).val :=
  dot_S32x2048x320_S32x2048x320_S32x320x320_1_1_2_2_0_0.lhsIdx_val_of_single rfl j q

theorem logit_lhs_2 (j : S32x320x320.Idx) (q : dot_S32x2048x320_S32x2048x320_S32x320x320_1_1_2_2_0_0.contr.Idx) :
    (dot_S32x2048x320_S32x2048x320_S32x320x320_1_1_2_2_0_0.lhsIdx j q 2).val = (j 1).val := by
  unfold DotDims.lhsIdx
  rw [dif_neg (show ¬(2 : Fin S32x2048x320.rank) ∈ dot_S32x2048x320_S32x2048x320_S32x320x320_1_1_2_2_0_0.lhsBatch by
        simp [dot_S32x2048x320_S32x2048x320_S32x320x320_1_1_2_2_0_0]),
    dif_pos (show (2 : Fin S32x2048x320.rank) ∈ dot_S32x2048x320_S32x2048x320_S32x320x320_1_1_2_2_0_0.lhsNonContracting by
        simp [dot_S32x2048x320_S32x2048x320_S32x320x320_1_1_2_2_0_0])]
  rfl

theorem logit_rhs_0 (j : S32x320x320.Idx) (q : dot_S32x2048x320_S32x2048x320_S32x320x320_1_1_2_2_0_0.contr.Idx) :
    (dot_S32x2048x320_S32x2048x320_S32x320x320_1_1_2_2_0_0.rhsIdx j q 0).val = (j 0).val := by
  unfold DotDims.rhsIdx
  rw [dif_pos (show (0 : Fin S32x2048x320.rank) ∈ dot_S32x2048x320_S32x2048x320_S32x320x320_1_1_2_2_0_0.rhsBatch by
        simp [dot_S32x2048x320_S32x2048x320_S32x320x320_1_1_2_2_0_0])]
  rfl

theorem logit_rhs_1 (j : S32x320x320.Idx) (q : dot_S32x2048x320_S32x2048x320_S32x320x320_1_1_2_2_0_0.contr.Idx) :
    (dot_S32x2048x320_S32x2048x320_S32x320x320_1_1_2_2_0_0.rhsIdx j q 1).val = (q ⟨0, Nat.one_pos⟩).val :=
  dot_S32x2048x320_S32x2048x320_S32x320x320_1_1_2_2_0_0.rhsIdx_val_of_single rfl j q

theorem logit_rhs_2 (j : S32x320x320.Idx) (q : dot_S32x2048x320_S32x2048x320_S32x320x320_1_1_2_2_0_0.contr.Idx) :
    (dot_S32x2048x320_S32x2048x320_S32x320x320_1_1_2_2_0_0.rhsIdx j q 2).val = (j 2).val := by
  unfold DotDims.rhsIdx
  rw [dif_neg (show ¬(2 : Fin S32x2048x320.rank) ∈ dot_S32x2048x320_S32x2048x320_S32x320x320_1_1_2_2_0_0.rhsBatch by
        simp [dot_S32x2048x320_S32x2048x320_S32x320x320_1_1_2_2_0_0]),
    dif_pos (show (2 : Fin S32x2048x320.rank) ∈ dot_S32x2048x320_S32x2048x320_S32x320x320_1_1_2_2_0_0.rhsNonContracting by
        simp [dot_S32x2048x320_S32x2048x320_S32x320x320_1_1_2_2_0_0])]
  rfl

/-- The logits product at (b, l, m): column l of X's batch b against column m of Y's batch b. -/
theorem logit_apply (X Y : FVec Ideal S32x2048x320 .f32) (b : Fin 32) (l m : Fin 320) :
    Host.dotGeneral dot_S32x2048x320_S32x2048x320_S32x320x320_1_1_2_2_0_0 none X Y (ix3 b l m)
      = ∑ o : Fin 2048, X (ix3 b o l) * Y (ix3 b o m) := by
  simp only [Host.dotGeneral]
  rw [Ideal.dotGeneral_apply]
  rw [← Equiv.sum_comp (contrEquiv1 dot_S32x2048x320_S32x2048x320_S32x320x320_1_1_2_2_0_0 2048 rfl rfl).symm]
  refine Finset.sum_congr rfl fun k _ => ?_
  have hk := contrEquiv1_symm_val dot_S32x2048x320_S32x2048x320_S32x320x320_1_1_2_2_0_0 2048 rfl rfl k
  have el : dot_S32x2048x320_S32x2048x320_S32x320x320_1_1_2_2_0_0.lhsIdx (ix3 b l m)
      ((contrEquiv1 dot_S32x2048x320_S32x2048x320_S32x320x320_1_1_2_2_0_0 2048 rfl rfl).symm k) = ix3 b k l :=
    funext fun a => Fin.ext (by
      match a with
      | ⟨0, _⟩ => exact logit_lhs_0 _ _
      | ⟨1, _⟩ => exact (logit_lhs_1 _ _).trans hk
      | ⟨2, _⟩ => exact logit_lhs_2 _ _)
  have er : dot_S32x2048x320_S32x2048x320_S32x320x320_1_1_2_2_0_0.rhsIdx (ix3 b l m)
      ((contrEquiv1 dot_S32x2048x320_S32x2048x320_S32x320x320_1_1_2_2_0_0 2048 rfl rfl).symm k) = ix3 b k m :=
    funext fun a => Fin.ext (by
      match a with
      | ⟨0, _⟩ => exact logit_rhs_0 _ _
      | ⟨1, _⟩ => exact (logit_rhs_1 _ _).trans hk
      | ⟨2, _⟩ => exact logit_rhs_2 _ _)
  rw [el, er]

/-- The projected support rows, transposed, at (b, o, f). -/
theorem v1_apply (a1 : FVec Ideal S32x320x2048 .f32) (a2 : FVec Ideal S2048x2048 .f32) (b : Fin 32) (o : Fin 2048) (f : Fin 320) :
    RefTerm.val_v1 (F := Ideal) a1 a2 (ix3 b o f)
      = Cert.Spec.projB (fun f i => a1 (ix3 b f i)) (fun o' i => a2 (ix2 o' i)) f o := by
  unfold RefTerm.val_v1 RefTerm.val_v0
  rw [tr_apply, proj_apply]
  rfl

/-- The projected query rows under the key weight, transposed, at (b, o, f). -/
theorem v3_apply (a0 : FVec Ideal S32x320x2048 .f32) (a3 : FVec Ideal S2048x2048 .f32) (b : Fin 32) (o : Fin 2048) (f : Fin 320) :
    RefTerm.val_v3 (F := Ideal) a0 a3 (ix3 b o f)
      = Cert.Spec.projB (fun f i => a0 (ix3 b f i)) (fun o' i => a3 (ix2 o' i)) f o := by
  unfold RefTerm.val_v3 RefTerm.val_v2
  rw [tr_apply, proj_apply]
  rfl

/-- The scaled logits at (b, l, m). -/
theorem v8_apply (a0 a1 : FVec Ideal S32x320x2048 .f32) (a2 a3 : FVec Ideal S2048x2048 .f32) (b : Fin 32) (l m : Fin 320) :
    RefTerm.val_v8 (F := Ideal) a0 a1 a2 a3 (ix3 b l m)
      = Cert.Spec.scaleR (Cert.Spec.logitB
          (Cert.Spec.projB (fun f i => a1 (ix3 b f i)) (fun o i => a2 (ix2 o i)))
          (Cert.Spec.projB (fun f i => a0 (ix3 b f i)) (fun o i => a3 (ix2 o i))) l m) := by
  show Ideal.div (RefTerm.val_v6 (F := Ideal) a0 a1 a2 a3 (ix3 b l m)) (RefTerm.val_v7 (F := Ideal) (ix3 b l m)) = _
  unfold Cert.Spec.scaleR
  have e7 : RefTerm.val_v7 (F := Ideal) (ix3 b l m) = Cert.Spec.temp :=
    broadcastInDim_apply _ _ _ _ ix0 fun a => a.elim0
  rw [e7]
  refine congrArg (fun x => Ideal.div x Cert.Spec.temp) ?_
  unfold RefTerm.val_v6
  rw [logit_apply]
  unfold Cert.Spec.logitB
  exact Finset.sum_congr rfl fun o _ => by rw [v1_apply, v3_apply]

/-! ## The row softmax -/

/-- A fold depends on its operation only as a function. -/
theorem fold_op_congr {α β : Type} (op op' : β → β → β) [Std.Commutative op] [Std.Associative op]
    [Std.Commutative op'] [Std.Associative op'] (h : op = op') (init : β) (f : α → β) (s : Finset α) :
    s.fold op init f = s.fold op' init f := by
  subst h
  rfl

/-- The index over (b, l) with the coordinate k inserted on the last axis is (b, l, k). -/
theorem lift_eq (h : S32x320x320.Reduces [2] S32x320) (b : Fin 32) (l k : Fin 320) :
    h.lift (ix2 b l) k = ix3 b l k :=
  funext fun a => Fin.ext (by
    match a with
    | ⟨0, _⟩ => rfl
    | ⟨1, _⟩ => rfl
    | ⟨2, _⟩ => rfl)

/-- The word of −∞ denotes the least extended real. -/
theorem ofBits_neg_inf : Ideal.ofBits .f32 0xFF800000#32 = ⊥ := by simp [Ideal.ofBits, Ideal.ieee]

/-- A [32, 320] array laid back along a new last axis and then along its 320 columns, at (b, l, m). -/
theorem bcast_back_apply (y : FVec Ideal S32x320 .f32) (b : Fin 32) (l m : Fin 320) :
    broadcastInDim S32x320x320 ![0, 1, 2] Facts₀.bcast_S32x320x1_S32x320x320_0_1_2
      (broadcastInDim S32x320x1 ![0, 1] Facts₀.bcast_S32x320_S32x320x1_0_1 y) (ix3 b l m) = y (ix2 b l) := by
  refine (broadcastInDim_apply _ _ _ (ix3 b l m) (ix3 b l (0 : Fin 1)) fun a => ?_).trans ?_
  · match a with
    | ⟨0, _⟩ => rfl
    | ⟨1, _⟩ => rfl
    | ⟨2, _⟩ => rfl
  · refine broadcastInDim_apply _ _ _ (ix3 b l (0 : Fin 1)) (ix2 b l) fun a => ?_
    match a with
    | ⟨0, _⟩ => rfl
    | ⟨1, _⟩ => rfl

/-- A row's maximum from −∞, at (b, l). -/
theorem rowMax_apply (x : FVec Ideal S32x320x320 .f32) (b : Fin 32) (l : Fin 320) :
    Host.reduce FloatOps.maximumf x (RefTerm.val_cst_0 (F := Ideal)) Facts₀.reducesTo_S32x320x320_S32x320_d2 Facts₀.h_S_ (ix2 b l)
      = Cert.Spec.rowMax (fun m' => x (ix3 b l m')) := by
  have h : S32x320x320.Reduces [2] S32x320 := by decide
  refine (Host.reduce_eq_fold_single FloatOps.maximumf x _ Facts₀.reducesTo_S32x320x320_S32x320_d2 h Facts₀.h_S_ (ix2 b l)).trans ?_
  have hf : (x ∘ h.lift (ix2 b l)) = fun m' : Fin 320 => x (ix3 b l m') := funext fun k => congrArg x (lift_eq h b l k)
  have hi : RefTerm.val_cst_0 (F := Ideal) (Shape.Idx.first Facts₀.h_S_) = ⊥ := ofBits_neg_inf
  rw [hf, hi]
  unfold Cert.Spec.rowMax
  exact fold_op_congr _ _ (funext fun _ => funext fun _ => rfl) _ _ _

/-- A row's sum from zero, at (b, l). -/
theorem rowSum_apply (x : FVec Ideal S32x320x320 .f32) (b : Fin 32) (l : Fin 320) :
    Host.reduceAdd (F := Ideal) x (RefTerm.val_cst_2 (F := Ideal)) Facts₀.reducesTo_S32x320x320_S32x320_d2 Facts₀.h_S_ (ix2 b l)
      = ∑ m' : Fin 320, x (ix3 b l m') := by
  have h : S32x320x320.Reduces [2] S32x320 := by decide
  unfold Host.reduceAdd
  refine (Ideal.hostReduceAdd_single Facts₀.reducesTo_S32x320x320_S32x320_d2 h x _ (ix2 b l)).trans ?_
  have hi : RefTerm.val_cst_2 (F := Ideal) (Shape.Idx.first Facts₀.h_S_) = 0 := Ideal.ofBits_zero_f32
  rw [hi, zero_add]
  exact Finset.sum_congr rfl fun k _ => congrArg x (lift_eq h b l k)

/-- Division and the exponential act entry by entry. -/
theorem host_divf_apply {s : Shape} (x y : FVec Ideal s .f32) (i : s.Idx) : Host.divf x y i = Ideal.div (x i) (y i) := rfl
theorem host_exp_apply {s : Shape} (x : FVec Ideal s .f32) (i : s.Idx) : Host.exp x i = Ideal.exp (x i) := rfl

/-- The −∞ splat over [32, 320], at any index. -/
theorem v10_apply (b : Fin 32) (l : Fin 320) : RefTerm.val_v10 (F := Ideal) (ix2 b l) = ⊥ :=
  (broadcastInDim_apply _ _ _ (ix2 b l) ix0 fun a => a.elim0).trans ofBits_neg_inf

/-- The row maxima at (b, l): the maximum with the −∞ splat changes nothing. -/
theorem v11_apply (a0 a1 : FVec Ideal S32x320x2048 .f32) (a2 a3 : FVec Ideal S2048x2048 .f32) (b : Fin 32) (l : Fin 320) :
    RefTerm.val_v11 (F := Ideal) a0 a1 a2 a3 (ix2 b l)
      = Cert.Spec.rowMax (fun m' => RefTerm.val_v8 (F := Ideal) a0 a1 a2 a3 (ix3 b l m')) := by
  unfold RefTerm.val_v11
  rw [maximumf_apply, v10_apply, max_eq_right bot_le]
  unfold RefTerm.val_v9
  generalize RefTerm.val_v8 (F := Ideal) a0 a1 a2 a3 = x
  exact rowMax_apply x b l

/-- The exponentials at (b, l, m). -/
theorem v15_apply (a0 a1 : FVec Ideal S32x320x2048 .f32) (a2 a3 : FVec Ideal S2048x2048 .f32) (b : Fin 32) (l m : Fin 320) :
    RefTerm.val_v15 (F := Ideal) a0 a1 a2 a3 (ix3 b l m)
      = Ideal.exp (RefTerm.val_v8 (F := Ideal) a0 a1 a2 a3 (ix3 b l m)
          - Cert.Spec.rowMax (fun m' => RefTerm.val_v8 (F := Ideal) a0 a1 a2 a3 (ix3 b l m'))) := by
  have e13 : RefTerm.val_v13 (F := Ideal) a0 a1 a2 a3 (ix3 b l m) = RefTerm.val_v11 (F := Ideal) a0 a1 a2 a3 (ix2 b l) := by
    unfold RefTerm.val_v13 RefTerm.val_v12
    generalize RefTerm.val_v11 (F := Ideal) a0 a1 a2 a3 = y
    exact bcast_back_apply y b l m
  unfold RefTerm.val_v15 RefTerm.val_v14
  rw [host_exp_apply, subf_apply, e13, v11_apply]

/-- The row sums of the exponentials at (b, l). -/
theorem v16_apply (a0 a1 : FVec Ideal S32x320x2048 .f32) (a2 a3 : FVec Ideal S2048x2048 .f32) (b : Fin 32) (l : Fin 320) :
    RefTerm.val_v16 (F := Ideal) a0 a1 a2 a3 (ix2 b l) = ∑ m' : Fin 320, RefTerm.val_v15 (F := Ideal) a0 a1 a2 a3 (ix3 b l m') := by
  unfold RefTerm.val_v16
  generalize RefTerm.val_v15 (F := Ideal) a0 a1 a2 a3 = x
  exact rowSum_apply x b l

/-- The probabilities at (b, l, m) are the row softmax of whatever the scaled logits of that row are. -/
theorem v19_of_row (a0 a1 : FVec Ideal S32x320x2048 .f32) (a2 a3 : FVec Ideal S2048x2048 .f32) (b : Fin 32) (l m : Fin 320)
    (S : Fin 320 → EReal) (hS : ∀ m', RefTerm.val_v8 (F := Ideal) a0 a1 a2 a3 (ix3 b l m') = S m') :
    RefTerm.val_v19 (F := Ideal) a0 a1 a2 a3 (ix3 b l m) = Cert.Spec.softmaxRow S m := by
  have e8 : (fun m' : Fin 320 => RefTerm.val_v8 (F := Ideal) a0 a1 a2 a3 (ix3 b l m')) = S := funext hS
  have e15 : ∀ m', RefTerm.val_v15 (F := Ideal) a0 a1 a2 a3 (ix3 b l m') = Ideal.exp (S m' - Cert.Spec.rowMax S) :=
    fun m' => by rw [v15_apply, e8, hS]
  have e18 : RefTerm.val_v18 (F := Ideal) a0 a1 a2 a3 (ix3 b l m) = RefTerm.val_v16 (F := Ideal) a0 a1 a2 a3 (ix2 b l) := by
    unfold RefTerm.val_v18 RefTerm.val_v17
    generalize RefTerm.val_v16 (F := Ideal) a0 a1 a2 a3 = y
    exact bcast_back_apply y b l m
  unfold RefTerm.val_v19 Cert.Spec.softmaxRow
  rw [host_divf_apply, e18, v16_apply, e15 m, Finset.sum_congr rfl fun m' _ => e15 m']

/-- The attention probabilities at (b, l, m): the row softmax of the reference-scaled logits of the projected support rows
    against the projected query rows. -/
theorem v19_apply (a0 a1 : FVec Ideal S32x320x2048 .f32) (a2 a3 : FVec Ideal S2048x2048 .f32) (b : Fin 32) (l m : Fin 320) :
    RefTerm.val_v19 (F := Ideal) a0 a1 a2 a3 (ix3 b l m)
      = Cert.Spec.softmaxRow (fun m' => Cert.Spec.scaleR (Cert.Spec.logitB
          (Cert.Spec.projB (fun f i => a1 (ix3 b f i)) (fun o i => a2 (ix2 o i)))
          (Cert.Spec.projB (fun f i => a0 (ix3 b f i)) (fun o i => a3 (ix2 o i))) l m')) m :=
  v19_of_row a0 a1 a2 a3 b l m _ fun m' => v8_apply a0 a1 a2 a3 b l m'

end Cert.ReferenceIdeal.ReadA

end
-- ==== Proof.RReadB.lean ====
/- The reference's result — attention output plus residual, LayerNorm over the features — as the specification's array. -/
import proofs.«404545_j32409823216126_3_alg».proof.Proof.RefTerm
import proofs.«404545_j32409823216126_3_alg».proof.Proof.Spec
import proofs.«404545_j32409823216126_3_alg».proof.Proof.RReadA
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.ReadB

open Cert.ReferenceIdeal Idealize.ShloMosaic Idealize.ShloMosaic.ValueIdx
open Facts₀ Facts

variable [Facts]

/-! ## Layout operations of the reference's tail, read at coordinates -/

section Layout
variable {α : Type}

/-- A scalar broadcast to [32, 2048, 1] reads the scalar everywhere. -/
theorem bcast_scalar_bo1 (x : S_.Idx → α) (b : Fin 32) (o : Fin 2048) (z : Fin 1) :
    broadcastInDim S32x2048x1 ![] bcast_S_S32x2048x1 x (ix3 b o z) = x ix0 :=
  broadcastInDim_apply _ _ x _ _ fun a => a.elim0

/-- [32, 2048] → [32, 2048, 1]: the entry (b, o). -/
theorem bcast_bo_bo1 (x : S32x2048.Idx → α) (b : Fin 32) (o : Fin 2048) (z : Fin 1) :
    broadcastInDim S32x2048x1 ![0, 1] bcast_S32x2048_S32x2048x1_0_1 x (ix3 b o z) = x (ix2 b o) :=
  broadcastInDim_apply _ _ x _ _ fun a => match a with | ⟨0, _⟩ => rfl | ⟨1, _⟩ => rfl

/-- [32, 2048, 1] → [32, 2048, 320]: the entry (b, o, 0) along every feature. -/
theorem bcast_bo1_bol (x : S32x2048x1.Idx → α) (b : Fin 32) (o : Fin 2048) (l : Fin 320) :
    broadcastInDim S32x2048x320 ![0, 1, 2] bcast_S32x2048x1_S32x2048x320_0_1_2 x (ix3 b o l) = x (ix3 b o (0 : Fin 1)) :=
  broadcastInDim_apply _ _ x _ _ fun a => match a with | ⟨0, _⟩ => rfl | ⟨1, _⟩ => rfl | ⟨2, _⟩ => rfl

/-- [320] → [1, 1, 320]: the entry l. -/
theorem bcast_l_11l (x : S320.Idx → α) (u v : Fin 1) (l : Fin 320) :
    broadcastInDim S1x1x320 ![2] bcast_S320_S1x1x320_2 x (ix3 u v l) = x (ix1 l) :=
  broadcastInDim_apply _ _ x _ _ fun a => match a with | ⟨0, _⟩ => rfl

/-- [1, 1, 320] → [32, 2048, 320]: the entry (0, 0, l). -/
theorem bcast_11l_bol (x : S1x1x320.Idx → α) (b : Fin 32) (o : Fin 2048) (l : Fin 320) :
    broadcastInDim S32x2048x320 ![0, 1, 2] bcast_S1x1x320_S32x2048x320_0_1_2 x (ix3 b o l)
      = x (ix3 (0 : Fin 1) (0 : Fin 1) l) :=
  broadcastInDim_apply _ _ x _ _ fun a => match a with | ⟨0, _⟩ => rfl | ⟨1, _⟩ => rfl | ⟨2, _⟩ => rfl

end Layout

/-! ## The sum over the 320 features and the batched product, read at coordinates -/

/-- The host's sum over the last axis of a [32, 2048, 320] array, at (b, o): the initial value plus the sum over the
    320 features. -/
theorem reduceAdd_bo (x : FVec Ideal S32x2048x320 .f32) (init : FVec Ideal S_ .f32) (b : Fin 32) (o : Fin 2048) :
    Host.reduceAdd (F := Ideal) x init reducesTo_S32x2048x320_S32x2048_d2 h_S_ (ix2 b o)
      = init ix0 + ∑ l : Fin 320, x (ix3 b o l) := by
  unfold Host.reduceAdd
  rw [Ideal.hostReduceAdd_def,
    Ideal.hostReduceAdd_single reducesTo_S32x2048x320_S32x2048_d2 (by decide : S32x2048x320.Reduces [2] S32x2048)]
  refine congrArg₂ (· + ·) (congrArg init (funext fun a => a.elim0)) (Finset.sum_congr rfl fun l _ => congrArg x ?_)
  funext a
  refine Fin.ext ?_
  match a with
  | ⟨0, _⟩ => rfl
  | ⟨1, _⟩ => rfl
  | ⟨2, _⟩ => rfl

/-! The batched product's operand indices: the batch coordinate on axis 0 of each, the output row on the left operand's
    axis 1, the output column on the right operand's axis 1, the contracted coordinate on axis 2 of each. -/

theorem av_lhs_0 (i : S32x320x2048.Idx) (q : dot_S32x320x320_S32x2048x320_S32x320x2048_2_2_1_1_0_0.contr.Idx) :
    (dot_S32x320x320_S32x2048x320_S32x320x2048_2_2_1_1_0_0.lhsIdx i q 0).val = (i 0).val := by
  unfold DotDims.lhsIdx
  rw [dif_pos (show (0 : Fin S32x320x320.rank) ∈ dot_S32x320x320_S32x2048x320_S32x320x2048_2_2_1_1_0_0.lhsBatch by
    simp [dot_S32x320x320_S32x2048x320_S32x320x2048_2_2_1_1_0_0])]
  rfl
theorem av_lhs_1 (i : S32x320x2048.Idx) (q : dot_S32x320x320_S32x2048x320_S32x320x2048_2_2_1_1_0_0.contr.Idx) :
    (dot_S32x320x320_S32x2048x320_S32x320x2048_2_2_1_1_0_0.lhsIdx i q 1).val = (i 1).val := by
  unfold DotDims.lhsIdx
  rw [dif_neg (show ¬(1 : Fin S32x320x320.rank) ∈ dot_S32x320x320_S32x2048x320_S32x320x2048_2_2_1_1_0_0.lhsBatch by
      simp [dot_S32x320x320_S32x2048x320_S32x320x2048_2_2_1_1_0_0]),
    dif_pos (show (1 : Fin S32x320x320.rank) ∈ dot_S32x320x320_S32x2048x320_S32x320x2048_2_2_1_1_0_0.lhsNonContracting by
      simp [dot_S32x320x320_S32x2048x320_S32x320x2048_2_2_1_1_0_0])]
  rfl
theorem av_lhs_2 (i : S32x320x2048.Idx) (q : dot_S32x320x320_S32x2048x320_S32x320x2048_2_2_1_1_0_0.contr.Idx) :
    (dot_S32x320x320_S32x2048x320_S32x320x2048_2_2_1_1_0_0.lhsIdx i q 2).val = (q ⟨0, Nat.one_pos⟩).val :=
  dot_S32x320x320_S32x2048x320_S32x320x2048_2_2_1_1_0_0.lhsIdx_val_of_single rfl i q
theorem av_rhs_0 (i : S32x320x2048.Idx) (q : dot_S32x320x320_S32x2048x320_S32x320x2048_2_2_1_1_0_0.contr.Idx) :
    (dot_S32x320x320_S32x2048x320_S32x320x2048_2_2_1_1_0_0.rhsIdx i q 0).val = (i 0).val := by
  unfold DotDims.rhsIdx
  rw [dif_pos (show (0 : Fin S32x2048x320.rank) ∈ dot_S32x320x320_S32x2048x320_S32x320x2048_2_2_1_1_0_0.rhsBatch by
    simp [dot_S32x320x320_S32x2048x320_S32x320x2048_2_2_1_1_0_0])]
  rfl
theorem av_rhs_1 (i : S32x320x2048.Idx) (q : dot_S32x320x320_S32x2048x320_S32x320x2048_2_2_1_1_0_0.contr.Idx) :
    (dot_S32x320x320_S32x2048x320_S32x320x2048_2_2_1_1_0_0.rhsIdx i q 1).val = (i 2).val := by
  unfold DotDims.rhsIdx
  rw [dif_neg (show ¬(1 : Fin S32x2048x320.rank) ∈ dot_S32x320x320_S32x2048x320_S32x320x2048_2_2_1_1_0_0.rhsBatch by
      simp [dot_S32x320x320_S32x2048x320_S32x320x2048_2_2_1_1_0_0]),
    dif_pos (show (1 : Fin S32x2048x320.rank) ∈ dot_S32x320x320_S32x2048x320_S32x320x2048_2_2_1_1_0_0.rhsNonContracting by
      simp [dot_S32x320x320_S32x2048x320_S32x320x2048_2_2_1_1_0_0])]
  rfl
theorem av_rhs_2 (i : S32x320x2048.Idx) (q : dot_S32x320x320_S32x2048x320_S32x320x2048_2_2_1_1_0_0.contr.Idx) :
    (dot_S32x320x320_S32x2048x320_S32x320x2048_2_2_1_1_0_0.rhsIdx i q 2).val = (q ⟨0, Nat.one_pos⟩).val :=
  dot_S32x320x320_S32x2048x320_S32x320x2048_2_2_1_1_0_0.rhsIdx_val_of_single rfl i q

/-- The batched product of a [32, 320, 320] array with a [32, 2048, 320] array over their last axes, at (b, l, o):
    the sum over m of P (b, l, m) · V (b, o, m). -/
theorem dot_av_apply (P : FVec Ideal S32x320x320 .f32) (V : FVec Ideal S32x2048x320 .f32) (b : Fin 32) (l : Fin 320) (o : Fin 2048) :
    Host.dotGeneral (F := Ideal) dot_S32x320x320_S32x2048x320_S32x320x2048_2_2_1_1_0_0 none P V (ix3 b l o)
      = ∑ m : Fin 320, P (ix3 b l m) * V (ix3 b o m) := by
  simp only [Host.dotGeneral]
  rw [Ideal.dotGeneral_apply,
    ← Equiv.sum_comp (contrEquiv1 dot_S32x320x320_S32x2048x320_S32x320x2048_2_2_1_1_0_0 320 rfl rfl).symm]
  refine Finset.sum_congr rfl fun m _ => ?_
  have hm := contrEquiv1_symm_val dot_S32x320x320_S32x2048x320_S32x320x2048_2_2_1_1_0_0 320 rfl rfl m
  have el : dot_S32x320x320_S32x2048x320_S32x320x2048_2_2_1_1_0_0.lhsIdx (ix3 b l o)
      ((contrEquiv1 dot_S32x320x320_S32x2048x320_S32x320x2048_2_2_1_1_0_0 320 rfl rfl).symm m) = ix3 b l m :=
    funext fun a => Fin.ext (by
      match a with
      | ⟨0, _⟩ => exact av_lhs_0 _ _
      | ⟨1, _⟩ => exact av_lhs_1 _ _
      | ⟨2, _⟩ => exact (av_lhs_2 _ _).trans hm)
  have er : dot_S32x320x320_S32x2048x320_S32x320x2048_2_2_1_1_0_0.rhsIdx (ix3 b l o)
      ((contrEquiv1 dot_S32x320x320_S32x2048x320_S32x320x2048_2_2_1_1_0_0 320 rfl rfl).symm m) = ix3 b o m :=
    funext fun a => Fin.ext (by
      match a with
      | ⟨0, _⟩ => exact av_rhs_0 _ _
      | ⟨1, _⟩ => exact av_rhs_1 _ _
      | ⟨2, _⟩ => exact (av_rhs_2 _ _).trans hm)
  rw [el, er]

/-! ## The scalar guard of the variance -/

/-- The divisor word denotes the real 320 … -/
theorem n320_eq : Cert.Spec.n320 = ((320 : ℝ) : EReal) := by
  unfold Cert.Spec.n320
  simp [Ideal.ofBits, Ideal.ieee]
  rw [← EReal.coe_mul]
  norm_num

/-- … which is positive. -/
theorem n320_pos : (0 : EReal) < Cert.Spec.n320 := by
  rw [n320_eq]
  exact EReal.coe_pos.mpr (by norm_num)

/-- The integer 0 converted is the extended real 0. -/
theorem var_v7_apply : RefTerm.var_v7 (F := Ideal) ix0 = 0 := by
  show (((0#32 : BitVec 32).toInt : ℝ) : EReal) = 0
  simp

/-- The variance's divisor, 320 minus the converted 0, is 320 as the shared word denotes it. -/
theorem var_v8_apply : RefTerm.var_v8 (F := Ideal) ix0 = Cert.Spec.n320 := by
  unfold RefTerm.var_v8
  rw [subf_apply, var_v7_apply, sub_zero]
  rfl

/-- The guard "divisor > 0" holds. -/
theorem var_v13_apply : RefTerm.var_v13 (F := Ideal) ix0 = 1#1 := by
  unfold RefTerm.var_v13
  rw [cmpf_apply, Ideal.cmpf_def, var_v8_apply]
  unfold RefTerm.var_cst_3
  rw [constant_apply, Ideal.ofBits_zero_f32]
  simp [Ideal.cmp, n320_pos]

/-! ## The stages at coordinates -/

section Stages
variable (a0 a1 : FVec Ideal S32x320x2048 .f32) (a2 a3 a4 : FVec Ideal S2048x2048 .f32) (a5 a6 : FVec Ideal S320 .f32)

/-- The attention output plus the residual, laid out (batch, channel, feature): at (b, o, l) the probabilities' row l
    against the value projection's column o, plus the query's entry (b, l, o). -/
theorem v22_apply (b : Fin 32) (o : Fin 2048) (l : Fin 320) :
    RefTerm.val_v22 (F := Ideal) a0 a1 a2 a3 a4 (ix3 b o l)
      = (∑ m : Fin 320, Cert.Spec.softmaxRow (fun m' => Cert.Spec.scaleR (Cert.Spec.logitB
            (Cert.Spec.projB (fun f i => a1 (ix3 b f i)) (fun o i => a2 (ix2 o i)))
            (Cert.Spec.projB (fun f i => a0 (ix3 b f i)) (fun o i => a3 (ix2 o i))) l m')) m
          * Cert.Spec.projB (fun f i => a0 (ix3 b f i)) (fun o' i => a4 (ix2 o' i)) m o) + a0 (ix3 b l o) := by
  unfold RefTerm.val_v22
  rw [transpose_ix3_021_apply]
  unfold RefTerm.val_v21
  rw [addf_apply]
  unfold RefTerm.val_v20
  rw [dot_av_apply]
  simp only [ReadA.v19_apply, ReadA.v5_apply]

/-- The column mean the normalisation subtracts. -/
theorem v26_apply (b : Fin 32) (o : Fin 2048) (z : Fin 1) :
    RefTerm.val_v26 (F := Ideal) a0 a1 a2 a3 a4 (ix3 b o z)
      = Cert.Spec.colMean (fun l => RefTerm.val_v22 (F := Ideal) a0 a1 a2 a3 a4 (ix3 b o l)) := by
  unfold RefTerm.val_v26
  simp only [Host.divf, Ideal.hostDivf_def]
  unfold RefTerm.val_v24 RefTerm.val_v25 RefTerm.val_v23 RefTerm.val_cst_3 RefTerm.val_cst_4
  rw [bcast_bo_bo1, bcast_scalar_bo1, reduceAdd_bo, constant_apply, constant_apply, Ideal.ofBits_zero_f32, zero_add]
  rfl

/-- The same mean inside the variance. -/
theorem var_v3_apply (b : Fin 32) (o : Fin 2048) (z : Fin 1) :
    RefTerm.var_v3 (F := Ideal) a0 a1 a2 a3 a4 (ix3 b o z)
      = Cert.Spec.colMean (fun l => RefTerm.val_v22 (F := Ideal) a0 a1 a2 a3 a4 (ix3 b o l)) := by
  unfold RefTerm.var_v3
  simp only [Host.divf, Ideal.hostDivf_def]
  unfold RefTerm.var_v1 RefTerm.var_v2 RefTerm.var_v0 RefTerm.var_cst RefTerm.var_cst_0
  rw [bcast_bo_bo1, bcast_scalar_bo1, reduceAdd_bo, constant_apply, constant_apply, Ideal.ofBits_zero_f32, zero_add]
  rfl

/-- The column variance: the guard holds, so the select returns the quotient by 320. -/
theorem v27_apply (b : Fin 32) (o : Fin 2048) (z : Fin 1) :
    RefTerm.val_v27 (F := Ideal) a0 a1 a2 a3 a4 (ix3 b o z)
      = Cert.Spec.colVar (fun l => RefTerm.val_v22 (F := Ideal) a0 a1 a2 a3 a4 (ix3 b o l)) := by
  unfold RefTerm.val_v27
  dsimp only
  rw [select_apply, bcast_scalar_bo1, var_v13_apply, select_one]
  unfold RefTerm.var_v12
  simp only [Host.divf, Ideal.hostDivf_def]
  unfold RefTerm.var_v10 RefTerm.var_v11 RefTerm.var_v9 RefTerm.var_cst_2
  rw [bcast_bo_bo1, bcast_scalar_bo1, var_v8_apply, reduceAdd_bo, constant_apply, Ideal.ofBits_zero_f32, zero_add]
  unfold Cert.Spec.colVar
  refine congrArg (Ideal.div · Cert.Spec.n320) (Finset.sum_congr rfl fun l _ => ?_)
  unfold RefTerm.var_v6
  rw [mulf_apply]
  unfold RefTerm.var_v5
  rw [subf_apply]
  unfold RefTerm.var_v4
  rw [bcast_bo1_bol, var_v3_apply]

/-- The normalised, scaled and shifted column, laid out (batch, channel, feature). -/
theorem v40_apply (b : Fin 32) (o : Fin 2048) (l : Fin 320) :
    RefTerm.val_v40 (F := Ideal) a0 a1 a2 a3 a4 a5 a6 (ix3 b o l)
      = Cert.Spec.layerNormCol (fun l' => a5 (ix1 l')) (fun l' => a6 (ix1 l'))
          (fun l' => RefTerm.val_v22 (F := Ideal) a0 a1 a2 a3 a4 (ix3 b o l')) l := by
  unfold RefTerm.val_v40
  rw [addf_apply]
  unfold RefTerm.val_v39 RefTerm.val_v38
  rw [bcast_11l_bol, bcast_l_11l]
  unfold RefTerm.val_v37
  rw [mulf_apply]
  unfold RefTerm.val_v36 RefTerm.val_v35
  rw [bcast_11l_bol, bcast_l_11l]
  unfold RefTerm.val_v34
  rw [mulf_apply]
  unfold RefTerm.val_v33
  rw [bcast_bo1_bol]
  unfold RefTerm.val_v32
  simp only [Host.rsqrt, Ideal.hostUnary_rsqrt_def]
  unfold RefTerm.val_v31
  rw [addf_apply, v27_apply]
  unfold RefTerm.val_v30 RefTerm.val_cst_5
  rw [bcast_scalar_bo1, constant_apply]
  unfold RefTerm.val_v29
  rw [subf_apply]
  unfold RefTerm.val_v28
  rw [bcast_bo1_bol, v26_apply]
  rfl

end Stages

/-- The reference's last stage is the specification's result with the reference's scaling of the logits. -/
theorem v41_eq (a0 a1 : FVec Ideal S32x320x2048 .f32) (a2 a3 a4 : FVec Ideal S2048x2048 .f32) (a5 a6 : FVec Ideal S320 .f32) :
    RefTerm.val_v41 (F := Ideal) a0 a1 a2 a3 a4 a5 a6 = Cert.Spec.res Cert.Spec.scaleR a0 a1 a2 a3 a4 a5 a6 := by
  funext j
  obtain ⟨b, l, o, rfl⟩ : ∃ (b : Fin 32) (l : Fin 320) (o : Fin 2048), j = ix3 b l o := ⟨j 0, j 1, j 2, eq_ix3 j⟩
  unfold RefTerm.val_v41
  rw [transpose_ix3_021_apply, v40_apply]
  simp only [v22_apply]
  rfl

end Cert.ReferenceIdeal.ReadB

end
-- ==== Proof.RValue.lean ====
/-
  The reference program's run with its result as the specification's array, with the reference's scaling of the logits.
-/
import proofs.«404545_j32409823216126_3_alg».proof.Proof.RefRun
import proofs.«404545_j32409823216126_3_alg».proof.Proof.RReadB

noncomputable section

namespace Cert.ReferenceIdeal.RValue

open Cert.ReferenceIdeal Idealize.ShloMosaic Idealize.ShloMosaic.TcCoe Idealize.SL.Sem

variable [Facts] (m : (ℓ : Loc nD τ sig) → Buf (Elt Ideal) ℓ) (ρ : Dev nD → PrngReg)

/-- The reference runs and ends with the specification's result and its arguments unchanged. -/
theorem run : θ_run (defs (F := Ideal)) (onTc (τ := τ) (main (F := Ideal))) ⟨m, fun _ => 0, ρ⟩ (fun r => ∀ c : Dev nD,
      r.2.mem ((c.tc : Thread nD τ).loc main_v41) = Cert.Spec.res Cert.Spec.scaleR (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)) :=
  (θ_run defs _ _).mono (fun _ h c => ⟨(h c).1.trans (ReadB.v41_eq _ _ _ _ _ _ _), (h c).2⟩) (RefRun.run (F := Ideal) m ρ)

end Cert.ReferenceIdeal.RValue

end
-- ==== Proof.lean ====
/-
  Both programs compute, for each of the 32 batches, attention over the 320 feature rows followed by a residual LayerNorm:
  project the support rows by Wq and the query rows by Wk and Wv; form the 320×320 logits; scale them by 1/√320; take the row
  softmax; multiply by the value projection; add the query rows; normalise every column over the 320 features with gamma and beta.

  The kernel does this in two launches (the support projection; then, per batch, the logits accumulated over four chunks of 512
  output channels, the softmax, and four column chunks of attention output, residual and LayerNorm) and MULTIPLIES the logits
  by a constant named 524288/9378749; the reference DIVIDES them by the f32 nearest √320, whose exact value is 9378749/524288.
  On the extended reals these are one function, and a sum taken in four chunks is the sum, so both runs end at one array of the
  seven arguments (`Cert.Spec.res`): the kernel's by reading its two launches' blocks back into whole arrays, the reference's by
  reading its operations one at a time. The frames are the generated ones; the reference's frame is its run with the result
  dropped; the one ledger entry of the idealization is the named constant's statement.
-/
import proofs.«404545_j32409823216126_3_alg».proof.Defs
import proofs.«404545_j32409823216126_3_alg».proof.Proof.Gen.Kernel
import proofs.«404545_j32409823216126_3_alg».proof.Proof.Gen.Kernel.Frame
import proofs.«404545_j32409823216126_3_alg».proof.Proof.Gen.KernelIdeal
import proofs.«404545_j32409823216126_3_alg».proof.Proof.Gen.KernelIdeal.Frame
import proofs.«404545_j32409823216126_3_alg».proof.Proof.Gen.ReferenceIdeal
import proofs.«404545_j32409823216126_3_alg».proof.Proof.Gen.Pre_finite_inputs
import proofs.«404545_j32409823216126_3_alg».proof.Proof.KValue
import proofs.«404545_j32409823216126_3_alg».proof.Proof.RValue
import Idealize.ShloMosaic.PureOps.IdealRules
import Idealize.ShloMosaic.Adequacy
import Idealize.ShloMosaic.Init

noncomputable section

namespace Cert.Proof

open Idealize.ShloMosaic Idealize.SL.Sem

attribute [local instance] Cert.Kernel.Gen.facts Cert.KernelIdeal.Gen.facts Cert.ReferenceIdeal.Gen.facts Cert.Pre_finite_inputs.Gen.facts

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization's one ledger entry: the table gives the named factor the value 524288/9378749, and the printed constant
    is that value over the extended reals. -/
theorem preserves : Cert.preserves_Kernel_KernelIdeal :=
  IdealRules.named_const.statement Cert.KernelIdeal.κ "inv_temp" .f32 0x3D64F92E#32 ((524288 / 9378749 : ℝ) : EReal) rfl

/-- From memories agreeing on the arguments both programs end at the specification's array: the kernel's with its own scaling
    of the logits, the reference's with its own, and the two scalings are one function. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RValue.run m' ρ')
  rw [(hagree c).1, (hagree c).2.1, (hagree c).2.2.1, (hagree c).2.2.2.1, (hagree c).2.2.2.2.1, (hagree c).2.2.2.2.2.1, (hagree c).2.2.2.2.2.2, Cert.Spec.scaleK_eq_scaleR]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
